-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v153_0)) (v1 : (c : Dev Cert.KernelIdeal.nD) → Buf (Elt Ideal) ((c.tc : Thread Cert.KernelIdeal.nD Cert.KernelIdeal.τ).loc Cert.KernelIdeal.main_v153_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153_0) = v0 c
          ∧ r.2.mem ((c.tc : Thread Cert.KernelIdeal.nD Cert.KernelIdeal.τ).loc Cert.KernelIdeal.main_v153_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x100 : Shape := ⟨2, ![8192, 100]⟩
abbrev S100x10 : Shape := ⟨2, ![100, 10]⟩
abbrev S100x10x5 : Shape := ⟨3, ![100, 10, 5]⟩
abbrev S100x5 : Shape := ⟨2, ![100, 5]⟩
abbrev S100x5x2 : Shape := ⟨3, ![100, 5, 2]⟩
abbrev S100x2 : Shape := ⟨2, ![100, 2]⟩
abbrev S100x2x2 : Shape := ⟨3, ![100, 2, 2]⟩
abbrev S100x2x25 : Shape := ⟨3, ![100, 2, 25]⟩
abbrev S100x25 : Shape := ⟨2, ![100, 25]⟩
abbrev S100x25x50 : Shape := ⟨3, ![100, 25, 50]⟩
abbrev S100x50 : Shape := ⟨2, ![100, 50]⟩
abbrev S100x50x100 : Shape := ⟨3, ![100, 50, 100]⟩
abbrev S100x100 : Shape := ⟨2, ![100, 100]⟩
abbrev S_ : Shape := ⟨0, ![]⟩

class Facts : Prop where
  bcast_S_S8192x100 : S_.BroadcastsInDim S8192x100 (![] : Fin 0 → Fin S8192x100.rank)
  reducesTo_S8192x100_S_d0_1 : S8192x100.ReducesTo [0, 1] S_
  h_S_ : 0 < S_.numel
  bcast_S_S100x10x5 : S_.BroadcastsInDim S100x10x5 (![] : Fin 0 → Fin S100x10x5.rank)
  reducesTo_S100x10x5_S_d0_1_2 : S100x10x5.ReducesTo [0, 1, 2] S_
  bcast_S_S100x5 : S_.BroadcastsInDim S100x5 (![] : Fin 0 → Fin S100x5.rank)
  reducesTo_S100x5_S_d0_1 : S100x5.ReducesTo [0, 1] S_
  bcast_S_S100x5x2 : S_.BroadcastsInDim S100x5x2 (![] : Fin 0 → Fin S100x5x2.rank)
  reducesTo_S100x5x2_S_d0_1_2 : S100x5x2.ReducesTo [0, 1, 2] S_
  bcast_S_S100x2 : S_.BroadcastsInDim S100x2 (![] : Fin 0 → Fin S100x2.rank)
  reducesTo_S100x2_S_d0_1 : S100x2.ReducesTo [0, 1] S_
  bcast_S_S100x2x2 : S_.BroadcastsInDim S100x2x2 (![] : Fin 0 → Fin S100x2x2.rank)
  reducesTo_S100x2x2_S_d0_1_2 : S100x2x2.ReducesTo [0, 1, 2] S_
  bcast_S_S100x2x25 : S_.BroadcastsInDim S100x2x25 (![] : Fin 0 → Fin S100x2x25.rank)
  reducesTo_S100x2x25_S_d0_1_2 : S100x2x25.ReducesTo [0, 1, 2] S_
  bcast_S_S100x25 : S_.BroadcastsInDim S100x25 (![] : Fin 0 → Fin S100x25.rank)
  reducesTo_S100x25_S_d0_1 : S100x25.ReducesTo [0, 1] S_
  bcast_S_S100x25x50 : S_.BroadcastsInDim S100x25x50 (![] : Fin 0 → Fin S100x25x50.rank)
  reducesTo_S100x25x50_S_d0_1_2 : S100x25x50.ReducesTo [0, 1, 2] S_
  bcast_S_S100x50 : S_.BroadcastsInDim S100x50 (![] : Fin 0 → Fin S100x50.rank)
  reducesTo_S100x50_S_d0_1 : S100x50.ReducesTo [0, 1] S_
  bcast_S_S100x50x100 : S_.BroadcastsInDim S100x50x100 (![] : Fin 0 → Fin S100x50x100.rank)
  reducesTo_S100x50x100_S_d0_1_2 : S100x50x100.ReducesTo [0, 1, 2] S_
  bcast_S_S100x100 : S_.BroadcastsInDim S100x100 (![] : Fin 0 → Fin S100x100.rank)
  reducesTo_S100x100_S_d0_1 : S100x100.ReducesTo [0, 1] S_
  bcast_S_S100x10 : S_.BroadcastsInDim S100x10 (![] : Fin 0 → Fin S100x10.rank)
  reducesTo_S100x10_S_d0_1 : S100x10.ReducesTo [0, 1] S_

variable [Facts]

def fn_part5 {F : FTy → Type} [FloatOps F] (main_arg1 : IVec S100x10 32) (main_arg19 : FVec F S100x100 .f32) (main_v83 : IVec S_ 1) (main_v84 : FVec F S100x50x100 .f32) (main_cst_32 : FVec F S_ .f32) : IVec S_ 1 :=
  let main_v85 : FVec F S100x50x100 .f32 := broadcastInDim S100x50x100 ![] bcast_S_S100x50x100 main_cst_32
  let main_v86 : IVec S100x50x100 1 := cmpf .olt main_v84 main_v85
  let main_c_33 : IVec S_ 1 := constantI S_ 1 1#1
  let main_v87 : IVec S_ 1 := (fun x v => Host.reduce IntOp.andi x v reducesTo_S100x50x100_S_d0_1_2 h_S_) main_v86 main_c_33
  let main_v88 : IVec S_ 1 := andi main_v83 main_v87
  let main_v89 : FVec F S100x100 .f32 := Host.absf main_arg19
  let main_cst_34 : FVec F S_ .f32 := constant S_ .f32 0x7F800000#32
  let main_v90 : FVec F S100x100 .f32 := broadcastInDim S100x100 ![] bcast_S_S100x100 main_cst_34
  let main_v91 : IVec S100x100 1 := cmpf .olt main_v89 main_v90
  let main_c_35 : IVec S_ 1 := constantI S_ 1 1#1
  let main_v92 : IVec S_ 1 := (fun x v => Host.reduce IntOp.andi x v reducesTo_S100x100_S_d0_1 h_S_) main_v91 main_c_35
  let main_v93 : IVec S_ 1 := andi main_v88 main_v92
  let main_c_36 : IVec S_ 32 := constantI S_ 32 0#32
  let main_v94 : IVec S100x10 32 := broadcastInDim S100x10 ![] bcast_S_S100x10 main_c_36
  let main_v95 : IVec S100x10 1 := cmpi .sge main_arg1 main_v94
  let main_c_37 : IVec S_ 1 := constantI S_ 1 1#1
  let main_v96 : IVec S_ 1 := (fun x v => Host.reduce IntOp.andi x v reducesTo_S100x10_S_d0_1 h_S_) main_v95 main_c_37
  let main_v97 : IVec S_ 1 := andi main_v93 main_v96
  let main_c_38 : IVec S_ 32 := constantI S_ 32 100#32
  let main_v98 : IVec S100x10 32 := broadcastInDim S100x10 ![] bcast_S_S100x10 main_c_38
  let main_v99 : IVec S100x10 1 := cmpi .slt main_arg1 main_v98
  let main_c_39 : IVec S_ 1 := constantI S_ 1 1#1
  let main_v100 : IVec S_ 1 := (fun x v => Host.reduce IntOp.andi x v reducesTo_S100x10_S_d0_1 h_S_) main_v99 main_c_39
  let main_v101 : IVec S_ 1 := andi main_v97 main_v100
  main_v101

def fn_part4 {F : FTy → Type} [FloatOps F] (main_arg1 : IVec S100x10 32) (main_arg15 : FVec F S100x25 .f32) (main_arg16 : FVec F S100x25x50 .f32) (main_arg17 : FVec F S100x50 .f32) (main_arg18 : FVec F S100x50x100 .f32) (main_arg19 : FVec F S100x100 .f32) (main_v63 : IVec S_ 1) (main_v67 : IVec S_ 1) : IVec S_ 1 :=
  let main_v68 : IVec S_ 1 := andi main_v63 main_v67
  let main_v69 : FVec F S100x25 .f32 := Host.absf main_arg15
  let main_cst_26 : FVec F S_ .f32 := constant S_ .f32 0x7F800000#32
  let main_v70 : FVec F S100x25 .f32 := broadcastInDim S100x25 ![] bcast_S_S100x25 main_cst_26
  let main_v71 : IVec S100x25 1 := cmpf .olt main_v69 main_v70
  let main_c_27 : IVec S_ 1 := constantI S_ 1 1#1
  let main_v72 : IVec S_ 1 := (fun x v => Host.reduce IntOp.andi x v reducesTo_S100x25_S_d0_1 h_S_) main_v71 main_c_27
  let main_v73 : IVec S_ 1 := andi main_v68 main_v72
  let main_v74 : FVec F S100x25x50 .f32 := Host.absf main_arg16
  let main_cst_28 : FVec F S_ .f32 := constant S_ .f32 0x7F800000#32
  let main_v75 : FVec F S100x25x50 .f32 := broadcastInDim S100x25x50 ![] bcast_S_S100x25x50 main_cst_28
  let main_v76 : IVec S100x25x50 1 := cmpf .olt main_v74 main_v75
  let main_c_29 : IVec S_ 1 := constantI S_ 1 1#1
  let main_v77 : IVec S_ 1 := (fun x v => Host.reduce IntOp.andi x v reducesTo_S100x25x50_S_d0_1_2 h_S_) main_v76 main_c_29
  let main_v78 : IVec S_ 1 := andi main_v73 main_v77
  let main_v79 : FVec F S100x50 .f32 := Host.absf main_arg17
  let main_cst_30 : FVec F S_ .f32 := constant S_ .f32 0x7F800000#32
  let main_v80 : FVec F S100x50 .f32 := broadcastInDim S100x50 ![] bcast_S_S100x50 main_cst_30
  let main_v81 : IVec S100x50 1 := cmpf .olt main_v79 main_v80
  let main_c_31 : IVec S_ 1 := constantI S_ 1 1#1
  let main_v82 : IVec S_ 1 := (fun x v => Host.reduce IntOp.andi x v reducesTo_S100x50_S_d0_1 h_S_) main_v81 main_c_31
  let main_v83 : IVec S_ 1 := andi main_v78 main_v82
  let main_v84 : FVec F S100x50x100 .f32 := Host.absf main_arg18
  let main_cst_32 : FVec F S_ .f32 := constant S_ .f32 0x7F800000#32
  fn_part5 (F := F) main_arg1 main_arg19 main_v83 main_v84 main_cst_32

def fn_part3 {F : FTy → Type} [FloatOps F] (main_arg1 : IVec S100x10 32) (main_arg12 : FVec F S100x50x100 .f32) (main_arg13 : FVec F S100x100 .f32) (main_arg14 : FVec F S100x2x25 .f32) (main_arg15 : FVec F S100x25 .f32) (main_arg16 : FVec F S100x25x50 .f32) (main_arg17 : FVec F S100x50 .f32) (main_arg18 : FVec F S100x50x100 .f32) (main_arg19 : FVec F S100x100 .f32) (main_v48 : IVec S_ 1) (main_v49 : FVec F S100x50 .f32) (main_v50 : FVec F S100x50 .f32) : IVec S_ 1 :=
  let main_v51 : IVec S100x50 1 := cmpf .olt main_v49 main_v50
  let main_c_19 : IVec S_ 1 := constantI S_ 1 1#1
  let main_v52 : IVec S_ 1 := (fun x v => Host.reduce IntOp.andi x v reducesTo_S100x50_S_d0_1 h_S_) main_v51 main_c_19
  let main_v53 : IVec S_ 1 := andi main_v48 main_v52
  let main_v54 : FVec F S100x50x100 .f32 := Host.absf main_arg12
  let main_cst_20 : FVec F S_ .f32 := constant S_ .f32 0x7F800000#32
  let main_v55 : FVec F S100x50x100 .f32 := broadcastInDim S100x50x100 ![] bcast_S_S100x50x100 main_cst_20
  let main_v56 : IVec S100x50x100 1 := cmpf .olt main_v54 main_v55
  let main_c_21 : IVec S_ 1 := constantI S_ 1 1#1
  let main_v57 : IVec S_ 1 := (fun x v => Host.reduce IntOp.andi x v reducesTo_S100x50x100_S_d0_1_2 h_S_) main_v56 main_c_21
  let main_v58 : IVec S_ 1 := andi main_v53 main_v57
  let main_v59 : FVec F S100x100 .f32 := Host.absf main_arg13
  let main_cst_22 : FVec F S_ .f32 := constant S_ .f32 0x7F800000#32
  let main_v60 : FVec F S100x100 .f32 := broadcastInDim S100x100 ![] bcast_S_S100x100 main_cst_22
  let main_v61 : IVec S100x100 1 := cmpf .olt main_v59 main_v60
  let main_c_23 : IVec S_ 1 := constantI S_ 1 1#1
  let main_v62 : IVec S_ 1 := (fun x v => Host.reduce IntOp.andi x v reducesTo_S100x100_S_d0_1 h_S_) main_v61 main_c_23
  let main_v63 : IVec S_ 1 := andi main_v58 main_v62
  let main_v64 : FVec F S100x2x25 .f32 := Host.absf main_arg14
  let main_cst_24 : FVec F S_ .f32 := constant S_ .f32 0x7F800000#32
  let main_v65 : FVec F S100x2x25 .f32 := broadcastInDim S100x2x25 ![] bcast_S_S100x2x25 main_cst_24
  let main_v66 : IVec S100x2x25 1 := cmpf .olt main_v64 main_v65
  let main_c_25 : IVec S_ 1 := constantI S_ 1 1#1
  let main_v67 : IVec S_ 1 := (fun x v => Host.reduce IntOp.andi x v reducesTo_S100x2x25_S_d0_1_2 h_S_) main_v66 main_c_25
  fn_part4 (F := F) main_arg1 main_arg15 main_arg16 main_arg17 main_arg18 main_arg19 main_v63 main_v67

def fn_part2 {F : FTy → Type} [FloatOps F] (main_arg1 : IVec S100x10 32) (main_arg8 : FVec F S100x2x25 .f32) (main_arg9 : FVec F S100x25 .f32) (main_arg10 : FVec F S100x25x50 .f32) (main_arg11 : FVec F S100x50 .f32) (main_arg12 : FVec F S100x50x100 .f32) (main_arg13 : FVec F S100x100 .f32) (main_arg14 : FVec F S100x2x25 .f32) (main_arg15 : FVec F S100x25 .f32) (main_arg16 : FVec F S100x25x50 .f32) (main_arg17 : FVec F S100x50 .f32) (main_arg18 : FVec F S100x50x100 .f32) (main_arg19 : FVec F S100x100 .f32) (main_v33 : IVec S_ 1) : IVec S_ 1 :=
  let main_v34 : FVec F S100x2x25 .f32 := Host.absf main_arg8
  let main_cst_12 : FVec F S_ .f32 := constant S_ .f32 0x7F800000#32
  let main_v35 : FVec F S100x2x25 .f32 := broadcastInDim S100x2x25 ![] bcast_S_S100x2x25 main_cst_12
  let main_v36 : IVec S100x2x25 1 := cmpf .olt main_v34 main_v35
  let main_c_13 : IVec S_ 1 := constantI S_ 1 1#1
  let main_v37 : IVec S_ 1 := (fun x v => Host.reduce IntOp.andi x v reducesTo_S100x2x25_S_d0_1_2 h_S_) main_v36 main_c_13
  let main_v38 : IVec S_ 1 := andi main_v33 main_v37
  let main_v39 : FVec F S100x25 .f32 := Host.absf main_arg9
  let main_cst_14 : FVec F S_ .f32 := constant S_ .f32 0x7F800000#32
  let main_v40 : FVec F S100x25 .f32 := broadcastInDim S100x25 ![] bcast_S_S100x25 main_cst_14
  let main_v41 : IVec S100x25 1 := cmpf .olt main_v39 main_v40
  let main_c_15 : IVec S_ 1 := constantI S_ 1 1#1
  let main_v42 : IVec S_ 1 := (fun x v => Host.reduce IntOp.andi x v reducesTo_S100x25_S_d0_1 h_S_) main_v41 main_c_15
  let main_v43 : IVec S_ 1 := andi main_v38 main_v42
  let main_v44 : FVec F S100x25x50 .f32 := Host.absf main_arg10
  let main_cst_16 : FVec F S_ .f32 := constant S_ .f32 0x7F800000#32
  let main_v45 : FVec F S100x25x50 .f32 := broadcastInDim S100x25x50 ![] bcast_S_S100x25x50 main_cst_16
  let main_v46 : IVec S100x25x50 1 := cmpf .olt main_v44 main_v45
  let main_c_17 : IVec S_ 1 := constantI S_ 1 1#1
  let main_v47 : IVec S_ 1 := (fun x v => Host.reduce IntOp.andi x v reducesTo_S100x25x50_S_d0_1_2 h_S_) main_v46 main_c_17
  let main_v48 : IVec S_ 1 := andi main_v43 main_v47
  let main_v49 : FVec F S100x50 .f32 := Host.absf main_arg11
  let main_cst_18 : FVec F S_ .f32 := constant S_ .f32 0x7F800000#32
  let main_v50 : FVec F S100x50 .f32 := broadcastInDim S100x50 ![] bcast_S_S100x50 main_cst_18
  fn_part3 (F := F) main_arg1 main_arg12 main_arg13 main_arg14 main_arg15 main_arg16 main_arg17 main_arg18 main_arg19 main_v48 main_v49 main_v50

def fn_part1 {F : FTy → Type} [FloatOps F] (main_arg1 : IVec S100x10 32) (main_arg5 : FVec F S100x2 .f32) (main_arg6 : FVec F S100x2x2 .f32) (main_arg7 : FVec F S100x2 .f32) (main_arg8 : FVec F S100x2x25 .f32) (main_arg9 : FVec F S100x25 .f32) (main_arg10 : FVec F S100x25x50 .f32) (main_arg11 : FVec F S100x50 .f32) (main_arg12 : FVec F S100x50x100 .f32) (main_arg13 : FVec F S100x100 .f32) (main_arg14 : FVec F S100x2x25 .f32) (main_arg15 : FVec F S100x25 .f32) (main_arg16 : FVec F S100x25x50 .f32) (main_arg17 : FVec F S100x50 .f32) (main_arg18 : FVec F S100x50x100 .f32) (main_arg19 : FVec F S100x100 .f32) (main_v13 : IVec S_ 1) (main_v16 : IVec S100x5x2 1) : IVec S_ 1 :=
  let main_c_5 : IVec S_ 1 := constantI S_ 1 1#1
  let main_v17 : IVec S_ 1 := (fun x v => Host.reduce IntOp.andi x v reducesTo_S100x5x2_S_d0_1_2 h_S_) main_v16 main_c_5
  let main_v18 : IVec S_ 1 := andi main_v13 main_v17
  let main_v19 : FVec F S100x2 .f32 := Host.absf main_arg5
  let main_cst_6 : FVec F S_ .f32 := constant S_ .f32 0x7F800000#32
  let main_v20 : FVec F S100x2 .f32 := broadcastInDim S100x2 ![] bcast_S_S100x2 main_cst_6
  let main_v21 : IVec S100x2 1 := cmpf .olt main_v19 main_v20
  let main_c_7 : IVec S_ 1 := constantI S_ 1 1#1
  let main_v22 : IVec S_ 1 := (fun x v => Host.reduce IntOp.andi x v reducesTo_S100x2_S_d0_1 h_S_) main_v21 main_c_7
  let main_v23 : IVec S_ 1 := andi main_v18 main_v22
  let main_v24 : FVec F S100x2x2 .f32 := Host.absf main_arg6
  let main_cst_8 : FVec F S_ .f32 := constant S_ .f32 0x7F800000#32
  let main_v25 : FVec F S100x2x2 .f32 := broadcastInDim S100x2x2 ![] bcast_S_S100x2x2 main_cst_8
  let main_v26 : IVec S100x2x2 1 := cmpf .olt main_v24 main_v25
  let main_c_9 : IVec S_ 1 := constantI S_ 1 1#1
  let main_v27 : IVec S_ 1 := (fun x v => Host.reduce IntOp.andi x v reducesTo_S100x2x2_S_d0_1_2 h_S_) main_v26 main_c_9
  let main_v28 : IVec S_ 1 := andi main_v23 main_v27
  let main_v29 : FVec F S100x2 .f32 := Host.absf main_arg7
  let main_cst_10 : FVec F S_ .f32 := constant S_ .f32 0x7F800000#32
  let main_v30 : FVec F S100x2 .f32 := broadcastInDim S100x2 ![] bcast_S_S100x2 main_cst_10
  let main_v31 : IVec S100x2 1 := cmpf .olt main_v29 main_v30
  let main_c_11 : IVec S_ 1 := constantI S_ 1 1#1
  let main_v32 : IVec S_ 1 := (fun x v => Host.reduce IntOp.andi x v reducesTo_S100x2_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_v33

def fn {F : FTy → Type} [FloatOps F] (main_arg0 : FVec F S8192x100 .f32) (main_arg1 : IVec S100x10 32) (main_arg2 : FVec F S100x10x5 .f32) (main_arg3 : FVec F S100x5 .f32) (main_arg4 : FVec F S100x5x2 .f32) (main_arg5 : FVec F S100x2 .f32) (main_arg6 : FVec F S100x2x2 .f32) (main_arg7 : FVec F S100x2 .f32) (main_arg8 : FVec F S100x2x25 .f32) (main_arg9 : FVec F S100x25 .f32) (main_arg10 : FVec F S100x25x50 .f32) (main_arg11 : FVec F S100x50 .f32) (main_arg12 : FVec F S100x50x100 .f32) (main_arg13 : FVec F S100x100 .f32) (main_arg14 : FVec F S100x2x25 .f32) (main_arg15 : FVec F S100x25 .f32) (main_arg16 : FVec F S100x25x50 .f32) (main_arg17 : FVec F S100x50 .f32) (main_arg18 : FVec F S100x50x100 .f32) (main_arg19 : FVec F S100x100 .f32) : IVec S_ 1 :=
  let main_v0 : FVec F S8192x100 .f32 := Host.absf main_arg0
  let main_cst : FVec F S_ .f32 := constant S_ .f32 0x7F800000#32
  let main_v1 : FVec F S8192x100 .f32 := broadcastInDim S8192x100 ![] bcast_S_S8192x100 main_cst
  let main_v2 : IVec S8192x100 1 := cmpf .olt main_v0 main_v1
  let main_c : IVec S_ 1 := constantI S_ 1 1#1
  let main_v3 : IVec S_ 1 := (fun x v => Host.reduce IntOp.andi x v reducesTo_S8192x100_S_d0_1 h_S_) main_v2 main_c
  let main_v4 : FVec F S100x10x5 .f32 := Host.absf main_arg2
  let main_cst_0 : FVec F S_ .f32 := constant S_ .f32 0x7F800000#32
  let main_v5 : FVec F S100x10x5 .f32 := broadcastInDim S100x10x5 ![] bcast_S_S100x10x5 main_cst_0
  let main_v6 : IVec S100x10x5 1 := cmpf .olt main_v4 main_v5
  let main_c_1 : IVec S_ 1 := constantI S_ 1 1#1
  let main_v7 : IVec S_ 1 := (fun x v => Host.reduce IntOp.andi x v reducesTo_S100x10x5_S_d0_1_2 h_S_) main_v6 main_c_1
  let main_v8 : IVec S_ 1 := andi main_v3 main_v7
  let main_v9 : FVec F S100x5 .f32 := Host.absf main_arg3
  let main_cst_2 : FVec F S_ .f32 := constant S_ .f32 0x7F800000#32
  let main_v10 : FVec F S100x5 .f32 := broadcastInDim S100x5 ![] bcast_S_S100x5 main_cst_2
  let main_v11 : IVec S100x5 1 := cmpf .olt main_v9 main_v10
  let main_c_3 : IVec S_ 1 := constantI S_ 1 1#1
  let main_v12 : IVec S_ 1 := (fun x v => Host.reduce IntOp.andi x v reducesTo_S100x5_S_d0_1 h_S_) main_v11 main_c_3
  let main_v13 : IVec S_ 1 := andi main_v8 main_v12
  let main_v14 : FVec F S100x5x2 .f32 := Host.absf main_arg4
  let main_cst_4 : FVec F S_ .f32 := constant S_ .f32 0x7F800000#32
  let main_v15 : FVec F S100x5x2 .f32 := broadcastInDim S100x5x2 ![] bcast_S_S100x5x2 main_cst_4
  let main_v16 : IVec S100x5x2 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_v13 main_v16
-- ==== Kernel.lean ====
abbrev S8192x100 : Shape := ⟨2, ![8192, 100]⟩
abbrev S100x10 : Shape := ⟨2, ![100, 10]⟩
abbrev S100x10x5 : Shape := ⟨3, ![100, 10, 5]⟩
abbrev S100x5 : Shape := ⟨2, ![100, 5]⟩
abbrev S100x5x2 : Shape := ⟨3, ![100, 5, 2]⟩
abbrev S100x2 : Shape := ⟨2, ![100, 2]⟩
abbrev S100x2x2 : Shape := ⟨3, ![100, 2, 2]⟩
abbrev S100x2x25 : Shape := ⟨3, ![100, 2, 25]⟩
abbrev S100x25 : Shape := ⟨2, ![100, 25]⟩
abbrev S100x25x50 : Shape := ⟨3, ![100, 25, 50]⟩
abbrev S100x50 : Shape := ⟨2, ![100, 50]⟩
abbrev S100x50x100 : Shape := ⟨3, ![100, 50, 100]⟩
abbrev S100x100 : Shape := ⟨2, ![100, 100]⟩
abbrev S100 : Shape := ⟨1, ![100]⟩
abbrev S1x100x1 : Shape := ⟨3, ![1, 100, 1]⟩
abbrev S100x1x10 : Shape := ⟨3, ![100, 1, 10]⟩
abbrev S100x100x10 : Shape := ⟨3, ![100, 100, 10]⟩
abbrev S100x100x5 : Shape := ⟨3, ![100, 100, 5]⟩
abbrev S25x4x100x5 : Shape := ⟨4, ![25, 4, 100, 5]⟩
abbrev S25x100x4x5 : Shape := ⟨4, ![25, 100, 4, 5]⟩
abbrev S25x100x20 : Shape := ⟨3, ![25, 100, 20]⟩
abbrev S25x4x5 : Shape := ⟨3, ![25, 4, 5]⟩
abbrev S25x1x20 : Shape := ⟨3, ![25, 1, 20]⟩
abbrev S25x4x5x2 : Shape := ⟨4, ![25, 4, 5, 2]⟩
abbrev S4x4 : Shape := ⟨2, ![4, 4]⟩
abbrev S_ : Shape := ⟨0, ![]⟩
abbrev S25x4x1x5x2 : Shape := ⟨5, ![25, 4, 1, 5, 2]⟩
abbrev S1x4x4x1x1 : Shape := ⟨5, ![1, 4, 4, 1, 1]⟩
abbrev S25x4x4x5x2 : Shape := ⟨5, ![25, 4, 4, 5, 2]⟩
abbrev S25x4x5x4x2 : Shape := ⟨5, ![25, 4, 5, 4, 2]⟩
abbrev S25x20x8 : Shape := ⟨3, ![25, 20, 8]⟩
abbrev S25x4x2 : Shape := ⟨3, ![25, 4, 2]⟩
abbrev S25x1x8 : Shape := ⟨3, ![25, 1, 8]⟩
abbrev S25x4x2x2 : Shape := ⟨4, ![25, 4, 2, 2]⟩
abbrev S25x4x1x2x2 : Shape := ⟨5, ![25, 4, 1, 2, 2]⟩
abbrev S25x4x4x2x2 : Shape := ⟨5, ![25, 4, 4, 2, 2]⟩
abbrev S25x4x2x4x2 : Shape := ⟨5, ![25, 4, 2, 4, 2]⟩
abbrev S25x8x8 : Shape := ⟨3, ![25, 8, 8]⟩
abbrev S25x4x2x25 : Shape := ⟨4, ![25, 4, 2, 25]⟩
abbrev S25x4x1x2x25 : Shape := ⟨5, ![25, 4, 1, 2, 25]⟩
abbrev S25x4x4x2x25 : Shape := ⟨5, ![25, 4, 4, 2, 25]⟩
abbrev S25x4x2x4x25 : Shape := ⟨5, ![25, 4, 2, 4, 25]⟩
abbrev S25x8x100 : Shape := ⟨3, ![25, 8, 100]⟩
abbrev S25x4x25 : Shape := ⟨3, ![25, 4, 25]⟩
abbrev S25x1x100 : Shape := ⟨3, ![25, 1, 100]⟩
abbrev S25x4x25x50 : Shape := ⟨4, ![25, 4, 25, 50]⟩
abbrev S25x4x1x25x50 : Shape := ⟨5, ![25, 4, 1, 25, 50]⟩
abbrev S25x4x4x25x50 : Shape := ⟨5, ![25, 4, 4, 25, 50]⟩
abbrev S25x4x25x4x50 : Shape := ⟨5, ![25, 4, 25, 4, 50]⟩
abbrev S25x100x200 : Shape := ⟨3, ![25, 100, 200]⟩
abbrev S25x4x50 : Shape := ⟨3, ![25, 4, 50]⟩
abbrev S25x1x200 : Shape := ⟨3, ![25, 1, 200]⟩
abbrev S25x4x50x100 : Shape := ⟨4, ![25, 4, 50, 100]⟩
abbrev S25x4x50x128 : Shape := ⟨4, ![25, 4, 50, 128]⟩
abbrev S1 : Shape := ⟨1, ![1]⟩
abbrev S25x4x1x50x128 : Shape := ⟨5, ![25, 4, 1, 50, 128]⟩
abbrev S25x4x4x50x128 : Shape := ⟨5, ![25, 4, 4, 50, 128]⟩
abbrev S25x4x50x4x128 : Shape := ⟨5, ![25, 4, 50, 4, 128]⟩
abbrev S25x200x512 : Shape := ⟨3, ![25, 200, 512]⟩
abbrev S25x4x100 : Shape := ⟨3, ![25, 4, 100]⟩
abbrev S25x4x128 : Shape := ⟨3, ![25, 4, 128]⟩
abbrev S25x1x512 : Shape := ⟨3, ![25, 1, 512]⟩
abbrev S100x8192x100 : Shape := ⟨3, ![100, 8192, 100]⟩
abbrev S2048x100 : Shape := ⟨2, ![2048, 100]⟩
abbrev S1x100x20 : Shape := ⟨3, ![1, 100, 20]⟩
abbrev S1x1x20 : Shape := ⟨3, ![1, 1, 20]⟩
abbrev S1x20x8 : Shape := ⟨3, ![1, 20, 8]⟩
abbrev S1x1x8 : Shape := ⟨3, ![1, 1, 8]⟩
abbrev S1x8x8 : Shape := ⟨3, ![1, 8, 8]⟩
abbrev S1x8x100 : Shape := ⟨3, ![1, 8, 100]⟩
abbrev S1x1x100 : Shape := ⟨3, ![1, 1, 100]⟩
abbrev S1x100x200 : Shape := ⟨3, ![1, 100, 200]⟩
abbrev S1x1x200 : Shape := ⟨3, ![1, 1, 200]⟩
abbrev S1x200x512 : Shape := ⟨3, ![1, 200, 512]⟩
abbrev S1x1x512 : Shape := ⟨3, ![1, 1, 512]⟩
abbrev S4x2048x100 : Shape := ⟨3, ![4, 2048, 100]⟩
abbrev S100x20 : Shape := ⟨2, ![100, 20]⟩
abbrev S2048x20 : Shape := ⟨2, ![2048, 20]⟩
abbrev S20 : Shape := ⟨1, ![20]⟩
abbrev S1x20 : Shape := ⟨2, ![1, 20]⟩
abbrev S20x8 : Shape := ⟨2, ![20, 8]⟩
abbrev S2048x8 : Shape := ⟨2, ![2048, 8]⟩
abbrev S8 : Shape := ⟨1, ![8]⟩
abbrev S1x8 : Shape := ⟨2, ![1, 8]⟩
abbrev S8x8 : Shape := ⟨2, ![8, 8]⟩
abbrev S8x100 : Shape := ⟨2, ![8, 100]⟩
abbrev S1x100 : Shape := ⟨2, ![1, 100]⟩
abbrev S100x200 : Shape := ⟨2, ![100, 200]⟩
abbrev S2048x200 : Shape := ⟨2, ![2048, 200]⟩
abbrev S200 : Shape := ⟨1, ![200]⟩
abbrev S1x200 : Shape := ⟨2, ![1, 200]⟩
abbrev S200x512 : Shape := ⟨2, ![200, 512]⟩
abbrev S2048x512 : Shape := ⟨2, ![2048, 512]⟩
abbrev S512 : Shape := ⟨1, ![512]⟩
abbrev S1x512 : Shape := ⟨2, ![1, 512]⟩
abbrev S1x2048x100 : Shape := ⟨3, ![1, 2048, 100]⟩

abbrev nBuf : Space → Nat
  | .hbm => 191
  | .vmem => 42
  | .smem => 0
  | _ => 0

abbrev hbmTy0_0 (i : Nat) : BufTy := match i % 128 with
  | 0 => ⟨S8192x100, .f32⟩
  | 1 => ⟨S100x10, .i32⟩
  | 2 => ⟨S100x10x5, .f32⟩
  | 3 => ⟨S100x5, .f32⟩
  | 4 => ⟨S100x5x2, .f32⟩
  | 5 => ⟨S100x2, .f32⟩
  | 6 => ⟨S100x2x2, .f32⟩
  | 7 => ⟨S100x2, .f32⟩
  | 8 => ⟨S100x2x25, .f32⟩
  | 9 => ⟨S100x25, .f32⟩
  | 10 => ⟨S100x25x50, .f32⟩
  | 11 => ⟨S100x50, .f32⟩
  | 12 => ⟨S100x50x100, .f32⟩
  | 13 => ⟨S100x100, .f32⟩
  | 14 => ⟨S100x2x25, .f32⟩
  | 15 => ⟨S100x25, .f32⟩
  | 16 => ⟨S100x25x50, .f32⟩
  | 17 => ⟨S100x50, .f32⟩
  | 18 => ⟨S100x50x100, .f32⟩
  | 19 => ⟨S100x100, .f32⟩
  | 20 => ⟨S100, .i32⟩
  | 21 => ⟨S1x100x1, .i32⟩
  | 22 => ⟨S100x1x10, .i32⟩
  | 23 => ⟨S100x100x10, .i32⟩
  | 24 => ⟨S100x100x10, .i32⟩
  | 25 => ⟨S100x100x10, .i1⟩
  | 26 => ⟨S100x100x10, .f32⟩
  | 27 => ⟨S100x100x5, .f32⟩
  | 28 => ⟨S25x4x100x5, .f32⟩
  | 29 => ⟨S25x100x4x5, .f32⟩
  | 30 => ⟨S25x100x20, .f32⟩
  | 31 => ⟨S25x4x5, .f32⟩
  | 32 => ⟨S25x1x20, .f32⟩
  | 33 => ⟨S25x4x5x2, .f32⟩
  | 34 => ⟨S4x4, .i32⟩
  | 35 => ⟨S4x4, .i32⟩
  | 36 => ⟨S_, .i32⟩
  | 37 => ⟨S4x4, .i32⟩
  | 38 => ⟨S4x4, .i32⟩
  | 39 => ⟨S4x4, .i1⟩
  | 40 => ⟨S4x4, .f32⟩
  | 41 => ⟨S25x4x1x5x2, .f32⟩
  | 42 => ⟨S1x4x4x1x1, .f32⟩
  | 43 => ⟨S25x4x4x5x2, .f32⟩
  | 44 => ⟨S25x4x4x5x2, .f32⟩
  | 45 => ⟨S25x4x4x5x2, .f32⟩
  | 46 => ⟨S25x4x5x4x2, .f32⟩
  | 47 => ⟨S25x20x8, .f32⟩
  | 48 => ⟨S25x4x2, .f32⟩
  | 49 => ⟨S25x1x8, .f32⟩
  | 50 => ⟨S25x4x2x2, .f32⟩
  | 51 => ⟨S4x4, .i32⟩
  | 52 => ⟨S4x4, .i32⟩
  | 53 => ⟨S_, .i32⟩
  | 54 => ⟨S4x4, .i32⟩
  | 55 => ⟨S4x4, .i32⟩
  | 56 => ⟨S4x4, .i1⟩
  | 57 => ⟨S4x4, .f32⟩
  | 58 => ⟨S25x4x1x2x2, .f32⟩
  | 59 => ⟨S1x4x4x1x1, .f32⟩
  | 60 => ⟨S25x4x4x2x2, .f32⟩
  | 61 => ⟨S25x4x4x2x2, .f32⟩
  | 62 => ⟨S25x4x4x2x2, .f32⟩
  | 63 => ⟨S25x4x2x4x2, .f32⟩
  | 64 => ⟨S25x8x8, .f32⟩
  | 65 => ⟨S25x4x2, .f32⟩
  | 66 => ⟨S25x1x8, .f32⟩
  | 67 => ⟨S25x4x2x25, .f32⟩
  | 68 => ⟨S4x4, .i32⟩
  | 69 => ⟨S4x4, .i32⟩
  | 70 => ⟨S_, .i32⟩
  | 71 => ⟨S4x4, .i32⟩
  | 72 => ⟨S4x4, .i32⟩
  | 73 => ⟨S4x4, .i1⟩
  | 74 => ⟨S4x4, .f32⟩
  | 75 => ⟨S25x4x1x2x25, .f32⟩
  | 76 => ⟨S1x4x4x1x1, .f32⟩
  | 77 => ⟨S25x4x4x2x25, .f32⟩
  | 78 => ⟨S25x4x4x2x25, .f32⟩
  | 79 => ⟨S25x4x4x2x25, .f32⟩
  | 80 => ⟨S25x4x2x4x25, .f32⟩
  | 81 => ⟨S25x8x100, .f32⟩
  | 82 => ⟨S25x4x25, .f32⟩
  | 83 => ⟨S25x1x100, .f32⟩
  | 84 => ⟨S25x4x25x50, .f32⟩
  | 85 => ⟨S4x4, .i32⟩
  | 86 => ⟨S4x4, .i32⟩
  | 87 => ⟨S_, .i32⟩
  | 88 => ⟨S4x4, .i32⟩
  | 89 => ⟨S4x4, .i32⟩
  | 90 => ⟨S4x4, .i1⟩
  | 91 => ⟨S4x4, .f32⟩
  | 92 => ⟨S25x4x1x25x50, .f32⟩
  | 93 => ⟨S1x4x4x1x1, .f32⟩
  | 94 => ⟨S25x4x4x25x50, .f32⟩
  | 95 => ⟨S25x4x4x25x50, .f32⟩
  | 96 => ⟨S25x4x4x25x50, .f32⟩
  | 97 => ⟨S25x4x25x4x50, .f32⟩
  | 98 => ⟨S25x100x200, .f32⟩
  | 99 => ⟨S25x4x50, .f32⟩
  | 100 => ⟨S25x1x200, .f32⟩
  | 101 => ⟨S25x4x50x100, .f32⟩
  | 102 => ⟨S_, .f32⟩
  | 103 => ⟨S25x4x50x128, .f32⟩
  | 104 => ⟨S_, .i32⟩
  | 105 => ⟨S1, .i32⟩
  | 106 => ⟨S25x4x50x128, .f32⟩
  | 107 => ⟨S4x4, .i32⟩
  | 108 => ⟨S4x4, .i32⟩
  | 109 => ⟨S_, .i32⟩
  | 110 => ⟨S4x4, .i32⟩
  | 111 => ⟨S4x4, .i32⟩
  | 112 => ⟨S4x4, .i1⟩
  | 113 => ⟨S4x4, .f32⟩
  | 114 => ⟨S25x4x1x50x128, .f32⟩
  | 115 => ⟨S1x4x4x1x1, .f32⟩
  | 116 => ⟨S25x4x4x50x128, .f32⟩
  | 117 => ⟨S25x4x4x50x128, .f32⟩
  | 118 => ⟨S25x4x4x50x128, .f32⟩
  | 119 => ⟨S25x4x50x4x128, .f32⟩
  | 120 => ⟨S25x200x512, .f32⟩
  | 121 => ⟨S25x4x100, .f32⟩
  | 122 => ⟨S_, .f32⟩
  | 123 => ⟨S25x4x128, .f32⟩
  | 124 => ⟨S_, .i32⟩
  | 125 => ⟨S1, .i32⟩
  | 126 => ⟨S25x4x128, .f32⟩
  | 127 => ⟨S25x1x512, .f32⟩
  | _ => ⟨S8192x100, .f32⟩

abbrev hbmTy0_1 (i : Nat) : BufTy := match i % 128 with
  | 0 => ⟨S25x4x2x25, .f32⟩
  | 1 => ⟨S4x4, .i32⟩
  | 2 => ⟨S4x4, .i32⟩
  | 3 => ⟨S_, .i32⟩
  | 4 => ⟨S4x4, .i32⟩
  | 5 => ⟨S4x4, .i32⟩
  | 6 => ⟨S4x4, .i1⟩
  | 7 => ⟨S4x4, .f32⟩
  | 8 => ⟨S25x4x1x2x25, .f32⟩
  | 9 => ⟨S1x4x4x1x1, .f32⟩
  | 10 => ⟨S25x4x4x2x25, .f32⟩
  | 11 => ⟨S25x4x4x2x25, .f32⟩
  | 12 => ⟨S25x4x4x2x25, .f32⟩
  | 13 => ⟨S25x4x2x4x25, .f32⟩
  | 14 => ⟨S25x8x100, .f32⟩
  | 15 => ⟨S25x4x25, .f32⟩
  | 16 => ⟨S25x1x100, .f32⟩
  | 17 => ⟨S25x4x25x50, .f32⟩
  | 18 => ⟨S4x4, .i32⟩
  | 19 => ⟨S4x4, .i32⟩
  | 20 => ⟨S_, .i32⟩
  | 21 => ⟨S4x4, .i32⟩
  | 22 => ⟨S4x4, .i32⟩
  | 23 => ⟨S4x4, .i1⟩
  | 24 => ⟨S4x4, .f32⟩
  | 25 => ⟨S25x4x1x25x50, .f32⟩
  | 26 => ⟨S1x4x4x1x1, .f32⟩
  | 27 => ⟨S25x4x4x25x50, .f32⟩
  | 28 => ⟨S25x4x4x25x50, .f32⟩
  | 29 => ⟨S25x4x4x25x50, .f32⟩
  | 30 => ⟨S25x4x25x4x50, .f32⟩
  | 31 => ⟨S25x100x200, .f32⟩
  | 32 => ⟨S25x4x50, .f32⟩
  | 33 => ⟨S25x1x200, .f32⟩
  | 34 => ⟨S25x4x50x100, .f32⟩
  | 35 => ⟨S_, .f32⟩
  | 36 => ⟨S25x4x50x128, .f32⟩
  | 37 => ⟨S_, .i32⟩
  | 38 => ⟨S1, .i32⟩
  | 39 => ⟨S25x4x50x128, .f32⟩
  | 40 => ⟨S4x4, .i32⟩
  | 41 => ⟨S4x4, .i32⟩
  | 42 => ⟨S_, .i32⟩
  | 43 => ⟨S4x4, .i32⟩
  | 44 => ⟨S4x4, .i32⟩
  | 45 => ⟨S4x4, .i1⟩
  | 46 => ⟨S4x4, .f32⟩
  | 47 => ⟨S25x4x1x50x128, .f32⟩
  | 48 => ⟨S1x4x4x1x1, .f32⟩
  | 49 => ⟨S25x4x4x50x128, .f32⟩
  | 50 => ⟨S25x4x4x50x128, .f32⟩
  | 51 => ⟨S25x4x4x50x128, .f32⟩
  | 52 => ⟨S25x4x50x4x128, .f32⟩
  | 53 => ⟨S25x200x512, .f32⟩
  | 54 => ⟨S25x4x100, .f32⟩
  | 55 => ⟨S_, .f32⟩
  | 56 => ⟨S25x4x128, .f32⟩
  | 57 => ⟨S_, .i32⟩
  | 58 => ⟨S1, .i32⟩
  | 59 => ⟨S25x4x128, .f32⟩
  | 60 => ⟨S25x1x512, .f32⟩
  | 61 => ⟨S100x8192x100, .f32⟩
  | 62 => ⟨S100x8192x100, .f32⟩
  | _ => ⟨S8192x100, .f32⟩

abbrev hbmTy (i : Nat) : BufTy := match i / 128 with
  | 0 => hbmTy0_0 i
  | 1 => hbmTy0_1 i
  | _ => ⟨S8192x100, .f32⟩

abbrev bufTy : (tb : Table) → Fin (tcTables nBuf tb) → BufTy
  | .hbm, ⟨i, _⟩ => hbmTy i
  | .local _ .vmem, ⟨0, _⟩ => ⟨S2048x100, .f32⟩
  | .local _ .vmem, ⟨1, _⟩ => ⟨S2048x100, .f32⟩
  | .local _ .vmem, ⟨2, _⟩ => ⟨S1x100x20, .f32⟩
  | .local _ .vmem, ⟨3, _⟩ => ⟨S1x100x20, .f32⟩
  | .local _ .vmem, ⟨4, _⟩ => ⟨S1x1x20, .f32⟩
  | .local _ .vmem, ⟨5, _⟩ => ⟨S1x1x20, .f32⟩
  | .local _ .vmem, ⟨6, _⟩ => ⟨S1x20x8, .f32⟩
  | .local _ .vmem, ⟨7, _⟩ => ⟨S1x20x8, .f32⟩
  | .local _ .vmem, ⟨8, _⟩ => ⟨S1x1x8, .f32⟩
  | .local _ .vmem, ⟨9, _⟩ => ⟨S1x1x8, .f32⟩
  | .local _ .vmem, ⟨10, _⟩ => ⟨S1x8x8, .f32⟩
  | .local _ .vmem, ⟨11, _⟩ => ⟨S1x8x8, .f32⟩
  | .local _ .vmem, ⟨12, _⟩ => ⟨S1x1x8, .f32⟩
  | .local _ .vmem, ⟨13, _⟩ => ⟨S1x1x8, .f32⟩
  | .local _ .vmem, ⟨14, _⟩ => ⟨S1x8x100, .f32⟩
  | .local _ .vmem, ⟨15, _⟩ => ⟨S1x8x100, .f32⟩
  | .local _ .vmem, ⟨16, _⟩ => ⟨S1x1x100, .f32⟩
  | .local _ .vmem, ⟨17, _⟩ => ⟨S1x1x100, .f32⟩
  | .local _ .vmem, ⟨18, _⟩ => ⟨S1x100x200, .f32⟩
  | .local _ .vmem, ⟨19, _⟩ => ⟨S1x100x200, .f32⟩
  | .local _ .vmem, ⟨20, _⟩ => ⟨S1x1x200, .f32⟩
  | .local _ .vmem, ⟨21, _⟩ => ⟨S1x1x200, .f32⟩
  | .local _ .vmem, ⟨22, _⟩ => ⟨S1x200x512, .f32⟩
  | .local _ .vmem, ⟨23, _⟩ => ⟨S1x200x512, .f32⟩
  | .local _ .vmem, ⟨24, _⟩ => ⟨S1x1x512, .f32⟩
  | .local _ .vmem, ⟨25, _⟩ => ⟨S1x1x512, .f32⟩
  | .local _ .vmem, ⟨26, _⟩ => ⟨S1x8x100, .f32⟩
  | .local _ .vmem, ⟨27, _⟩ => ⟨S1x8x100, .f32⟩
  | .local _ .vmem, ⟨28, _⟩ => ⟨S1x1x100, .f32⟩
  | .local _ .vmem, ⟨29, _⟩ => ⟨S1x1x100, .f32⟩
  | .local _ .vmem, ⟨30, _⟩ => ⟨S1x100x200, .f32⟩
  | .local _ .vmem, ⟨31, _⟩ => ⟨S1x100x200, .f32⟩
  | .local _ .vmem, ⟨32, _⟩ => ⟨S1x1x200, .f32⟩
  | .local _ .vmem, ⟨33, _⟩ => ⟨S1x1x200, .f32⟩
  | .local _ .vmem, ⟨34, _⟩ => ⟨S1x200x512, .f32⟩
  | .local _ .vmem, ⟨35, _⟩ => ⟨S1x200x512, .f32⟩
  | .local _ .vmem, ⟨36, _⟩ => ⟨S1x1x512, .f32⟩
  | .local _ .vmem, ⟨37, _⟩ => ⟨S1x1x512, .f32⟩
  | .local _ .vmem, ⟨38, _⟩ => ⟨S4x2048x100, .f32⟩
  | .local _ .vmem, ⟨39, _⟩ => ⟨S4x2048x100, .f32⟩
  | .local _ .vmem, ⟨40, _⟩ => ⟨S4x2048x100, .f32⟩
  | .local _ .vmem, ⟨41, _⟩ => ⟨S4x2048x100, .f32⟩
  | _, _ => ⟨S8192x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_1 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_2 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst : Ref sig .tc := ⟨.hbm, 102, rfl⟩
abbrev main_v78 : Ref sig .tc := ⟨.hbm, 103, rfl⟩
abbrev main_c_3 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_4 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_5 : Ref sig .tc := ⟨.hbm, 122, rfl⟩
abbrev main_v95 : Ref sig .tc := ⟨.hbm, 123, rfl⟩
abbrev main_c_6 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_c_7 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_c_8 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_cst_9 : Ref sig .tc := ⟨.hbm, 163, rfl⟩
abbrev main_v132 : Ref sig .tc := ⟨.hbm, 164, rfl⟩
abbrev main_c_10 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_c_11 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_cst_12 : Ref sig .tc := ⟨.hbm, 183, rfl⟩
abbrev main_v149 : Ref sig .tc := ⟨.hbm, 184, rfl⟩
abbrev main_c_13 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153_0 : Ref sig .tc := ⟨.hbm, 189, rfl⟩
abbrev main_v153_1 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![4, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x100x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x20x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x8x100 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x100 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x100x200 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x200 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x200x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x8x100 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1x100 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x100x200 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x1x200 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S1x200x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S4x2048x100 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S4x2048x100 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

class Facts₀ : Prop where
  bcast_S100_S1x100x1_1 : S100.BroadcastsInDim S1x100x1 (![1] : Fin 1 → Fin S1x100x1.rank)
  bcast_S100x10_S100x1x10_0_2 : S100x10.BroadcastsInDim S100x1x10 (![0, 2] : Fin 2 → Fin S100x1x10.rank)
  bcast_S1x100x1_S100x100x10_0_1_2 : S1x100x1.BroadcastsInDim S100x100x10 (![0, 1, 2] : Fin 3 → Fin S100x100x10.rank)
  bcast_S100x1x10_S100x100x10_0_1_2 : S100x1x10.BroadcastsInDim S100x100x10 (![0, 1, 2] : Fin 3 → Fin S100x100x10.rank)
  shapeCasts_S100x100x5_S25x4x100x5 : S100x100x5.ShapeCasts S25x4x100x5
  transposes_S25x4x100x5_S25x100x4x5_0_2_1_3 : S25x4x100x5.Transposes [0, 2, 1, 3] S25x100x4x5
  shapeCasts_S25x100x4x5_S25x100x20 : S25x100x4x5.ShapeCasts S25x100x20
  shapeCasts_S100x5_S25x4x5 : S100x5.ShapeCasts S25x4x5
  shapeCasts_S25x4x5_S25x1x20 : S25x4x5.ShapeCasts S25x1x20
  shapeCasts_S100x5x2_S25x4x5x2 : S100x5x2.ShapeCasts S25x4x5x2
  bcast_S_S4x4 : S_.BroadcastsInDim S4x4 (![] : Fin 0 → Fin S4x4.rank)
  bcast_S25x4x5x2_S25x4x1x5x2_0_1_3_4 : S25x4x5x2.BroadcastsInDim S25x4x1x5x2 (![0, 1, 3, 4] : Fin 4 → Fin S25x4x1x5x2.rank)
  bcast_S4x4_S1x4x4x1x1_1_2 : S4x4.BroadcastsInDim S1x4x4x1x1 (![1, 2] : Fin 2 → Fin S1x4x4x1x1.rank)
  bcast_S25x4x1x5x2_S25x4x4x5x2_0_1_2_3_4 : S25x4x1x5x2.BroadcastsInDim S25x4x4x5x2 (![0, 1, 2, 3, 4] : Fin 5 → Fin S25x4x4x5x2.rank)
  bcast_S1x4x4x1x1_S25x4x4x5x2_0_1_2_3_4 : S1x4x4x1x1.BroadcastsInDim S25x4x4x5x2 (![0, 1, 2, 3, 4] : Fin 5 → Fin S25x4x4x5x2.rank)
  transposes_S25x4x4x5x2_S25x4x5x4x2_0_1_3_2_4 : S25x4x4x5x2.Transposes [0, 1, 3, 2, 4] S25x4x5x4x2
  shapeCasts_S25x4x5x4x2_S25x20x8 : S25x4x5x4x2.ShapeCasts S25x20x8
  shapeCasts_S100x2_S25x4x2 : S100x2.ShapeCasts S25x4x2
  shapeCasts_S25x4x2_S25x1x8 : S25x4x2.ShapeCasts S25x1x8
  shapeCasts_S100x2x2_S25x4x2x2 : S100x2x2.ShapeCasts S25x4x2x2
  bcast_S25x4x2x2_S25x4x1x2x2_0_1_3_4 : S25x4x2x2.BroadcastsInDim S25x4x1x2x2 (![0, 1, 3, 4] : Fin 4 → Fin S25x4x1x2x2.rank)
  bcast_S25x4x1x2x2_S25x4x4x2x2_0_1_2_3_4 : S25x4x1x2x2.BroadcastsInDim S25x4x4x2x2 (![0, 1, 2, 3, 4] : Fin 5 → Fin S25x4x4x2x2.rank)
  bcast_S1x4x4x1x1_S25x4x4x2x2_0_1_2_3_4 : S1x4x4x1x1.BroadcastsInDim S25x4x4x2x2 (![0, 1, 2, 3, 4] : Fin 5 → Fin S25x4x4x2x2.rank)
  transposes_S25x4x4x2x2_S25x4x2x4x2_0_1_3_2_4 : S25x4x4x2x2.Transposes [0, 1, 3, 2, 4] S25x4x2x4x2
  shapeCasts_S25x4x2x4x2_S25x8x8 : S25x4x2x4x2.ShapeCasts S25x8x8
  shapeCasts_S100x2x25_S25x4x2x25 : S100x2x25.ShapeCasts S25x4x2x25
  bcast_S25x4x2x25_S25x4x1x2x25_0_1_3_4 : S25x4x2x25.BroadcastsInDim S25x4x1x2x25 (![0, 1, 3, 4] : Fin 4 → Fin S25x4x1x2x25.rank)
  bcast_S25x4x1x2x25_S25x4x4x2x25_0_1_2_3_4 : S25x4x1x2x25.BroadcastsInDim S25x4x4x2x25 (![0, 1, 2, 3, 4] : Fin 5 → Fin S25x4x4x2x25.rank)
  bcast_S1x4x4x1x1_S25x4x4x2x25_0_1_2_3_4 : S1x4x4x1x1.BroadcastsInDim S25x4x4x2x25 (![0, 1, 2, 3, 4] : Fin 5 → Fin S25x4x4x2x25.rank)
  transposes_S25x4x4x2x25_S25x4x2x4x25_0_1_3_2_4 : S25x4x4x2x25.Transposes [0, 1, 3, 2, 4] S25x4x2x4x25
  shapeCasts_S25x4x2x4x25_S25x8x100 : S25x4x2x4x25.ShapeCasts S25x8x100
  shapeCasts_S100x25_S25x4x25 : S100x25.ShapeCasts S25x4x25
  shapeCasts_S25x4x25_S25x1x100 : S25x4x25.ShapeCasts S25x1x100
  shapeCasts_S100x25x50_S25x4x25x50 : S100x25x50.ShapeCasts S25x4x25x50
  bcast_S25x4x25x50_S25x4x1x25x50_0_1_3_4 : S25x4x25x50.BroadcastsInDim S25x4x1x25x50 (![0, 1, 3, 4] : Fin 4 → Fin S25x4x1x25x50.rank)
  bcast_S25x4x1x25x50_S25x4x4x25x50_0_1_2_3_4 : S25x4x1x25x50.BroadcastsInDim S25x4x4x25x50 (![0, 1, 2, 3, 4] : Fin 5 → Fin S25x4x4x25x50.rank)
  bcast_S1x4x4x1x1_S25x4x4x25x50_0_1_2_3_4 : S1x4x4x1x1.BroadcastsInDim S25x4x4x25x50 (![0, 1, 2, 3, 4] : Fin 5 → Fin S25x4x4x25x50.rank)
  transposes_S25x4x4x25x50_S25x4x25x4x50_0_1_3_2_4 : S25x4x4x25x50.Transposes [0, 1, 3, 2, 4] S25x4x25x4x50
  shapeCasts_S25x4x25x4x50_S25x100x200 : S25x4x25x4x50.ShapeCasts S25x100x200
  shapeCasts_S100x50_S25x4x50 : S100x50.ShapeCasts S25x4x50
  shapeCasts_S25x4x50_S25x1x200 : S25x4x50.ShapeCasts S25x1x200
  shapeCasts_S100x50x100_S25x4x50x100 : S100x50x100.ShapeCasts S25x4x50x100
  bcast_S_S25x4x50x128 : S_.BroadcastsInDim S25x4x50x128 (![] : Fin 0 → Fin S25x4x50x128.rank)
  bcast_S_S1 : S_.BroadcastsInDim S1 (![] : Fin 0 → Fin S1.rank)
  bcast_S25x4x50x128_S25x4x1x50x128_0_1_3_4 : S25x4x50x128.BroadcastsInDim S25x4x1x50x128 (![0, 1, 3, 4] : Fin 4 → Fin S25x4x1x50x128.rank)
  bcast_S25x4x1x50x128_S25x4x4x50x128_0_1_2_3_4 : S25x4x1x50x128.BroadcastsInDim S25x4x4x50x128 (![0, 1, 2, 3, 4] : Fin 5 → Fin S25x4x4x50x128.rank)
  bcast_S1x4x4x1x1_S25x4x4x50x128_0_1_2_3_4 : S1x4x4x1x1.BroadcastsInDim S25x4x4x50x128 (![0, 1, 2, 3, 4] : Fin 5 → Fin S25x4x4x50x128.rank)
  transposes_S25x4x4x50x128_S25x4x50x4x128_0_1_3_2_4 : S25x4x4x50x128.Transposes [0, 1, 3, 2, 4] S25x4x50x4x128
  shapeCasts_S25x4x50x4x128_S25x200x512 : S25x4x50x4x128.ShapeCasts S25x200x512
  shapeCasts_S100x100_S25x4x100 : S100x100.ShapeCasts S25x4x100
  bcast_S_S25x4x128 : S_.BroadcastsInDim S25x4x128 (![] : Fin 0 → Fin S25x4x128.rank)
  shapeCasts_S25x4x128_S25x1x512 : S25x4x128.ShapeCasts S25x1x512
  inb_S2048x100_S2048x100_0_0 : ∀ a, (![0, 0] : Fin 2 → Nat) a + S2048x100.size a ≤ S2048x100.size a
  h_S2048x100 : 0 < S2048x100.numel
  inb_S1x100x20_S1x100x20_0_0_0 : ∀ a, (![0, 0, 0] : Fin 3 → Nat) a + S1x100x20.size a ≤ S1x100x20.size a
  h_S1x100x20 : 0 < S1x100x20.numel
  shapeCasts_S1x100x20_S100x20 : S1x100x20.ShapeCasts S100x20
  inb_S1x1x20_S1x1x20_0_0_0 : ∀ a, (![0, 0, 0] : Fin 3 → Nat) a + S1x1x20.size a ≤ S1x1x20.size a
  h_S1x1x20 : 0 < S1x1x20.numel
  shapeCasts_S1x1x20_S20 : S1x1x20.ShapeCasts S20
  shapeCasts_S20_S1x20 : S20.ShapeCasts S1x20
  broadcasts_S1x20_S2048x20 : S1x20.Broadcasts S2048x20
  inb_S1x20x8_S1x20x8_0_0_0 : ∀ a, (![0, 0, 0] : Fin 3 → Nat) a + S1x20x8.size a ≤ S1x20x8.size a
  h_S1x20x8 : 0 < S1x20x8.numel
  shapeCasts_S1x20x8_S20x8 : S1x20x8.ShapeCasts S20x8
  inb_S1x1x8_S1x1x8_0_0_0 : ∀ a, (![0, 0, 0] : Fin 3 → Nat) a + S1x1x8.size a ≤ S1x1x8.size a
  h_S1x1x8 : 0 < S1x1x8.numel
  shapeCasts_S1x1x8_S8 : S1x1x8.ShapeCasts S8
  shapeCasts_S8_S1x8 : S8.ShapeCasts S1x8
  broadcasts_S1x8_S2048x8 : S1x8.Broadcasts S2048x8
  inb_S1x8x8_S1x8x8_0_0_0 : ∀ a, (![0, 0, 0] : Fin 3 → Nat) a + S1x8x8.size a ≤ S1x8x8.size a
  h_S1x8x8 : 0 < S1x8x8.numel
  shapeCasts_S1x8x8_S8x8 : S1x8x8.ShapeCasts S8x8
  inb_S1x8x100_S1x8x100_0_0_0 : ∀ a, (![0, 0, 0] : Fin 3 → Nat) a + S1x8x100.size a ≤ S1x8x100.size a
  h_S1x8x100 : 0 < S1x8x100.numel
  shapeCasts_S1x8x100_S8x100 : S1x8x100.ShapeCasts S8x100
  inb_S1x1x100_S1x1x100_0_0_0 : ∀ a, (![0, 0, 0] : Fin 3 → Nat) a + S1x1x100.size a ≤ S1x1x100.size a
  h_S1x1x100 : 0 < S1x1x100.numel
  shapeCasts_S1x1x100_S100 : S1x1x100.ShapeCasts S100
  shapeCasts_S100_S1x100 : S100.ShapeCasts S1x100
  broadcasts_S1x100_S2048x100 : S1x100.Broadcasts S2048x100
  inb_S1x100x200_S1x100x200_0_0_0 : ∀ a, (![0, 0, 0] : Fin 3 → Nat) a + S1x100x200.size a ≤ S1x100x200.size a
  h_S1x100x200 : 0 < S1x100x200.numel
  shapeCasts_S1x100x200_S100x200 : S1x100x200.ShapeCasts S100x200
  inb_S1x1x200_S1x1x200_0_0_0 : ∀ a, (![0, 0, 0] : Fin 3 → Nat) a + S1x1x200.size a ≤ S1x1x200.size a
  h_S1x1x200 : 0 < S1x1x200.numel
  shapeCasts_S1x1x200_S200 : S1x1x200.ShapeCasts S200
  shapeCasts_S200_S1x200 : S200.ShapeCasts S1x200
  broadcasts_S1x200_S2048x200 : S1x200.Broadcasts S2048x200
  inb_S1x200x512_S1x200x512_0_0_0 : ∀ a, (![0, 0, 0] : Fin 3 → Nat) a + S1x200x512.size a ≤ S1x200x512.size a
  h_S1x200x512 : 0 < S1x200x512.numel
  shapeCasts_S1x200x512_S200x512 : S1x200x512.ShapeCasts S200x512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  broadcasts_S1x512_S2048x512 : S1x512.Broadcasts S2048x512
  slices_S2048x512_o0_0_S2048x100 : S2048x512.Slices ![0, 0] S2048x100
  inb_S4x2048x100_S1x2048x100_0_0_0 : ∀ a, (![0, 0, 0] : Fin 3 → Nat) a + S1x2048x100.size a ≤ S4x2048x100.size a
  h_S1x2048x100 : 0 < S1x2048x100.numel
  shapeCasts_S1x2048x100_S2048x100 : S1x2048x100.ShapeCasts S2048x100
  shapeCasts_S2048x100_S1x2048x100 : S2048x100.ShapeCasts S1x2048x100
  slices_S2048x512_o0_128_S2048x100 : S2048x512.Slices ![0, 128] S2048x100
  inb_S4x2048x100_S1x2048x100_1_0_0 : ∀ a, (![1, 0, 0] : Fin 3 → Nat) a + S1x2048x100.size a ≤ S4x2048x100.size a
  slices_S2048x512_o0_256_S2048x100 : S2048x512.Slices ![0, 256] S2048x100
  inb_S4x2048x100_S1x2048x100_2_0_0 : ∀ a, (![2, 0, 0] : Fin 3 → Nat) a + S1x2048x100.size a ≤ S4x2048x100.size a
  slices_S2048x512_o0_384_S2048x100 : S2048x512.Slices ![0, 384] S2048x100
  inb_S4x2048x100_S1x2048x100_3_0_0 : ∀ a, (![3, 0, 0] : Fin 3 → Nat) a + S1x2048x100.size a ≤ S4x2048x100.size a
  dot_S100x100x10_S100x10x5_S100x100x5_2_1_1_2_0_0_wf : DotDims.WF S100x100x10 S100x10x5 S100x100x5 [2] [1] [1] [2] [0] [0]
  scatter_S25x4x50x128_S1_S25x4x50x100_0123_n_3_0_wf : ScatterDims.WF S25x4x50x128 S1 S25x4x50x100 [0, 1, 2, 3] [] [3] 0
  scatter_S25x4x128_S1_S25x4x100_012_n_2_0_wf : ScatterDims.WF S25x4x128 S1 S25x4x100 [0, 1, 2] [] [2] 0
  dot_S2048x100_S100x20_S2048x20_1_0_0_1_n_n_wf : DotDims.WF S2048x100 S100x20 S2048x20 [1] [0] [0] [1] [] []
  dot_S2048x20_S20x8_S2048x8_1_0_0_1_n_n_wf : DotDims.WF S2048x20 S20x8 S2048x8 [1] [0] [0] [1] [] []
  dot_S2048x8_S8x8_S2048x8_1_0_0_1_n_n_wf : DotDims.WF S2048x8 S8x8 S2048x8 [1] [0] [0] [1] [] []
  dot_S2048x8_S8x100_S2048x100_1_0_0_1_n_n_wf : DotDims.WF S2048x8 S8x100 S2048x100 [1] [0] [0] [1] [] []
  dot_S2048x100_S100x200_S2048x200_1_0_0_1_n_n_wf : DotDims.WF S2048x100 S100x200 S2048x200 [1] [0] [0] [1] [] []
  dot_S2048x200_S200x512_S2048x512_1_0_0_1_n_n_wf : DotDims.WF S2048x200 S200x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x100.size a ≤ S8192x100.size a
  hwx0_0 : ∀ i : grid0.Coords, EltTy.bits .f32 = 32 ∨ (Rect.block (s := S8192x100) S2048x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x100x20.size a ≤ S25x100x20.size a
  hwx0_1 : ∀ i : grid0.Coords, EltTy.bits .f32 = 32 ∨ (Rect.block (s := S25x100x20) S1x100x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x20.size a ≤ S25x1x20.size a
  hwx0_2 : ∀ i : grid0.Coords, EltTy.bits .f32 = 32 ∨ (Rect.block (s := S25x1x20) S1x1x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x20x8.size a ≤ S25x20x8.size a
  hwx0_3 : ∀ i : grid0.Coords, EltTy.bits .f32 = 32 ∨ (Rect.block (s := S25x20x8) S1x20x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8.size a ≤ S25x1x8.size a
  hwx0_4 : ∀ i : grid0.Coords, EltTy.bits .f32 = 32 ∨ (Rect.block (s := S25x1x8) S1x1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x8.size a ≤ S25x8x8.size a
  hwx0_5 : ∀ i : grid0.Coords, EltTy.bits .f32 = 32 ∨ (Rect.block (s := S25x8x8) S1x8x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x8.size a ≤ S25x1x8.size a
  hwx0_6 : ∀ i : grid0.Coords, EltTy.bits .f32 = 32 ∨ (Rect.block (s := S25x1x8) S1x1x8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x100.size a ≤ S25x8x100.size a
  hwx0_7 : ∀ i : grid0.Coords, EltTy.bits .f32 = 32 ∨ (Rect.block (s := S25x8x100) S1x8x100.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x100.size a ≤ S25x1x100.size a
  hwx0_8 : ∀ i : grid0.Coords, EltTy.bits .f32 = 32 ∨ (Rect.block (s := S25x1x100) S1x1x100.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x100x200.size a ≤ S25x100x200.size a
  hwx0_9 : ∀ i : grid0.Coords, EltTy.bits .f32 = 32 ∨ (Rect.block (s := S25x100x200) S1x100x200.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x200.size a ≤ S25x1x200.size a
  hwx0_10 : ∀ i : grid0.Coords, EltTy.bits .f32 = 32 ∨ (Rect.block (s := S25x1x200) S1x1x200.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x200x512.size a ≤ S25x200x512.size a
  hwx0_11 : ∀ i : grid0.Coords, EltTy.bits .f32 = 32 ∨ (Rect.block (s := S25x200x512) S1x200x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x512.size a ≤ S25x1x512.size a
  hwx0_12 : ∀ i : grid0.Coords, EltTy.bits .f32 = 32 ∨ (Rect.block (s := S25x1x512) S1x1x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x8x100.size a ≤ S25x8x100.size a
  hwx0_13 : ∀ i : grid0.Coords, EltTy.bits .f32 = 32 ∨ (Rect.block (s := S25x8x100) S1x8x100.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x100.size a ≤ S25x1x100.size a
  hwx0_14 : ∀ i : grid0.Coords, EltTy.bits .f32 = 32 ∨ (Rect.block (s := S25x1x100) S1x1x100.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x100x200.size a ≤ S25x100x200.size a
  hwx0_15 : ∀ i : grid0.Coords, EltTy.bits .f32 = 32 ∨ (Rect.block (s := S25x100x200) S1x100x200.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x1x200.size a ≤ S25x1x200.size a
  hwx0_16 : ∀ i : grid0.Coords, EltTy.bits .f32 = 32 ∨ (Rect.block (s := S25x1x200) S1x1x200.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x200x512.size a ≤ S25x200x512.size a
  hwx0_17 : ∀ i : grid0.Coords, EltTy.bits .f32 = 32 ∨ (Rect.block (s := S25x200x512) S1x200x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x1x512.size a ≤ S25x1x512.size a
  hwx0_18 : ∀ i : grid0.Coords, EltTy.bits .f32 = 32 ∨ (Rect.block (s := S25x1x512) S1x1x512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S4x2048x100.size a ≤ S100x8192x100.size a
  hwx0_19 : ∀ i : grid0.Coords, EltTy.bits .f32 = 32 ∨ (Rect.block (s := S100x8192x100) S4x2048x100.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S4x2048x100.size a ≤ S100x8192x100.size a
  hwx0_20 : ∀ i : grid0.Coords, EltTy.bits .f32 = 32 ∨ (Rect.block (s := S100x8192x100) S4x2048x100.size (cc0_transform_20 i) (hinb0_20 i)).WholeWords (EltTy.packing .f32)

variable [Facts₀]

def dot_S100x100x10_S100x10x5_S100x100x5_2_1_1_2_0_0 : DotDims S100x100x10 S100x10x5 S100x100x5 where
  lhsContracting := [2]
  rhsContracting := [1]
  lhsNonContracting := [1]
  rhsNonContracting := [2]
  lhsBatch := [0]
  rhsBatch := [0]
  wf := dot_S100x100x10_S100x10x5_S100x100x5_2_1_1_2_0_0_wf
def scatter_S25x4x50x128_S1_S25x4x50x100_0123_n_3_0 : ScatterDims S25x4x50x128 S1 S25x4x50x100 where
  updateWindowDims := [0, 1, 2, 3]
  insertedWindowDims := []
  scatterDimsToOperandDims := [3]
  indexVectorDim := 0
  wf := scatter_S25x4x50x128_S1_S25x4x50x100_0123_n_3_0_wf
def scatter_S25x4x128_S1_S25x4x100_012_n_2_0 : ScatterDims S25x4x128 S1 S25x4x100 where
  updateWindowDims := [0, 1, 2]
  insertedWindowDims := []
  scatterDimsToOperandDims := [2]
  indexVectorDim := 0
  wf := scatter_S25x4x128_S1_S25x4x100_012_n_2_0_wf
def dot_S2048x100_S100x20_S2048x20_1_0_0_1_n_n : DotDims S2048x100 S100x20 S2048x20 where
  lhsContracting := [1]
  rhsContracting := [0]
  lhsNonContracting := [0]
  rhsNonContracting := [1]
  lhsBatch := []
  rhsBatch := []
  wf := dot_S2048x100_S100x20_S2048x20_1_0_0_1_n_n_wf
def dot_S2048x20_S20x8_S2048x8_1_0_0_1_n_n : DotDims S2048x20 S20x8 S2048x8 where
  lhsContracting := [1]
  rhsContracting := [0]
  lhsNonContracting := [0]
  rhsNonContracting := [1]
  lhsBatch := []
  rhsBatch := []
  wf := dot_S2048x20_S20x8_S2048x8_1_0_0_1_n_n_wf
def dot_S2048x8_S8x8_S2048x8_1_0_0_1_n_n : DotDims S2048x8 S8x8 S2048x8 where
  lhsContracting := [1]
  rhsContracting := [0]
  lhsNonContracting := [0]
  rhsNonContracting := [1]
  lhsBatch := []
  rhsBatch := []
  wf := dot_S2048x8_S8x8_S2048x8_1_0_0_1_n_n_wf
def dot_S2048x8_S8x100_S2048x100_1_0_0_1_n_n : DotDims S2048x8 S8x100 S2048x100 where
  lhsContracting := [1]
  rhsContracting := [0]
  lhsNonContracting := [0]
  rhsNonContracting := [1]
  lhsBatch := []
  rhsBatch := []
  wf := dot_S2048x8_S8x100_S2048x100_1_0_0_1_n_n_wf
def dot_S2048x100_S100x200_S2048x200_1_0_0_1_n_n : DotDims S2048x100 S100x200 S2048x200 where
  lhsContracting := [1]
  rhsContracting := [0]
  lhsNonContracting := [0]
  rhsNonContracting := [1]
  lhsBatch := []
  rhsBatch := []
  wf := dot_S2048x100_S100x200_S2048x200_1_0_0_1_n_n_wf
def dot_S2048x200_S200x512_S2048x512_1_0_0_1_n_n : DotDims S2048x200 S200x512 S2048x512 where
  lhsContracting := [1]
  rhsContracting := [0]
  lhsNonContracting := [0]
  rhsNonContracting := [1]
  lhsBatch := []
  rhsBatch := []
  wf := dot_S2048x200_S200x512_S2048x512_1_0_0_1_n_n_wf

abbrev win0_0 : Pipeline.Window sig grid0 :=
  Pipeline.Window.ofSpec (Memref.whole main_arg0) S2048x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x100x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1x20.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x20x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x1x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42) S1x8x8.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1x1x8.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v58) S1x8x100.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v60) S1x1x100.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v74) S1x100x200.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v76) S1x1x200.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v93) S1x200x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v98) S1x1x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v112) S1x8x100.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v114) S1x1x100.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v128) S1x100x200.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v130) S1x1x200.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v147) S1x200x512.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v152) S1x1x512.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v153_0) S4x2048x100.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v153_1) S4x2048x100.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S8192x100 : Shape := ⟨2, ![8192, 100]⟩
abbrev S100x10 : Shape := ⟨2, ![100, 10]⟩
abbrev S100x10x5 : Shape := ⟨3, ![100, 10, 5]⟩
abbrev S100x5 : Shape := ⟨2, ![100, 5]⟩
abbrev S100x5x2 : Shape := ⟨3, ![100, 5, 2]⟩
abbrev S100x2 : Shape := ⟨2, ![100, 2]⟩
abbrev S100x2x2 : Shape := ⟨3, ![100, 2, 2]⟩
abbrev S100x2x25 : Shape := ⟨3, ![100, 2, 25]⟩
abbrev S100x25 : Shape := ⟨2, ![100, 25]⟩
abbrev S100x25x50 : Shape := ⟨3, ![100, 25, 50]⟩
abbrev S100x50 : Shape := ⟨2, ![100, 50]⟩
abbrev S100x50x100 : Shape := ⟨3, ![100, 50, 100]⟩
abbrev S100x100 : Shape := ⟨2, ![100, 100]⟩
abbrev S_ : Shape := ⟨0, ![]⟩
abbrev S100x10x1 : Shape := ⟨3, ![100, 10, 1]⟩
abbrev S1 : Shape := ⟨1, ![1]⟩
abbrev S1x1x1 : Shape := ⟨3, ![1, 1, 1]⟩
abbrev S8192x100x10 : Shape := ⟨3, ![8192, 100, 10]⟩
abbrev S100x8192x10 : Shape := ⟨3, ![100, 8192, 10]⟩
abbrev S100x8192x5 : Shape := ⟨3, ![100, 8192, 5]⟩
abbrev S100x1x5 : Shape := ⟨3, ![100, 1, 5]⟩
abbrev S100x8192x2 : Shape := ⟨3, ![100, 8192, 2]⟩
abbrev S100x1x2 : Shape := ⟨3, ![100, 1, 2]⟩
abbrev S100x8192x25 : Shape := ⟨3, ![100, 8192, 25]⟩
abbrev S100x1x25 : Shape := ⟨3, ![100, 1, 25]⟩
abbrev S100x8192x50 : Shape := ⟨3, ![100, 8192, 50]⟩
abbrev S100x1x50 : Shape := ⟨3, ![100, 1, 50]⟩
abbrev S100x8192x100 : Shape := ⟨3, ![100, 8192, 100]⟩
abbrev S100x1x100 : Shape := ⟨3, ![100, 1, 100]⟩

abbrev nBuf : Space → Nat
  | .hbm => 80
  | .vmem => 0
  | .smem => 0
  | _ => 0

abbrev bufTy : (tb : Table) → Fin (tcTables nBuf tb) → BufTy
  | .hbm, ⟨0, _⟩ => ⟨S8192x100, .f32⟩
  | .hbm, ⟨1, _⟩ => ⟨S100x10, .i32⟩
  | .hbm, ⟨2, _⟩ => ⟨S100x10x5, .f32⟩
  | .hbm, ⟨3, _⟩ => ⟨S100x5, .f32⟩
  | .hbm, ⟨4, _⟩ => ⟨S100x5x2, .f32⟩
  | .hbm, ⟨5, _⟩ => ⟨S100x2, .f32⟩
  | .hbm, ⟨6, _⟩ => ⟨S100x2x2, .f32⟩
  | .hbm, ⟨7, _⟩ => ⟨S100x2, .f32⟩
  | .hbm, ⟨8, _⟩ => ⟨S100x2x25, .f32⟩
  | .hbm, ⟨9, _⟩ => ⟨S100x25, .f32⟩
  | .hbm, ⟨10, _⟩ => ⟨S100x25x50, .f32⟩
  | .hbm, ⟨11, _⟩ => ⟨S100x50, .f32⟩
  | .hbm, ⟨12, _⟩ => ⟨S100x50x100, .f32⟩
  | .hbm, ⟨13, _⟩ => ⟨S100x100, .f32⟩
  | .hbm, ⟨14, _⟩ => ⟨S100x2x25, .f32⟩
  | .hbm, ⟨15, _⟩ => ⟨S100x25, .f32⟩
  | .hbm, ⟨16, _⟩ => ⟨S100x25x50, .f32⟩
  | .hbm, ⟨17, _⟩ => ⟨S100x50, .f32⟩
  | .hbm, ⟨18, _⟩ => ⟨S100x50x100, .f32⟩
  | .hbm, ⟨19, _⟩ => ⟨S100x100, .f32⟩
  | .hbm, ⟨20, _⟩ => ⟨S_, .i32⟩
  | .hbm, ⟨21, _⟩ => ⟨S100x10, .i32⟩
  | .hbm, ⟨22, _⟩ => ⟨S100x10, .i1⟩
  | .hbm, ⟨23, _⟩ => ⟨S_, .i32⟩
  | .hbm, ⟨24, _⟩ => ⟨S100x10, .i32⟩
  | .hbm, ⟨25, _⟩ => ⟨S100x10, .i32⟩
  | .hbm, ⟨26, _⟩ => ⟨S100x10, .i32⟩
  | .hbm, ⟨27, _⟩ => ⟨S100x10x1, .i32⟩
  | .hbm, ⟨28, _⟩ => ⟨S1, .i32⟩
  | .hbm, ⟨29, _⟩ => ⟨S_, .i32⟩
  | .hbm, ⟨30, _⟩ => ⟨S100x10x1, .i32⟩
  | .hbm, ⟨31, _⟩ => ⟨S100x10x1, .i1⟩
  | .hbm, ⟨32, _⟩ => ⟨S1x1x1, .i32⟩
  | .hbm, ⟨33, _⟩ => ⟨S100x10x1, .i32⟩
  | .hbm, ⟨34, _⟩ => ⟨S100x10x1, .i1⟩
  | .hbm, ⟨35, _⟩ => ⟨S100x10x1, .i1⟩
  | .hbm, ⟨36, _⟩ => ⟨S_, .i1⟩
  | .hbm, ⟨37, _⟩ => ⟨S100x10, .i1⟩
  | .hbm, ⟨38, _⟩ => ⟨S8192x100x10, .f32⟩
  | .hbm, ⟨39, _⟩ => ⟨S8192x100x10, .i1⟩
  | .hbm, ⟨40, _⟩ => ⟨S_, .f32⟩
  | .hbm, ⟨41, _⟩ => ⟨S8192x100x10, .f32⟩
  | .hbm, ⟨42, _⟩ => ⟨S8192x100x10, .f32⟩
  | .hbm, ⟨43, _⟩ => ⟨S100x8192x10, .f32⟩
  | .hbm, ⟨44, _⟩ => ⟨S100x8192x5, .f32⟩
  | .hbm, ⟨45, _⟩ => ⟨S100x1x5, .f32⟩
  | .hbm, ⟨46, _⟩ => ⟨S100x8192x5, .f32⟩
  | .hbm, ⟨47, _⟩ => ⟨S100x8192x5, .f32⟩
  | .hbm, ⟨48, _⟩ => ⟨S100x8192x2, .f32⟩
  | .hbm, ⟨49, _⟩ => ⟨S100x1x2, .f32⟩
  | .hbm, ⟨50, _⟩ => ⟨S100x8192x2, .f32⟩
  | .hbm, ⟨51, _⟩ => ⟨S100x8192x2, .f32⟩
  | .hbm, ⟨52, _⟩ => ⟨S100x8192x2, .f32⟩
  | .hbm, ⟨53, _⟩ => ⟨S100x1x2, .f32⟩
  | .hbm, ⟨54, _⟩ => ⟨S100x8192x2, .f32⟩
  | .hbm, ⟨55, _⟩ => ⟨S100x8192x2, .f32⟩
  | .hbm, ⟨56, _⟩ => ⟨S100x8192x25, .f32⟩
  | .hbm, ⟨57, _⟩ => ⟨S100x1x25, .f32⟩
  | .hbm, ⟨58, _⟩ => ⟨S100x8192x25, .f32⟩
  | .hbm, ⟨59, _⟩ => ⟨S100x8192x25, .f32⟩
  | .hbm, ⟨60, _⟩ => ⟨S100x8192x50, .f32⟩
  | .hbm, ⟨61, _⟩ => ⟨S100x1x50, .f32⟩
  | .hbm, ⟨62, _⟩ => ⟨S100x8192x50, .f32⟩
  | .hbm, ⟨63, _⟩ => ⟨S100x8192x50, .f32⟩
  | .hbm, ⟨64, _⟩ => ⟨S100x8192x100, .f32⟩
  | .hbm, ⟨65, _⟩ => ⟨S100x1x100, .f32⟩
  | .hbm, ⟨66, _⟩ => ⟨S100x8192x100, .f32⟩
  | .hbm, ⟨67, _⟩ => ⟨S100x8192x100, .f32⟩
  | .hbm, ⟨68, _⟩ => ⟨S100x8192x25, .f32⟩
  | .hbm, ⟨69, _⟩ => ⟨S100x1x25, .f32⟩
  | .hbm, ⟨70, _⟩ => ⟨S100x8192x25, .f32⟩
  | .hbm, ⟨71, _⟩ => ⟨S100x8192x25, .f32⟩
  | .hbm, ⟨72, _⟩ => ⟨S100x8192x50, .f32⟩
  | .hbm, ⟨73, _⟩ => ⟨S100x1x50, .f32⟩
  | .hbm, ⟨74, _⟩ => ⟨S100x8192x50, .f32⟩
  | .hbm, ⟨75, _⟩ => ⟨S100x8192x50, .f32⟩
  | .hbm, ⟨76, _⟩ => ⟨S100x8192x100, .f32⟩
  | .hbm, ⟨77, _⟩ => ⟨S100x1x100, .f32⟩
  | .hbm, ⟨78, _⟩ => ⟨S100x8192x100, .f32⟩
  | .hbm, ⟨79, _⟩ => ⟨S100x8192x100, .f32⟩
  | _, _ => ⟨S8192x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v0 : Ref sig .tc := ⟨.hbm, 42, rfl⟩
abbrev main_v1 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩

abbrev nD : Nat := 1
abbrev τ : Topo := Topo.v7x

variable {F : FTy → Type} [FloatOps F]

class Facts₀ : Prop where
  bcast_S_S100x10 : S_.BroadcastsInDim S100x10 (![] : Fin 0 → Fin S100x10.rank)
  bcast_S100x10_S100x10x1_0_1 : S100x10.BroadcastsInDim S100x10x1 (![0, 1] : Fin 2 → Fin S100x10x1.rank)
  bcast_S_S100x10x1 : S_.BroadcastsInDim S100x10x1 (![] : Fin 0 → Fin S100x10x1.rank)
  bcast_S1_S1x1x1_2 : S1.BroadcastsInDim S1x1x1 (![2] : Fin 1 → Fin S1x1x1.rank)
  bcast_S1x1x1_S100x10x1_0_1_2 : S1x1x1.BroadcastsInDim S100x10x1 (![0, 1, 2] : Fin 3 → Fin S100x10x1.rank)
  reducesTo_S100x10x1_S100x10_d2 : S100x10x1.ReducesTo [2] S100x10
  h_S_ : 0 < S_.numel
  bcast_S100x10_S8192x100x10_1_2 : S100x10.BroadcastsInDim S8192x100x10 (![1, 2] : Fin 2 → Fin S8192x100x10.rank)
  bcast_S_S8192x100x10 : S_.BroadcastsInDim S8192x100x10 (![] : Fin 0 → Fin S8192x100x10.rank)
  transposes_S8192x100x10_S100x8192x10_1_0_2 : S8192x100x10.Transposes [1, 0, 2] S100x8192x10
  bcast_S100x5_S100x1x5_0_2 : S100x5.BroadcastsInDim S100x1x5 (![0, 2] : Fin 2 → Fin S100x1x5.rank)
  bcast_S100x1x5_S100x8192x5_0_1_2 : S100x1x5.BroadcastsInDim S100x8192x5 (![0, 1, 2] : Fin 3 → Fin S100x8192x5.rank)
  bcast_S100x2_S100x1x2_0_2 : S100x2.BroadcastsInDim S100x1x2 (![0, 2] : Fin 2 → Fin S100x1x2.rank)
  bcast_S100x1x2_S100x8192x2_0_1_2 : S100x1x2.BroadcastsInDim S100x8192x2 (![0, 1, 2] : Fin 3 → Fin S100x8192x2.rank)
  bcast_S100x25_S100x1x25_0_2 : S100x25.BroadcastsInDim S100x1x25 (![0, 2] : Fin 2 → Fin S100x1x25.rank)
  bcast_S100x1x25_S100x8192x25_0_1_2 : S100x1x25.BroadcastsInDim S100x8192x25 (![0, 1, 2] : Fin 3 → Fin S100x8192x25.rank)
  bcast_S100x50_S100x1x50_0_2 : S100x50.BroadcastsInDim S100x1x50 (![0, 2] : Fin 2 → Fin S100x1x50.rank)
  bcast_S100x1x50_S100x8192x50_0_1_2 : S100x1x50.BroadcastsInDim S100x8192x50 (![0, 1, 2] : Fin 3 → Fin S100x8192x50.rank)
  bcast_S100x100_S100x1x100_0_2 : S100x100.BroadcastsInDim S100x1x100 (![0, 2] : Fin 2 → Fin S100x1x100.rank)
  bcast_S100x1x100_S100x8192x100_0_1_2 : S100x1x100.BroadcastsInDim S100x8192x100 (![0, 1, 2] : Fin 3 → Fin S100x8192x100.rank)
  gather_S8192x100_S100x10x1_S8192x100x10_0_1_n_n_1_2_81921_wf : GatherDims.WF S8192x100 S100x10x1 S8192x100x10 [0] [1] [] [1] [] 2 ![8192, 1]
  dot_S100x8192x10_S100x10x5_S100x8192x5_2_1_1_2_0_0_wf : DotDims.WF S100x8192x10 S100x10x5 S100x8192x5 [2] [1] [1] [2] [0] [0]
  dot_S100x8192x5_S100x5x2_S100x8192x2_2_1_1_2_0_0_wf : DotDims.WF S100x8192x5 S100x5x2 S100x8192x2 [2] [1] [1] [2] [0] [0]
  dot_S100x8192x2_S100x2x2_S100x8192x2_2_1_1_2_0_0_wf : DotDims.WF S100x8192x2 S100x2x2 S100x8192x2 [2] [1] [1] [2] [0] [0]
  dot_S100x8192x2_S100x2x25_S100x8192x25_2_1_1_2_0_0_wf : DotDims.WF S100x8192x2 S100x2x25 S100x8192x25 [2] [1] [1] [2] [0] [0]
  dot_S100x8192x25_S100x25x50_S100x8192x50_2_1_1_2_0_0_wf : DotDims.WF S100x8192x25 S100x25x50 S100x8192x50 [2] [1] [1] [2] [0] [0]
  dot_S100x8192x50_S100x50x100_S100x8192x100_2_1_1_2_0_0_wf : DotDims.WF S100x8192x50 S100x50x100 S100x8192x100 [2] [1] [1] [2] [0] [0]

variable [Facts₀]

def gather_S8192x100_S100x10x1_S8192x100x10_0_1_n_n_1_2_81921 : GatherDims S8192x100 S100x10x1 S8192x100x10 where
  offsetDims := [0]
  collapsedSliceDims := [1]
  operandBatchingDims := []
  startIndicesBatchingDims := []
  startIndexMap := [1]
  indexVectorDim := 2
  sliceSizes := ![8192, 1]
  wf := gather_S8192x100_S100x10x1_S8192x100x10_0_1_n_n_1_2_81921_wf
def dot_S100x8192x10_S100x10x5_S100x8192x5_2_1_1_2_0_0 : DotDims S100x8192x10 S100x10x5 S100x8192x5 where
  lhsContracting := [2]
  rhsContracting := [1]
  lhsNonContracting := [1]
  rhsNonContracting := [2]
  lhsBatch := [0]
  rhsBatch := [0]
  wf := dot_S100x8192x10_S100x10x5_S100x8192x5_2_1_1_2_0_0_wf
def dot_S100x8192x5_S100x5x2_S100x8192x2_2_1_1_2_0_0 : DotDims S100x8192x5 S100x5x2 S100x8192x2 where
  lhsContracting := [2]
  rhsContracting := [1]
  lhsNonContracting := [1]
  rhsNonContracting := [2]
  lhsBatch := [0]
  rhsBatch := [0]
  wf := dot_S100x8192x5_S100x5x2_S100x8192x2_2_1_1_2_0_0_wf
def dot_S100x8192x2_S100x2x2_S100x8192x2_2_1_1_2_0_0 : DotDims S100x8192x2 S100x2x2 S100x8192x2 where
  lhsContracting := [2]
  rhsContracting := [1]
  lhsNonContracting := [1]
  rhsNonContracting := [2]
  lhsBatch := [0]
  rhsBatch := [0]
  wf := dot_S100x8192x2_S100x2x2_S100x8192x2_2_1_1_2_0_0_wf
def dot_S100x8192x2_S100x2x25_S100x8192x25_2_1_1_2_0_0 : DotDims S100x8192x2 S100x2x25 S100x8192x25 where
  lhsContracting := [2]
  rhsContracting := [1]
  lhsNonContracting := [1]
  rhsNonContracting := [2]
  lhsBatch := [0]
  rhsBatch := [0]
  wf := dot_S100x8192x2_S100x2x25_S100x8192x25_2_1_1_2_0_0_wf
def dot_S100x8192x25_S100x25x50_S100x8192x50_2_1_1_2_0_0 : DotDims S100x8192x25 S100x25x50 S100x8192x50 where
  lhsContracting := [2]
  rhsContracting := [1]
  lhsNonContracting := [1]
  rhsNonContracting := [2]
  lhsBatch := [0]
  rhsBatch := [0]
  wf := dot_S100x8192x25_S100x25x50_S100x8192x50_2_1_1_2_0_0_wf
def dot_S100x8192x50_S100x50x100_S100x8192x100_2_1_1_2_0_0 : DotDims S100x8192x50 S100x50x100 S100x8192x100 where
  lhsContracting := [2]
  rhsContracting := [1]
  lhsNonContracting := [1]
  rhsNonContracting := [2]
  lhsBatch := [0]
  rhsBatch := [0]
  wf := dot_S100x8192x50_S100x50x100_S100x8192x100_2_1_1_2_0_0_wf

class Facts : Prop extends Facts₀ where

variable [Facts]
-- ==== Proof.Spec.lean ====
/-
  The mathematics of the claim, free of any program text.

  An ensemble of 100 estimators, each a chain of six affine maps (no activation): estimator `e` reads ten columns
  of an input row, the ones its row of the index table names, encodes them 10 → 5 → 2 → 2 and decodes the
  latent twice, 2 → 25 → 50 → 100, with two sets of weights.  `out` is that function, entry by entry.

  The kernel computes the same numbers four estimators at a time: the column choice becomes a product with a
  0/1 matrix folded into the first weight, the four first-layer weights are laid side by side, and every later
  weight of a group becomes one block-diagonal matrix (the last one with each estimator's 100 columns in a
  128-column slot).  `packedOut` is that computation over the packed arrays `pk…`.
-/
import Idealize.ShloMosaic.PureOps.Ideal

noncomputable section

namespace Cert.Spec

open scoped BigOperators

/-- A natural number reduced into `Fin n` (the identity below `n`). -/
def fm (n : ℕ) [NeZero n] (k : ℕ) : Fin n := ⟨k % n, Nat.mod_lt _ (NeZero.pos n)⟩

theorem fm_val (n : ℕ) [NeZero n] (k : ℕ) : (fm n k).val = k % n := rfl

theorem fm_of_lt (n : ℕ) [NeZero n] (k : ℕ) (h : k < n) : fm n k = ⟨k, h⟩ := Fin.ext (Nat.mod_eq_of_lt h)

/-- One affine layer: `a ↦ a · w + b`. -/
def lin {K M : ℕ} (a : Fin K → EReal) (w : Fin K → Fin M → EReal) (b : Fin M → EReal) : Fin M → EReal :=
  fun k => (∑ f : Fin K, a f * w f k) + b k

/-- The input rows and the encoder's weights and biases, estimator by estimator. -/
structure Enc where
  x  : Fin 8192 → Fin 100 → EReal
  w0 : Fin 100 → Fin 10 → Fin 5 → EReal
  b0 : Fin 100 → Fin 5 → EReal
  w1 : Fin 100 → Fin 5 → Fin 2 → EReal
  b1 : Fin 100 → Fin 2 → EReal
  w2 : Fin 100 → Fin 2 → Fin 2 → EReal
  b2 : Fin 100 → Fin 2 → EReal

/-- One decoder's weights and biases, estimator by estimator. -/
structure Dec where
  w0 : Fin 100 → Fin 2 → Fin 25 → EReal
  b0 : Fin 100 → Fin 25 → EReal
  w1 : Fin 100 → Fin 25 → Fin 50 → EReal
  b1 : Fin 100 → Fin 50 → EReal
  w2 : Fin 100 → Fin 50 → Fin 100 → EReal
  b2 : Fin 100 → Fin 100 → EReal

/-- Estimator `e`'s latent pair for row `n`: its ten chosen columns through the three encoder layers. -/
def enc (P : Enc) (idx : Fin 100 → Fin 10 → Fin 100) (e : Fin 100) (n : Fin 8192) : Fin 2 → EReal :=
  lin (lin (lin (fun f => P.x n (idx e f)) (P.w0 e) (P.b0 e)) (P.w1 e) (P.b1 e)) (P.w2 e) (P.b2 e)

/-- Estimator `e`'s decoder on a latent pair. -/
def dec (D : Dec) (e : Fin 100) (z : Fin 2 → EReal) : Fin 100 → EReal :=
  lin (lin (lin z (D.w0 e) (D.b0 e)) (D.w1 e) (D.b1 e)) (D.w2 e) (D.b2 e)

/-- The result: entry `(e, n, j)`. -/
def out (P : Enc) (D : Dec) (idx : Fin 100 → Fin 10 → Fin 100) (e : Fin 100) (n : Fin 8192) (j : Fin 100) : EReal :=
  dec D e (enc P idx e n) j

/-! ## The packed arrays of group `gi` (estimators `4 gi … 4 gi + 3`), read at natural-number positions -/

/-- The 0/1 matrix of the column choice: `1` where column `d` is the `f`-th chosen one of estimator `e`. -/
def onehot (idx : Fin 100 → Fin 10 → Fin 100) (e : Fin 100) (d : Fin 100) (f : Fin 10) : EReal :=
  if d = idx e f then 1 else 0

/-- The first weight with the column choice folded in, the group's four laid side by side: position
    `(d, 5 g + k)` holds `∑ f, onehot e d f · w0 e f k` for `e = 4 gi + g`. -/
def pkW0 (oh : Fin 100 → Fin 100 → Fin 10 → EReal) (w0 : Fin 100 → Fin 10 → Fin 5 → EReal) (gi : Fin 25)
    (d : Fin 100) (c : ℕ) : EReal :=
  ∑ f : Fin 10, oh (fm 100 (4 * gi.val + c / 5)) d f * w0 (fm 100 (4 * gi.val + c / 5)) f (fm 5 c)

/-- A bias of the group, the four laid end to end: position `M g + k` holds `b (4 gi + g) k`. -/
def pkB {M : ℕ} [NeZero M] (b : Fin 100 → Fin M → EReal) (gi : Fin 25) (c : ℕ) : EReal :=
  b (fm 100 (4 * gi.val + c / M)) (fm M c)

/-- A weight of the group as one block-diagonal matrix: position `(K g' + i, M g + k)` holds
    `w (4 gi + g') i k` where `g' = g` and zero elsewhere. -/
def pkBD {K M : ℕ} [NeZero K] [NeZero M] (w : Fin 100 → Fin K → Fin M → EReal) (gi : Fin 25) (a c : ℕ) : EReal :=
  w (fm 100 (4 * gi.val + a / K)) (fm K a) (fm M c) * (if a / K = c / M then 1 else 0)

/-- The last bias, each estimator's 100 entries in a slot of 128 (zero in the slot's tail). -/
def pkBpad (b : Fin 100 → Fin 100 → EReal) (gi : Fin 25) (c : ℕ) : EReal :=
  if c % 128 < 100 then b (fm 100 (4 * gi.val + c / 128)) (fm 100 (c % 128)) else 0

/-- The last weight, block-diagonal with each estimator's 100 columns in a slot of 128 (zero in the slot's tail). -/
def pkBDpad (w : Fin 100 → Fin 50 → Fin 100 → EReal) (gi : Fin 25) (a c : ℕ) : EReal :=
  (if c % 128 < 100 then w (fm 100 (4 * gi.val + a / 50)) (fm 50 a) (fm 100 (c % 128)) else 0)
    * (if a / 50 = c / 128 then 1 else 0)

/-- The group's four latent pairs for row `n`, side by side, computed over the packed arrays. -/
def packedEnc (P : Enc) (idx : Fin 100 → Fin 10 → Fin 100) (gi : Fin 25) (n : Fin 8192) : Fin 8 → EReal :=
  lin (lin (lin (P.x n)
      (fun d (c : Fin 20) => pkW0 (onehot idx) P.w0 gi d c.val) (fun c : Fin 20 => pkB P.b0 gi c.val))
      (fun (a : Fin 20) (c : Fin 8) => pkBD P.w1 gi a.val c.val) (fun c : Fin 8 => pkB P.b1 gi c.val))
      (fun (a : Fin 8) (c : Fin 8) => pkBD P.w2 gi a.val c.val) (fun c : Fin 8 => pkB P.b2 gi c.val)

/-- The group's four decoded rows, each in its slot of 128, computed over the packed arrays. -/
def packedDec (D : Dec) (gi : Fin 25) (z : Fin 8 → EReal) : Fin 512 → EReal :=
  lin (lin (lin z
      (fun (a : Fin 8) (c : Fin 100) => pkBD D.w0 gi a.val c.val) (fun c : Fin 100 => pkB D.b0 gi c.val))
      (fun (a : Fin 100) (c : Fin 200) => pkBD D.w1 gi a.val c.val) (fun c : Fin 200 => pkB D.b1 gi c.val))
      (fun (a : Fin 200) (c : Fin 512) => pkBDpad D.w2 gi a.val c.val) (fun c : Fin 512 => pkBpad D.b2 gi c.val)

/-- What the kernel computes for group `gi` and row `n`: 512 numbers. -/
def packedOut (P : Enc) (D : Dec) (idx : Fin 100 → Fin 10 → Fin 100) (gi : Fin 25) (n : Fin 8192) : Fin 512 → EReal :=
  packedDec D gi (packedEnc P idx gi n)

end Cert.Spec

end
-- ==== Proof.Views.lean ====
/-
  Arrays as the programs hold them (functions on a shape's indices, to the extended reals) turned into the curried
  tables the mathematics is stated over, and the result array both programs are shown to end at.
-/
import proofs.«417956_j37340445671918_3_alg».proof.Proof.Spec
import Idealize.ShloMosaic.Lib.ValueIdx

noncomputable section

namespace Cert.Views

open Idealize.ShloMosaic Idealize.ShloMosaic.ValueIdx

/-- A rank-2 array of extended reals. -/
abbrev A2 (a b : ℕ) := (⟨2, ![a, b]⟩ : Shape).Idx → EReal
/-- A rank-3 array of extended reals. -/
abbrev A3 (a b c : ℕ) := (⟨3, ![a, b, c]⟩ : Shape).Idx → EReal

/-- A rank-2 array by its coordinates. -/
def c2 {a b : ℕ} (v : A2 a b) : Fin a → Fin b → EReal := fun i j => v (ix2 i j)
/-- A rank-3 array by its coordinates. -/
def c3 {a b c : ℕ} (v : A3 a b c) : Fin a → Fin b → Fin c → EReal := fun i j k => v (ix3 i j k)

/-- The input rows and the encoder's parameters, from the seven arrays. -/
def encOf (x : A2 8192 100) (w0 : A3 100 10 5) (b0 : A2 100 5) (w1 : A3 100 5 2) (b1 : A2 100 2)
    (w2 : A3 100 2 2) (b2 : A2 100 2) : Spec.Enc :=
  ⟨c2 x, c3 w0, c2 b0, c3 w1, c2 b1, c3 w2, c2 b2⟩

/-- One decoder's parameters, from its six arrays. -/
def decOf (w0 : A3 100 2 25) (b0 : A2 100 25) (w1 : A3 100 25 50) (b1 : A2 100 50)
    (w2 : A3 100 50 100) (b2 : A2 100 100) : Spec.Dec :=
  ⟨c3 w0, c2 b0, c3 w1, c2 b1, c3 w2, c2 b2⟩

/-- The index table holds, word by word, the column numbers `idx` (each below 100). -/
def Decodes (rs : (⟨2, ![100, 10]⟩ : Shape).Idx → BitVec 32) (idx : Fin 100 → Fin 10 → Fin 100) : Prop :=
  ∀ e f, rs (ix2 e f) = BitVec.ofNat 32 (idx e f).val

/-- The result array: entry `(e, n, j)` is `Spec.out … e n j`. -/
def G (P : Spec.Enc) (D : Spec.Dec) (idx : Fin 100 → Fin 10 → Fin 100) : A3 100 8192 100 :=
  fun i => Spec.out P D idx (i 0) (i 1) (i 2)

theorem G_apply (P : Spec.Enc) (D : Spec.Dec) (idx : Fin 100 → Fin 10 → Fin 100) (e : Fin 100) (n : Fin 8192) (j : Fin 100) :
    G P D idx (ix3 e n j) = Spec.out P D idx e n j := rfl

end Cert.Views

end
-- ==== Proof.MathBD.lean ====
/-
  A block-diagonal layer on a packed row is, column by column, one estimator's layer on its own stretch of the row:
  the terms from the other estimators' stretches are products with zero.
-/
import proofs.«417956_j37340445671918_3_alg».proof.Proof.Spec

noncomputable section

namespace Cert.Spec

open scoped BigOperators

/-- A sum over four stretches of length `K` whose terms vanish outside stretch `q` is the sum over that stretch:
    the map `i ↦ K q + i` is injective, and a position outside its range lies in another stretch. -/
private theorem sum_stretch {K NK : ℕ} (hK : NK = 4 * K) (hK0 : 0 < K) (q : ℕ) (hq : q < 4)
    (t : Fin NK → EReal) (s : Fin K → EReal)
    (h0 : ∀ a : Fin NK, a.val / K ≠ q → t a = 0)
    (h1 : ∀ (i : Fin K) (a : Fin NK), a.val = K * q + i.val → t a = s i) :
    ∑ a : Fin NK, t a = ∑ i : Fin K, s i := by
  subst hK
  have hlt : ∀ i : Fin K, K * q + i.val < 4 * K := by
    intro i
    have hi := i.isLt
    have h4 : K * q + K ≤ 4 * K := by
      have : K * (q + 1) ≤ K * 4 := Nat.mul_le_mul_left K hq
      rw [Nat.mul_add, Nat.mul_one, Nat.mul_comm K 4] at this
      exact this
    omega
  symm
  refine Fintype.sum_of_injective (fun i : Fin K => (⟨K * q + i.val, hlt i⟩ : Fin (4 * K))) ?_ s t ?_ ?_
  · intro i j hij
    have : K * q + i.val = K * q + j.val := congrArg Fin.val hij
    exact Fin.ext (by omega)
  · intro a ha
    apply h0
    intro hq'
    apply ha
    refine ⟨⟨a.val % K, Nat.mod_lt _ hK0⟩, ?_⟩
    apply Fin.ext
    show K * q + a.val % K = a.val
    rw [← hq']
    exact Nat.div_add_mod a.val K
  · intro i
    exact (h1 i _ rfl).symm

/-- The quotient and the remainder of a position `K q + i` inside stretch `q`. -/
private theorem stretch_div {K : ℕ} (q i : ℕ) (hi : i < K) : (K * q + i) / K = q := by
  have hK0 : 0 < K := Nat.lt_of_le_of_lt (Nat.zero_le _) hi
  rw [Nat.mul_add_div hK0, Nat.div_eq_of_lt hi, Nat.add_zero]

private theorem stretch_mod {K : ℕ} (q i : ℕ) (hi : i < K) : (K * q + i) % K = i := by
  rw [Nat.mul_add_mod, Nat.mod_eq_of_lt hi]

/-- Column `c` (in estimator `c / M`'s stretch) of a block-diagonal layer applied to a packed row `u`, where
    `v` is that estimator's stretch of `u`. -/
theorem lin_pkBD {K M NK NM : ℕ} [NeZero K] [NeZero M] (hK : NK = 4 * K) (hM : NM = 4 * M)
    (w : Fin 100 → Fin K → Fin M → EReal) (b : Fin 100 → Fin M → EReal) (gi : Fin 25)
    (u : Fin NK → EReal) (c : Fin NM) (v : Fin K → EReal)
    (hv : ∀ (i : Fin K) (a : Fin NK), a.val = K * (c.val / M) + i.val → u a = v i) :
    lin u (fun (a : Fin NK) (k : Fin NM) => pkBD w gi a.val k.val) (fun k : Fin NM => pkB b gi k.val) c
      = lin v (w (fm 100 (4 * gi.val + c.val / M))) (b (fm 100 (4 * gi.val + c.val / M))) (fm M c.val) := by
  have hq : c.val / M < 4 := by
    have hc : c.val < 4 * M := hM ▸ c.isLt
    exact (Nat.div_lt_iff_lt_mul (NeZero.pos M)).mpr hc
  unfold lin
  refine congrArg₂ (· + ·) ?_ rfl
  refine sum_stretch hK (NeZero.pos K) (c.val / M) hq _ _ ?_ ?_
  · intro a ha
    show u a * (w _ _ _ * (if a.val / K = c.val / M then 1 else 0)) = 0
    rw [if_neg ha, mul_zero, mul_zero]
  · intro i a ha
    show u a * (w (fm 100 (4 * gi.val + a.val / K)) (fm K a.val) (fm M c.val)
        * (if a.val / K = c.val / M then 1 else 0))
      = v i * w (fm 100 (4 * gi.val + c.val / M)) i (fm M c.val)
    have hd : a.val / K = c.val / M := by rw [ha]; exact stretch_div _ _ i.isLt
    have hm : fm K a.val = i := by
      apply Fin.ext
      show a.val % K = i.val
      rw [ha]; exact stretch_mod _ _ i.isLt
    rw [if_pos hd, mul_one, hv i a ha, hd, hm]

/-- The same for the last layer, whose estimators' columns sit in slots of 128: a column inside the first 100 of
    its slot. -/
theorem lin_pkBDpad (w : Fin 100 → Fin 50 → Fin 100 → EReal) (b : Fin 100 → Fin 100 → EReal) (gi : Fin 25)
    (u : Fin 200 → EReal) (c : Fin 512) (hc : c.val % 128 < 100) (v : Fin 50 → EReal)
    (hv : ∀ (i : Fin 50) (a : Fin 200), a.val = 50 * (c.val / 128) + i.val → u a = v i) :
    lin u (fun (a : Fin 200) (k : Fin 512) => pkBDpad w gi a.val k.val) (fun k : Fin 512 => pkBpad b gi k.val) c
      = lin v (w (fm 100 (4 * gi.val + c.val / 128))) (b (fm 100 (4 * gi.val + c.val / 128))) (fm 100 (c.val % 128)) := by
  have hq : c.val / 128 < 4 := by
    have := c.isLt
    omega
  unfold lin
  refine congrArg₂ (· + ·) ?_ ?_
  · refine sum_stretch (K := 50) rfl (by decide) (c.val / 128) hq _ _ ?_ ?_
    · intro a ha
      show u a * ((if c.val % 128 < 100 then w _ _ _ else 0) * (if a.val / 50 = c.val / 128 then 1 else 0)) = 0
      rw [if_neg ha, mul_zero, mul_zero]
    · intro i a ha
      show u a * ((if c.val % 128 < 100 then w (fm 100 (4 * gi.val + a.val / 50)) (fm 50 a.val) (fm 100 (c.val % 128))
            else 0) * (if a.val / 50 = c.val / 128 then 1 else 0))
        = v i * w (fm 100 (4 * gi.val + c.val / 128)) i (fm 100 (c.val % 128))
      have hd : a.val / 50 = c.val / 128 := by rw [ha]; exact stretch_div _ _ i.isLt
      have hm : fm 50 a.val = i := by
        apply Fin.ext
        show a.val % 50 = i.val
        rw [ha]; exact stretch_mod _ _ i.isLt
      rw [if_pos hd, if_pos hc, mul_one, hv i a ha, hd, hm]
  · show (if c.val % 128 < 100 then b (fm 100 (4 * gi.val + c.val / 128)) (fm 100 (c.val % 128)) else 0) = _
    rw [if_pos hc]

end Cert.Spec

end
-- ==== Proof.MathW0.lean ====
/-
  The first layer with the column choice folded into the weight is the first layer on the chosen columns: over real
  numbers the product with a sum distributes, the two sums exchange, and the 0/1 factor keeps one column.
-/
import proofs.«417956_j37340445671918_3_alg».proof.Proof.Spec

noncomputable section

namespace Cert.Spec

open scoped BigOperators

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: a row times the folded weight keeps, for each chosen position, the one column it names. -/
private theorem real_fold (xr : Fin 100 → ℝ) (wr : Fin 10 → ℝ) (sel : Fin 10 → Fin 100) :
    (∑ d : Fin 100, xr d * ∑ f : Fin 10, (if d = sel f then (1 : ℝ) else 0) * wr f)
      = ∑ f : Fin 10, xr (sel f) * wr f := by
  simp only [Finset.mul_sum]
  rw [Finset.sum_comm]
  refine Finset.sum_congr rfl (fun f _ => ?_)
  rw [Finset.sum_eq_single (sel f)]
  · simp
  · intro d _ hd
    simp [hd]
  · intro h
    exact absurd (Finset.mem_univ _) h

/-- Column `c` of the packed first layer on a row `x` of real numbers is estimator `4 gi + c / 5`'s first
    layer on its ten chosen entries of `x`. -/
theorem lin_pkW0 (x : Fin 100 → EReal) (hx : ∀ d, ∃ r : ℝ, x d = (r : EReal))
    (w0 : Fin 100 → Fin 10 → Fin 5 → EReal) (hw0 : ∀ e f k, ∃ r : ℝ, w0 e f k = (r : EReal))
    (b0 : Fin 100 → Fin 5 → EReal) (idx : Fin 100 → Fin 10 → Fin 100) (gi : Fin 25) (c : Fin 20) :
    lin x (fun (d : Fin 100) (k : Fin 20) => pkW0 (onehot idx) w0 gi d k.val) (fun k : Fin 20 => pkB b0 gi k.val) c
      = lin (fun f : Fin 10 => x (idx (fm 100 (4 * gi.val + c.val / 5)) f)) (w0 (fm 100 (4 * gi.val + c.val / 5)))
          (b0 (fm 100 (4 * gi.val + c.val / 5))) (fm 5 c.val) := by
  choose xr hxr using hx
  choose wr hwr using hw0
  -- the 0/1 entry is the coercion of a real 0/1 entry
  have hoh : ∀ (e : Fin 100) (d : Fin 100) (f : Fin 10),
      onehot idx e d f = (((if d = idx e f then (1 : ℝ) else 0) : ℝ) : EReal) := by
    intro e d f
    unfold onehot
    split_ifs <;> simp
  unfold lin pkW0 pkB
  -- the bias term is the same on both sides
  refine congrArg (· + b0 (fm 100 (4 * gi.val + c.val / 5)) (fm 5 c.val)) ?_
  -- every factor is a real number: carry the coercion outside the products and the sums
  simp only [hxr, hwr, hoh, ← EReal.coe_mul, ← coe_sum]
  exact congrArg (fun r : ℝ => (r : EReal))
    (real_fold xr (fun f => wr (fm 100 (4 * gi.val + c.val / 5)) f (fm 5 c.val))
      (idx (fm 100 (4 * gi.val + c.val / 5))))

end Cert.Spec

end
-- ==== Proof.Math.lean ====
/-
  The packed computation is the per-estimator one.
-/
import proofs.«417956_j37340445671918_3_alg».proof.Proof.Spec
import proofs.«417956_j37340445671918_3_alg».proof.Proof.MathBD
import proofs.«417956_j37340445671918_3_alg».proof.Proof.MathW0

noncomputable section

namespace Cert.Spec

open scoped BigOperators

/-! ## Position `M g + k` with `k < M`: its quotient and its remainder -/

private theorem div_of_eq {M c g k : ℕ} (hc : c = M * g + k) (hk : k < M) : c / M = g := by
  subst hc
  rw [Nat.mul_add_div (by omega), Nat.div_eq_of_lt hk, Nat.add_zero]

private theorem mod_of_eq {M c g k : ℕ} (hc : c = M * g + k) (hk : k < M) : c % M = k := by
  subst hc
  rw [Nat.mul_add_mod, Nat.mod_eq_of_lt hk]

private theorem fm_of_eq {M : ℕ} [NeZero M] {c g : ℕ} (k : Fin M) (hc : c = M * g + k.val) : fm M c = k :=
  Fin.ext (by rw [fm_val]; exact mod_of_eq hc k.isLt)

/-! ## The layers, packed and per estimator -/

/-- The packed row after the first encoder layer. -/
private def pE1 (P : Enc) (idx : Fin 100 → Fin 10 → Fin 100) (gi : Fin 25) (n : Fin 8192) : Fin 20 → EReal :=
  lin (P.x n) (fun d (c : Fin 20) => pkW0 (onehot idx) P.w0 gi d c.val) (fun c : Fin 20 => pkB P.b0 gi c.val)

/-- The packed row after the second encoder layer. -/
private def pE2 (P : Enc) (idx : Fin 100 → Fin 10 → Fin 100) (gi : Fin 25) (n : Fin 8192) : Fin 8 → EReal :=
  lin (pE1 P idx gi n) (fun (a : Fin 20) (c : Fin 8) => pkBD P.w1 gi a.val c.val) (fun c : Fin 8 => pkB P.b1 gi c.val)

/-- The packed row after the third encoder layer: the four latent pairs. -/
private def pE3 (P : Enc) (idx : Fin 100 → Fin 10 → Fin 100) (gi : Fin 25) (n : Fin 8192) : Fin 8 → EReal :=
  lin (pE2 P idx gi n) (fun (a : Fin 8) (c : Fin 8) => pkBD P.w2 gi a.val c.val) (fun c : Fin 8 => pkB P.b2 gi c.val)

/-- The packed row after the first decoder layer. -/
private def pD1 (P : Enc) (D : Dec) (idx : Fin 100 → Fin 10 → Fin 100) (gi : Fin 25) (n : Fin 8192) :
    Fin 100 → EReal :=
  lin (pE3 P idx gi n) (fun (a : Fin 8) (c : Fin 100) => pkBD D.w0 gi a.val c.val)
    (fun c : Fin 100 => pkB D.b0 gi c.val)

/-- The packed row after the second decoder layer. -/
private def pD2 (P : Enc) (D : Dec) (idx : Fin 100 → Fin 10 → Fin 100) (gi : Fin 25) (n : Fin 8192) :
    Fin 200 → EReal :=
  lin (pD1 P D idx gi n) (fun (a : Fin 100) (c : Fin 200) => pkBD D.w1 gi a.val c.val)
    (fun c : Fin 200 => pkB D.b1 gi c.val)

/-- The packed row after the last decoder layer. -/
private def pD3 (P : Enc) (D : Dec) (idx : Fin 100 → Fin 10 → Fin 100) (gi : Fin 25) (n : Fin 8192) :
    Fin 512 → EReal :=
  lin (pD2 P D idx gi n) (fun (a : Fin 200) (c : Fin 512) => pkBDpad D.w2 gi a.val c.val)
    (fun c : Fin 512 => pkBpad D.b2 gi c.val)

/-- Estimator `e` after its first encoder layer. -/
private def eE1 (P : Enc) (idx : Fin 100 → Fin 10 → Fin 100) (e : Fin 100) (n : Fin 8192) : Fin 5 → EReal :=
  lin (fun f => P.x n (idx e f)) (P.w0 e) (P.b0 e)

/-- Estimator `e` after its second encoder layer. -/
private def eE2 (P : Enc) (idx : Fin 100 → Fin 10 → Fin 100) (e : Fin 100) (n : Fin 8192) : Fin 2 → EReal :=
  lin (eE1 P idx e n) (P.w1 e) (P.b1 e)

/-- Estimator `e` after its third encoder layer: its latent pair. -/
private def eE3 (P : Enc) (idx : Fin 100 → Fin 10 → Fin 100) (e : Fin 100) (n : Fin 8192) : Fin 2 → EReal :=
  lin (eE2 P idx e n) (P.w2 e) (P.b2 e)

/-- Estimator `e` after its first decoder layer. -/
private def eD1 (P : Enc) (D : Dec) (idx : Fin 100 → Fin 10 → Fin 100) (e : Fin 100) (n : Fin 8192) :
    Fin 25 → EReal :=
  lin (eE3 P idx e n) (D.w0 e) (D.b0 e)

/-- Estimator `e` after its second decoder layer. -/
private def eD2 (P : Enc) (D : Dec) (idx : Fin 100 → Fin 10 → Fin 100) (e : Fin 100) (n : Fin 8192) :
    Fin 50 → EReal :=
  lin (eD1 P D idx e n) (D.w1 e) (D.b1 e)

/-- Estimator `e` after its last decoder layer. -/
private def eD3 (P : Enc) (D : Dec) (idx : Fin 100 → Fin 10 → Fin 100) (e : Fin 100) (n : Fin 8192) :
    Fin 100 → EReal :=
  lin (eD2 P D idx e n) (D.w2 e) (D.b2 e)

private theorem packedOut_eq (P : Enc) (D : Dec) (idx : Fin 100 → Fin 10 → Fin 100) (gi : Fin 25) (n : Fin 8192) :
    packedOut P D idx gi n = pD3 P D idx gi n := rfl

private theorem out_eq (P : Enc) (D : Dec) (idx : Fin 100 → Fin 10 → Fin 100) (e : Fin 100) (n : Fin 8192)
    (j : Fin 100) : out P D idx e n j = eD3 P D idx e n j := rfl

/-! ## One block-diagonal layer, stretch by stretch -/

/-- If the packed row `u` holds estimator `4 gi + g`'s row `v g` in its `g`-th stretch of `K`, the block-diagonal
    layer puts that estimator's layer on `v g` in the `g`-th stretch of `M`. -/
private theorem step {K M NK NM : ℕ} [NeZero K] [NeZero M] (hK : NK = 4 * K) (hM : NM = 4 * M)
    (w : Fin 100 → Fin K → Fin M → EReal) (b : Fin 100 → Fin M → EReal) (gi : Fin 25)
    (u : Fin NK → EReal) (v : Fin 4 → Fin K → EReal)
    (huv : ∀ (g : Fin 4) (i : Fin K) (a : Fin NK), a.val = K * g.val + i.val → u a = v g i)
    (g : Fin 4) (k : Fin M) (c : Fin NM) (hc : c.val = M * g.val + k.val) :
    lin u (fun (a : Fin NK) (k : Fin NM) => pkBD w gi a.val k.val) (fun k : Fin NM => pkB b gi k.val) c
      = lin (v g) (w (fm 100 (4 * gi.val + g.val))) (b (fm 100 (4 * gi.val + g.val))) k := by
  have hdiv : c.val / M = g.val := div_of_eq hc k.isLt
  have hfm : fm M c.val = k := fm_of_eq k hc
  rw [lin_pkBD hK hM w b gi u c (v g) (fun i a ha => huv g i a (by rw [ha, hdiv])), hdiv, hfm]

/-! ## Layer by layer: packed column `M g + k` is estimator `4 gi + g`'s entry `k` -/

private theorem pE1_eq (P : Enc) (idx : Fin 100 → Fin 10 → Fin 100)
    (hx : ∀ n d, ∃ r : ℝ, P.x n d = (r : EReal)) (hw0 : ∀ e f k, ∃ r : ℝ, P.w0 e f k = (r : EReal))
    (gi : Fin 25) (n : Fin 8192) (g : Fin 4) (k : Fin 5) (c : Fin 20) (hc : c.val = 5 * g.val + k.val) :
    pE1 P idx gi n c = eE1 P idx (fm 100 (4 * gi.val + g.val)) n k := by
  have hdiv : c.val / 5 = g.val := div_of_eq hc k.isLt
  have hfm : fm 5 c.val = k := fm_of_eq k hc
  unfold pE1 eE1
  rw [lin_pkW0 (P.x n) (hx n) P.w0 hw0 P.b0 idx gi c, hdiv, hfm]

private theorem pE2_eq (P : Enc) (idx : Fin 100 → Fin 10 → Fin 100)
    (hx : ∀ n d, ∃ r : ℝ, P.x n d = (r : EReal)) (hw0 : ∀ e f k, ∃ r : ℝ, P.w0 e f k = (r : EReal))
    (gi : Fin 25) (n : Fin 8192) (g : Fin 4) (k : Fin 2) (c : Fin 8) (hc : c.val = 2 * g.val + k.val) :
    pE2 P idx gi n c = eE2 P idx (fm 100 (4 * gi.val + g.val)) n k :=
  step (K := 5) (M := 2) rfl rfl P.w1 P.b1 gi (pE1 P idx gi n)
    (fun g => eE1 P idx (fm 100 (4 * gi.val + g.val)) n) (pE1_eq P idx hx hw0 gi n) g k c hc

private theorem pE3_eq (P : Enc) (idx : Fin 100 → Fin 10 → Fin 100)
    (hx : ∀ n d, ∃ r : ℝ, P.x n d = (r : EReal)) (hw0 : ∀ e f k, ∃ r : ℝ, P.w0 e f k = (r : EReal))
    (gi : Fin 25) (n : Fin 8192) (g : Fin 4) (k : Fin 2) (c : Fin 8) (hc : c.val = 2 * g.val + k.val) :
    pE3 P idx gi n c = eE3 P idx (fm 100 (4 * gi.val + g.val)) n k :=
  step (K := 2) (M := 2) rfl rfl P.w2 P.b2 gi (pE2 P idx gi n)
    (fun g => eE2 P idx (fm 100 (4 * gi.val + g.val)) n) (pE2_eq P idx hx hw0 gi n) g k c hc

private theorem pD1_eq (P : Enc) (D : Dec) (idx : Fin 100 → Fin 10 → Fin 100)
    (hx : ∀ n d, ∃ r : ℝ, P.x n d = (r : EReal)) (hw0 : ∀ e f k, ∃ r : ℝ, P.w0 e f k = (r : EReal))
    (gi : Fin 25) (n : Fin 8192) (g : Fin 4) (k : Fin 25) (c : Fin 100) (hc : c.val = 25 * g.val + k.val) :
    pD1 P D idx gi n c = eD1 P D idx (fm 100 (4 * gi.val + g.val)) n k :=
  step (K := 2) (M := 25) rfl rfl D.w0 D.b0 gi (pE3 P idx gi n)
    (fun g => eE3 P idx (fm 100 (4 * gi.val + g.val)) n) (pE3_eq P idx hx hw0 gi n) g k c hc

private theorem pD2_eq (P : Enc) (D : Dec) (idx : Fin 100 → Fin 10 → Fin 100)
    (hx : ∀ n d, ∃ r : ℝ, P.x n d = (r : EReal)) (hw0 : ∀ e f k, ∃ r : ℝ, P.w0 e f k = (r : EReal))
    (gi : Fin 25) (n : Fin 8192) (g : Fin 4) (k : Fin 50) (c : Fin 200) (hc : c.val = 50 * g.val + k.val) :
    pD2 P D idx gi n c = eD2 P D idx (fm 100 (4 * gi.val + g.val)) n k :=
  step (K := 25) (M := 50) rfl rfl D.w1 D.b1 gi (pD1 P D idx gi n)
    (fun g => eD1 P D idx (fm 100 (4 * gi.val + g.val)) n) (pD1_eq P D idx hx hw0 gi n) g k c hc

/-- The last layer: column `128 g + j`, `j < 100`, sits in the first 100 of slot `g`. -/
private theorem pD3_eq (P : Enc) (D : Dec) (idx : Fin 100 → Fin 10 → Fin 100)
    (hx : ∀ n d, ∃ r : ℝ, P.x n d = (r : EReal)) (hw0 : ∀ e f k, ∃ r : ℝ, P.w0 e f k = (r : EReal))
    (gi : Fin 25) (n : Fin 8192) (g : Fin 4) (j : Fin 100) (c : Fin 512) (hc : c.val = 128 * g.val + j.val) :
    pD3 P D idx gi n c = eD3 P D idx (fm 100 (4 * gi.val + g.val)) n j := by
  have hj : j.val < 128 := lt_trans j.isLt (by norm_num)
  have hdiv : c.val / 128 = g.val := div_of_eq hc hj
  have hmod : c.val % 128 = j.val := mod_of_eq hc hj
  have hlt : c.val % 128 < 100 := by rw [hmod]; exact j.isLt
  have hfm : fm 100 (c.val % 128) = j := by rw [hmod]; exact fm_of_lt 100 j.val j.isLt
  unfold pD3 eD3
  rw [lin_pkBDpad D.w2 D.b2 gi (pD2 P D idx gi n) c hlt (eD2 P D idx (fm 100 (4 * gi.val + g.val)) n)
    (fun i a ha => pD2_eq P D idx hx hw0 gi n g i a (by rw [ha, hdiv])), hdiv, hfm]

/-- Column `128 g + j` of what the kernel computes for group `gi` and row `n` is entry `j` of estimator
    `4 gi + g`'s result for that row, when the input rows and the first weight hold real numbers. -/
theorem packed_eq (P : Enc) (D : Dec) (idx : Fin 100 → Fin 10 → Fin 100)
    (hx : ∀ n d, ∃ r : ℝ, P.x n d = (r : EReal)) (hw0 : ∀ e f k, ∃ r : ℝ, P.w0 e f k = (r : EReal))
    (gi : Fin 25) (n : Fin 8192) (g : Fin 4) (j : Fin 100) :
    packedOut P D idx gi n ⟨128 * g.val + j.val, by have := g.isLt; have := j.isLt; omega⟩
      = out P D idx (fm 100 (4 * gi.val + g.val)) n j := by
  rw [packedOut_eq, out_eq]
  exact pD3_eq P D idx hx hw0 gi n g j _ rfl

end Cert.Spec

end
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.KerPay.lean ====
/-
  What the kernel body stores, read at an entry: nine matrix products into zero accumulators, each followed by a bias
  row added to every row, and eight column slices; entry `(g, r, j)` of an output block is column `128 g + j` of
  row `r` of the last product-plus-bias.
-/
import proofs.«417956_j37340445671918_3_alg».proof.Proof.Gen.KernelIdeal.Frame
import proofs.«417956_j37340445671918_3_alg».proof.Proof.Spec
import proofs.«417956_j37340445671918_3_alg».proof.Proof.LibMatmulPlain
import Idealize.ShloMosaic.Lib.ValueIdx
import Idealize.ShloMosaic.Lib.Pipeline.Value
import Idealize.ShloMosaic.Lib.ValueLayout

noncomputable section

namespace Cert.KerPay

open Cert.KernelIdeal Cert.KernelIdeal.Gen Idealize.ShloMosaic Idealize.ShloMosaic.ValueIdx Cert.Spec
open scoped BigOperators

/-- The three encoder layers over the loaded blocks, for row `r` of the block of input rows. -/
def chainEnc (x0 : Vec Ideal S2048x100 .f32) (x1 : Vec Ideal S1x100x20 .f32) (x2 : Vec Ideal S1x1x20 .f32) (x3 : Vec Ideal S1x20x8 .f32) (x4 : Vec Ideal S1x1x8 .f32) (x5 : Vec Ideal S1x8x8 .f32) (x6 : Vec Ideal S1x1x8 .f32) (r : Fin 2048) : Fin 8 → EReal :=
  lin (lin (lin (fun d : Fin 100 => x0 (ix2 r d))
      (fun (d : Fin 100) (k : Fin 20) => x1 (ix3 0 d k)) (fun k : Fin 20 => x2 (ix3 0 0 k)))
      (fun (a : Fin 20) (k : Fin 8) => x3 (ix3 0 a k)) (fun k : Fin 8 => x4 (ix3 0 0 k)))
      (fun (a : Fin 8) (k : Fin 8) => x5 (ix3 0 a k)) (fun k : Fin 8 => x6 (ix3 0 0 k))

/-- The three decoder layers over the loaded blocks of one decoder. -/
def chainDec (z : Fin 8 → EReal) (y0 : Vec Ideal S1x8x100 .f32) (y1 : Vec Ideal S1x1x100 .f32) (y2 : Vec Ideal S1x100x200 .f32)
    (y3 : Vec Ideal S1x1x200 .f32) (y4 : Vec Ideal S1x200x512 .f32) (y5 : Vec Ideal S1x1x512 .f32) : Fin 512 → EReal :=
  lin (lin (lin z
      (fun (a : Fin 8) (k : Fin 100) => y0 (ix3 0 a k)) (fun k : Fin 100 => y1 (ix3 0 0 k)))
      (fun (a : Fin 100) (k : Fin 200) => y2 (ix3 0 a k)) (fun k : Fin 200 => y3 (ix3 0 0 k)))
      (fun (a : Fin 200) (k : Fin 512) => y4 (ix3 0 a k)) (fun k : Fin 512 => y5 (ix3 0 0 k))

/-- A row `[1, b]` broadcast to `[a, b]` reads, at `(i, j)`, the row's entry of column `j`. -/
private theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- One affine layer of the body at an entry: the product of a block of rows with a weight block (its unit axis
    dropped) into a zero accumulator, plus the bias block (its two unit axes dropped, one put back) repeated on
    every row, is `lin` of the row. -/
private theorem layer_apply {M K N : ℕ} {D : DotDims ⟨2, ![M, K]⟩ ⟨2, ![K, N]⟩ ⟨2, ![M, N]⟩} (hD : D = DotDims.plain M K N)
    (A : FVec Ideal ⟨2, ![M, K]⟩ .f32) (W : Vec Ideal ⟨3, ![1, K, N]⟩ .f32) (B : Vec Ideal ⟨3, ![1, 1, N]⟩ .f32)
    (h1 : (⟨3, ![1, K, N]⟩ : Shape).ShapeCasts ⟨2, ![K, N]⟩) (h2 : (⟨3, ![1, 1, N]⟩ : Shape).ShapeCasts ⟨1, ![N]⟩)
    (h3 : (⟨1, ![N]⟩ : Shape).ShapeCasts ⟨2, ![1, N]⟩) (h4 : (⟨2, ![1, N]⟩ : Shape).Broadcasts ⟨2, ![M, N]⟩)
    (r : Fin M) (a : Fin K → EReal) (hA : ∀ d, A (ix2 r d) = a d) (k : Fin N) :
    addf (matmul D none A (shapeCast ⟨2, ![K, N]⟩ W h1 : FVec Ideal ⟨2, ![K, N]⟩ .f32) (constant ⟨2, ![M, N]⟩ .f32 0x00000000#32))
        (broadcastTo ⟨2, ![M, N]⟩ (shapeCast ⟨2, ![1, N]⟩ (shapeCast ⟨1, ![N]⟩ B h2 : FVec Ideal ⟨1, ![N]⟩ .f32) h3 : FVec Ideal ⟨2, ![1, N]⟩ .f32) h4) (ix2 r k)
      = lin a (fun d k => W (ix3 (0 : Fin 1) d k)) (fun k => B (ix3 (0 : Fin 1) (0 : Fin 1) k)) k := by
  subst hD
  rw [addf_apply, Cert.LibMatmulPlain.matmul_plain_apply, broadcastTo_1b_ab_apply, shapeCast_a_1a_apply]
  have hB : shapeCast ⟨1, ![N]⟩ B h2 (ix1 k) = B (ix3 (0 : Fin 1) (0 : Fin 1) k) :=
    shapeCast_apply B h2 _ _ (by
      rw [Shape.rowMajor_val_three, Shape.rowMajor_val_one]
      show (0 * 1 + 0) * N + k.val = k.val
      omega)
  rw [hB]
  unfold lin
  congr 1
  refine Finset.sum_congr rfl fun q _ => ?_
  rw [hA q, shapeCast_1ab_ab_apply]

/-- The encoder's three layers at an entry of their result. -/
private theorem pay4_apply (x0 : Vec Ideal S2048x100 .f32) (x1 : Vec Ideal S1x100x20 .f32) (x2 : Vec Ideal S1x1x20 .f32) (x3 : Vec Ideal S1x20x8 .f32) (x4 : Vec Ideal S1x1x8 .f32) (x5 : Vec Ideal S1x8x8 .f32) (x6 : Vec Ideal S1x1x8 .f32) (r : Fin 2048) (k : Fin 8) :
    k0_pay4 (F := Ideal) x0 x1 x2 x3 x4 x5 x6 (ix2 r k) = chainEnc x0 x1 x2 x3 x4 x5 x6 r k := by
  unfold k0_pay4 chainEnc
  refine layer_apply (by rfl) _ _ _ _ _ _ _ r _ (fun d => ?_) k
  refine layer_apply (by rfl) _ _ _ _ _ _ _ r _ (fun d => ?_) d
  exact layer_apply (by rfl) _ _ _ _ _ _ _ r _ (fun d => rfl) d

/-- The first decoder's three layers at an entry of their result. -/
private theorem dec19_apply (x0 : Vec Ideal S2048x100 .f32) (x1 : Vec Ideal S1x100x20 .f32) (x2 : Vec Ideal S1x1x20 .f32) (x3 : Vec Ideal S1x20x8 .f32) (x4 : Vec Ideal S1x1x8 .f32) (x5 : Vec Ideal S1x8x8 .f32) (x6 : Vec Ideal S1x1x8 .f32) (y0 : Vec Ideal S1x8x100 .f32) (y1 : Vec Ideal S1x1x100 .f32) (y2 : Vec Ideal S1x100x200 .f32)
    (y3 : Vec Ideal S1x1x200 .f32) (y4 : Vec Ideal S1x200x512 .f32) (y5 : Vec Ideal S1x1x512 .f32) (r : Fin 2048) (c : Fin 512) :
    k0_pay6 (k0_pay5 (F := Ideal) x0 x1 x2 x3 x4 x5 x6 y0) y1 y2 y3 y4 y5 (ix2 r c)
      = chainDec (chainEnc x0 x1 x2 x3 x4 x5 x6 r) y0 y1 y2 y3 y4 y5 c := by
  unfold k0_pay6 k0_pay5 chainDec
  refine layer_apply (by rfl) _ _ _ _ _ _ _ r _ (fun d => ?_) c
  refine layer_apply (by rfl) _ _ _ _ _ _ _ r _ (fun d => ?_) d
  exact layer_apply (by rfl) _ _ _ _ _ _ _ r _ (fun d => pay4_apply x0 x1 x2 x3 x4 x5 x6 r d) d

/-- The second decoder's three layers at an entry of their result. -/
private theorem dec20_apply (x0 : Vec Ideal S2048x100 .f32) (x1 : Vec Ideal S1x100x20 .f32) (x2 : Vec Ideal S1x1x20 .f32) (x3 : Vec Ideal S1x20x8 .f32) (x4 : Vec Ideal S1x1x8 .f32) (x5 : Vec Ideal S1x8x8 .f32) (x6 : Vec Ideal S1x1x8 .f32) (y0 : Vec Ideal S1x8x100 .f32) (y1 : Vec Ideal S1x1x100 .f32) (y2 : Vec Ideal S1x100x200 .f32)
    (y3 : Vec Ideal S1x1x200 .f32) (y4 : Vec Ideal S1x200x512 .f32) (y5 : Vec Ideal S1x1x512 .f32) (r : Fin 2048) (c : Fin 512) :
    k0_pay12 (k0_pay4 (F := Ideal) x0 x1 x2 x3 x4 x5 x6) y0 y1 y2 y3 y4 y5 (ix2 r c)
      = chainDec (chainEnc x0 x1 x2 x3 x4 x5 x6 r) y0 y1 y2 y3 y4 y5 c := by
  unfold k0_pay12 chainDec
  refine layer_apply (by rfl) _ _ _ _ _ _ _ r _ (fun d => ?_) c
  refine layer_apply (by rfl) _ _ _ _ _ _ _ r _ (fun d => ?_) d
  exact layer_apply (by rfl) _ _ _ _ _ _ _ r _ (fun d => pay4_apply x0 x1 x2 x3 x4 x5 x6 r d) d

/-- A band of 100 columns from column `o` of a 2048 × 512 array, given a leading unit axis, reads at `(u, a, b)`
    the array at `(a, o + b)`. -/
private theorem slab_apply (o : ℕ) (ho : o + 100 ≤ 512) (V : FVec Ideal S2048x512 .f32) (hs : S2048x512.Slices ![0, o] S2048x100)
    (hc : S2048x100.ShapeCasts S1x2048x100) (u : Fin 1) (a : Fin 2048) (b : Fin 100) :
    shapeCast S1x2048x100 (extractStridedSlice S2048x100 ![0, o] V hs : FVec Ideal S2048x100 .f32) hc (ix3 u a b)
      = V (ix2 a ⟨o + b.val, by have := b.isLt; omega⟩) :=
  (shapeCast_ab_1ab_apply _ hc u a b).trans (slice2_axis1_apply o V hs a b _ rfl)

/-- The array whose four bands of 100 columns (from columns 0, 128, 256, 384) are the four slabs of an output block:
    entry `(g, r, j)` is column `128 g + j` of row `r`. -/
private def bands (V : FVec Ideal S2048x512 .f32) (y : S4x2048x100.Idx) : Elt Ideal .f32 :=
  V (ix2 (⟨(y 1).val, (y 1).isLt⟩ : Fin 2048)
    (⟨128 * (y 0).val + (y 2).val, by
      have h0 : (y 0).val < 4 := (y 0).isLt
      have h2 : (y 2).val < 100 := (y 2).isLt
      omega⟩ : Fin 512))

/-- A slab stored at `[g, 0, 0]` whose payload is the band from column `128 g` agrees with `bands` under its rectangle. -/
private theorem piece_bands (V : FVec Ideal S2048x512 .f32) (g o : ℕ) (hg : o = 128 * g) (ho : o + 100 ≤ 512)
    (inb : ∀ a, (![g, 0, 0] : Fin 3 → ℕ) a + S1x2048x100.size a ≤ S4x2048x100.size a)
    (p : Vec Ideal S1x2048x100 .f32)
    (hp : ∀ (u : Fin 1) (a : Fin 2048) (b : Fin 100), p (ix3 u a b) = V (ix2 a ⟨o + b.val, by have := b.isLt; omega⟩))
    (x : (Rect.unit (s := S4x2048x100) ![g, 0, 0] S1x2048x100.size inb).shape.Idx) :
    p x = bands V ((Rect.unit (s := S4x2048x100) ![g, 0, 0] S1x2048x100.size inb).emb x) := by
  obtain ⟨u, a, b, rfl⟩ : ∃ (u : Fin 1) (a : Fin 2048) (b : Fin 100), x = ix3 u a b := ⟨_, _, _, eq_ix3 x⟩
  have hu : u.val = 0 := by omega
  refine (hp u a b).trans (congrArg V (Shape.idx_ext₂ ?_ ?_))
  · show a.val = 0 + 1 * a.val
    omega
  · show o + b.val = 128 * (g + 1 * u.val) + (0 + 1 * b.val)
    omega

/-- An output block written as four slabs, slab `g` the band from column `128 g` of one array, read at an entry. -/
private theorem canon4_apply (V : FVec Ideal S2048x512 .f32) (p3 p2 p1 p0 : Vec Ideal S1x2048x100 .f32)
    (h0 : ∀ (u : Fin 1) (a : Fin 2048) (b : Fin 100), p0 (ix3 u a b) = V (ix2 a ⟨0 + b.val, by have := b.isLt; omega⟩))
    (h1 : ∀ (u : Fin 1) (a : Fin 2048) (b : Fin 100), p1 (ix3 u a b) = V (ix2 a ⟨128 + b.val, by have := b.isLt; omega⟩))
    (h2 : ∀ (u : Fin 1) (a : Fin 2048) (b : Fin 100), p2 (ix3 u a b) = V (ix2 a ⟨256 + b.val, by have := b.isLt; omega⟩))
    (h3 : ∀ (u : Fin 1) (a : Fin 2048) (b : Fin 100), p3 (ix3 u a b) = V (ix2 a ⟨384 + b.val, by have := b.isLt; omega⟩))
    (g : Fin 4) (r : Fin 2048) (j : Fin 100) :
    View.canon ([⟨r0_15, p3⟩, ⟨r0_14, p2⟩, ⟨r0_13, p1⟩, ⟨r0_12, p0⟩] : List (View.Piece (Elt Ideal) S4x2048x100 .f32)) (ix3 g r j)
      = V (ix2 r ⟨128 * g.val + j.val, by have := g.isLt; have := j.isLt; omega⟩) := by
  refine View.canon_apply_of_pieces (bands V) _ (fun p hp => ?_) (ix3 g r j) (cover0_19 (F := Ideal) p3 p2 p1 p0 (ix3 g r j))
  simp only [List.mem_cons, List.not_mem_nil, or_false] at hp
  rcases hp with rfl | rfl | rfl | rfl
  · exact piece_bands V 3 384 rfl (by omega) inb_S4x2048x100_S1x2048x100_3_0_0 p3 h3
  · exact piece_bands V 2 256 rfl (by omega) inb_S4x2048x100_S1x2048x100_2_0_0 p2 h2
  · exact piece_bands V 1 128 rfl (by omega) inb_S4x2048x100_S1x2048x100_1_0_0 p1 h1
  · exact piece_bands V 0 0 rfl (by omega) inb_S4x2048x100_S1x2048x100_0_0_0 p0 h0

/-- The zero offsets of a rank-2 rectangle, as a function. -/
private theorem hz2 : (![0, 0] : Fin 2 → ℕ) = fun _ => 0 := by
  funext a; match a with | ⟨0, _⟩ => rfl | ⟨1, _⟩ => rfl

/-- The zero offsets of a rank-3 rectangle, as a function. -/
private theorem hz3 : (![0, 0, 0] : Fin 3 → ℕ) = fun _ => 0 := by
  funext a; match a with | ⟨0, _⟩ => rfl | ⟨1, _⟩ => rfl | ⟨2, _⟩ => rfl

/-- The first output's block after the body, at entry `(g, r, j)`. -/
theorem out19_apply (x0 : Vec Ideal S2048x100 .f32) (x1 : Vec Ideal S1x100x20 .f32) (x2 : Vec Ideal S1x1x20 .f32) (x3 : Vec Ideal S1x20x8 .f32) (x4 : Vec Ideal S1x1x8 .f32) (x5 : Vec Ideal S1x8x8 .f32) (x6 : Vec Ideal S1x1x8 .f32) (x7 : Vec Ideal S1x8x100 .f32) (x8 : Vec Ideal S1x1x100 .f32) (x9 : Vec Ideal S1x100x200 .f32) (x10 : Vec Ideal S1x1x200 .f32) (x11 : Vec Ideal S1x200x512 .f32) (x12 : Vec Ideal S1x1x512 .f32) (x13 : Vec Ideal S1x8x100 .f32) (x14 : Vec Ideal S1x1x100 .f32) (x15 : Vec Ideal S1x100x200 .f32) (x16 : Vec Ideal S1x1x200 .f32) (x17 : Vec Ideal S1x200x512 .f32) (x18 : Vec Ideal S1x1x512 .f32) (g : Fin 4) (r : Fin 2048) (j : Fin 100) :
    out0_19 (F := Ideal) x0 x1 x2 x3 x4 x5 x6 x7 x8 x9 x10 x11 x12 x13 x14 x15 x16 x17 x18 (ix3 g r j)
      = chainDec (chainEnc x0 x1 x2 x3 x4 x5 x6 r) x7 x8 x9 x10 x11 x12 ⟨128 * g.val + j.val, by have := g.isLt; have := j.isLt; omega⟩ := by
  unfold out0_19
  simp only [View.ld_unit_zero (S := S2048x100) hz2, View.ld_unit_zero (S := S1x100x20) hz3, View.ld_unit_zero (S := S1x1x20) hz3,
    View.ld_unit_zero (S := S1x20x8) hz3, View.ld_unit_zero (S := S1x1x8) hz3, View.ld_unit_zero (S := S1x8x8) hz3,
    View.ld_unit_zero (S := S1x8x100) hz3, View.ld_unit_zero (S := S1x1x100) hz3, View.ld_unit_zero (S := S1x100x200) hz3,
    View.ld_unit_zero (S := S1x1x200) hz3, View.ld_unit_zero (S := S1x200x512) hz3, View.ld_unit_zero (S := S1x1x512) hz3]
  refine (canon4_apply (k0_pay6 (k0_pay5 (F := Ideal) x0 x1 x2 x3 x4 x5 x6 x7) x8 x9 x10 x11 x12) _ _ _ _
    (fun u a b => ?_) (fun u a b => ?_) (fun u a b => ?_) (fun u a b => ?_) g r j).trans
    (dec19_apply x0 x1 x2 x3 x4 x5 x6 x7 x8 x9 x10 x11 x12 r _)
  · unfold k0_pay7; exact slab_apply 0 (by omega) _ _ _ u a b
  · unfold k0_pay8; exact slab_apply 128 (by omega) _ _ _ u a b
  · unfold k0_pay9; exact slab_apply 256 (by omega) _ _ _ u a b
  · unfold k0_pay11 k0_pay10; exact slab_apply 384 (by omega) _ _ _ u a b

/-- The second output's block after the body, at entry `(g, r, j)`. -/
theorem out20_apply (x0 : Vec Ideal S2048x100 .f32) (x1 : Vec Ideal S1x100x20 .f32) (x2 : Vec Ideal S1x1x20 .f32) (x3 : Vec Ideal S1x20x8 .f32) (x4 : Vec Ideal S1x1x8 .f32) (x5 : Vec Ideal S1x8x8 .f32) (x6 : Vec Ideal S1x1x8 .f32) (x7 : Vec Ideal S1x8x100 .f32) (x8 : Vec Ideal S1x1x100 .f32) (x9 : Vec Ideal S1x100x200 .f32) (x10 : Vec Ideal S1x1x200 .f32) (x11 : Vec Ideal S1x200x512 .f32) (x12 : Vec Ideal S1x1x512 .f32) (x13 : Vec Ideal S1x8x100 .f32) (x14 : Vec Ideal S1x1x100 .f32) (x15 : Vec Ideal S1x100x200 .f32) (x16 : Vec Ideal S1x1x200 .f32) (x17 : Vec Ideal S1x200x512 .f32) (x18 : Vec Ideal S1x1x512 .f32) (g : Fin 4) (r : Fin 2048) (j : Fin 100) :
    out0_20 (F := Ideal) x0 x1 x2 x3 x4 x5 x6 x7 x8 x9 x10 x11 x12 x13 x14 x15 x16 x17 x18 (ix3 g r j)
      = chainDec (chainEnc x0 x1 x2 x3 x4 x5 x6 r) x13 x14 x15 x16 x17 x18 ⟨128 * g.val + j.val, by have := g.isLt; have := j.isLt; omega⟩ := by
  unfold out0_20
  simp only [View.ld_unit_zero (S := S2048x100) hz2, View.ld_unit_zero (S := S1x100x20) hz3, View.ld_unit_zero (S := S1x1x20) hz3,
    View.ld_unit_zero (S := S1x20x8) hz3, View.ld_unit_zero (S := S1x1x8) hz3, View.ld_unit_zero (S := S1x8x8) hz3,
    View.ld_unit_zero (S := S1x8x100) hz3, View.ld_unit_zero (S := S1x1x100) hz3, View.ld_unit_zero (S := S1x100x200) hz3,
    View.ld_unit_zero (S := S1x1x200) hz3, View.ld_unit_zero (S := S1x200x512) hz3, View.ld_unit_zero (S := S1x1x512) hz3]
  refine (canon4_apply (k0_pay12 (k0_pay4 (F := Ideal) x0 x1 x2 x3 x4 x5 x6) x13 x14 x15 x16 x17 x18) _ _ _ _
    (fun u a b => ?_) (fun u a b => ?_) (fun u a b => ?_) (fun u a b => ?_) g r j).trans
    (dec20_apply x0 x1 x2 x3 x4 x5 x6 x13 x14 x15 x16 x17 x18 r _)
  · unfold k0_pay13; exact slab_apply 0 (by omega) _ _ _ u a b
  · unfold k0_pay1; exact slab_apply 128 (by omega) _ _ _ u a b
  · unfold k0_pay2; exact slab_apply 256 (by omega) _ _ _ u a b
  · unfold k0_pay3; exact slab_apply 384 (by omega) _ _ _ u a b

end Cert.KerPay

end
-- ==== Proof.LibScatterSet.lean ====
/-
  A set-scatter whose updates land on pairwise distinct elements, read at an element.

  A scatter whose body returns the update ("set") is a fold of single-element overwrites, one per update element.
  When every update element has a landing element inside the operand and no two of them land on the same element,
  the order of the overwrites is immaterial: the result holds each update element at its landing element and the
  operand everywhere else.
-/
import Idealize.ShloMosaic.PureOps.ShapeOps

namespace Cert.LibScatterSet

open Idealize.ShloMosaic

/-- A fold of single-point overwrites `r ↦ r[p k := v k]` over a list of keys, when `p` is injective: the result
    holds `v k` at `p k` for every key `k` of the list, and the start value at every point no key of the list is
    sent to. By induction on the list from its last element: the last overwrite decides the point it writes, and at
    any other point the fold of the shorter list is read, where a key sent to the same point as the last one would be
    the last one. -/
theorem foldl_overwrite {ι κ α : Type} [DecidableEq ι] (p : κ → ι) (v : κ → α) (hp : Function.Injective p)
    (x : ι → α) (l : List κ) :
    (∀ k ∈ l, l.foldl (fun r k => fun i' => if i' = p k then v k else r i') x (p k) = v k) ∧
    (∀ i', (∀ k ∈ l, p k ≠ i') → l.foldl (fun r k => fun i' => if i' = p k then v k else r i') x i' = x i') := by
  induction l using List.reverseRecOn with
  | nil => exact ⟨fun k hk => absurd hk (List.not_mem_nil), fun i' _ => rfl⟩
  | append_singleton l n ih =>
    obtain ⟨ih1, ih2⟩ := ih
    refine ⟨fun k hk => ?_, fun i' hi' => ?_⟩
    · rw [List.foldl_append, List.foldl_cons, List.foldl_nil]
      by_cases hkn : p k = p n
      · rw [if_pos hkn, hp hkn]
      · rw [if_neg hkn]
        rcases List.mem_append.1 hk with h | h
        · exact ih1 k h
        · exact absurd (congrArg p (List.mem_singleton.1 h)) hkn
    · rw [List.foldl_append, List.foldl_cons, List.foldl_nil]
      have hn : i' ≠ p n := fun h => hi' n (List.mem_append_right _ (List.mem_singleton_self n)) h.symm
      rw [if_neg hn]
      exact ih2 i' fun k hk => hi' k (List.mem_append_left _ hk)

variable {s si u : Shape} {α : Type} {w : Nat}

/-- A set-scatter (`fun _ b => b`: the body returns the update) every one of whose update elements `j` lands inside
    the operand, at `land j`, no two on the same element: the result holds `upd j` at `land j`, and the operand's
    element at every index no update element lands on. -/
theorem scatter_set (d : ScatterDims s si u) (x : s.Idx → α) (idx : IVec si w) (upd : u.Idx → α)
    (land : u.Idx → s.Idx) (hland : ∀ j, d.resultIdx? j idx = some (land j)) (hinj : Function.Injective land) :
    (∀ j, Host.scatter d (fun _ b => b) x idx upd (land j) = upd j) ∧
    (∀ i', (∀ j, land j ≠ i') → Host.scatter d (fun _ b => b) x idx upd i' = x i') := by
  -- the scatter's fold is a fold of overwrites at `land` of the update element each position names
  have hfold : Host.scatter d (fun _ b => b) x idx upd
      = (List.finRange u.numel).foldl
          (fun r n => fun i' => if i' = land (u.rowMajor.symm n) then upd (u.rowMajor.symm n) else r i') x := by
    unfold Host.scatter
    congr 1
    funext r n
    rw [hland]
  have hp : Function.Injective fun n : Fin u.numel => land (u.rowMajor.symm n) :=
    hinj.comp u.rowMajor.symm.injective
  obtain ⟨h1, h2⟩ := foldl_overwrite (fun n : Fin u.numel => land (u.rowMajor.symm n))
    (fun n => upd (u.rowMajor.symm n)) hp x (List.finRange u.numel)
  rw [hfold]
  refine ⟨fun j => ?_, fun i' hi' => ?_⟩
  · have := h1 (u.rowMajor j) (List.mem_finRange _)
    simpa only [Equiv.symm_apply_apply] using this
  · exact h2 i' fun n _ => hi' _

end Cert.LibScatterSet
-- ==== Proof.KerHostW0.lean ====
/-
  The first weight as the host builds it before the launch, read at an entry: a 0/1 array (column number equals index word) times the weight, summed over the ten chosen columns, then regrouped by fours with the four estimators' columns side by side.
-/
import proofs.«417956_j37340445671918_3_alg».proof.Proof.Gen.KernelIdeal.Frame
import proofs.«417956_j37340445671918_3_alg».proof.Proof.Spec
import proofs.«417956_j37340445671918_3_alg».proof.Proof.Views
import proofs.«417956_j37340445671918_3_alg».proof.Proof.LibScatterSet
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KerHost

open Cert.KernelIdeal Cert.KernelIdeal.Gen Idealize.ShloMosaic Idealize.ShloMosaic.TcCoe Idealize.SL.Sem Idealize.ShloMosaic.ValueIdx Cert.Views

variable (m : (ℓ : Loc nD τ sig) → Buf (Elt Ideal) ℓ) (c : Dev nD)

open scoped BigOperators

/-- Two column numbers below 100 are the same word exactly when they are the same number. -/
theorem word_beq (d x : Fin 100) : (BitVec.ofNat 32 d.val == BitVec.ofNat 32 x.val) = decide (d = x) := by
  rw [Bool.eq_iff_iff, beq_iff_eq, decide_eq_true_iff]
  constructor
  · intro h
    have h' := congrArg BitVec.toNat h
    simp only [BitVec.toNat_ofNat] at h'
    have := d.isLt
    have := x.isLt
    exact Fin.ext (by omega)
  · intro h
    rw [h]

/-- The 0/1 array at an entry: the column number `d`, as a word, compared with the index word of `(e, f)`, then read as a number. -/
theorem oh_apply (a1 : (⟨S100x10, .i32⟩ : BufTy).Contents (Elt Ideal)) (idx : Fin 100 → Fin 10 → Fin 100)
    (hidx : Decodes a1 idx) (e d : Fin 100) (f : Fin 10) :
    (uitofp .f32
        (cmpi .eq
          (broadcastInDim S100x100x10 ![0, 1, 2] bcast_S1x100x1_S100x100x10_0_1_2
            (broadcastInDim S1x100x1 ![1] bcast_S100_S1x100x1_1 (iotaInDim S100 32 0)))
          (broadcastInDim S100x100x10 ![0, 1, 2] bcast_S100x1x10_S100x100x10_0_1_2
            (broadcastInDim S100x1x10 ![0, 2] bcast_S100x10_S100x1x10_0_2 a1))) : FVec Ideal S100x100x10 .f32) (ix3 e d f)
      = Spec.onehot idx e d f := by
  have hX : broadcastInDim S100x100x10 ![0, 1, 2] bcast_S1x100x1_S100x100x10_0_1_2
      (broadcastInDim S1x100x1 ![1] bcast_S100_S1x100x1_1 (iotaInDim S100 32 0)) (ix3 e d f) = BitVec.ofNat 32 d.val := by
    refine (broadcastInDim_apply _ _ _ (ix3 e d f) (ix3 (0 : Fin 1) d (0 : Fin 1)) (fun a => ?_)).trans ?_
    · match a with | ⟨0, _⟩ => rfl | ⟨1, _⟩ => rfl | ⟨2, _⟩ => rfl
    refine (broadcastInDim_apply _ _ _ (ix3 (0 : Fin 1) d (0 : Fin 1)) (ix1 d) (fun a => ?_)).trans ?_
    · match a with | ⟨0, _⟩ => rfl
    rfl
  have hY : broadcastInDim S100x100x10 ![0, 1, 2] bcast_S100x1x10_S100x100x10_0_1_2
      (broadcastInDim S100x1x10 ![0, 2] bcast_S100x10_S100x1x10_0_2 a1) (ix3 e d f) = BitVec.ofNat 32 (idx e f).val := by
    refine (broadcastInDim_apply _ _ _ (ix3 e d f) (ix3 e (0 : Fin 1) f) (fun a => ?_)).trans ?_
    · match a with | ⟨0, _⟩ => rfl | ⟨1, _⟩ => rfl | ⟨2, _⟩ => rfl
    refine (broadcastInDim_apply _ _ _ (ix3 e (0 : Fin 1) f) (ix2 e f) (fun a => ?_)).trans ?_
    · match a with | ⟨0, _⟩ => rfl | ⟨1, _⟩ => rfl
    exact hidx e f
  show (((IntOp.cmpi .eq _ _).toNat : ℝ) : EReal) = _
  rw [hX, hY]
  show (((BitVec.ofBool (BitVec.ofNat 32 d.val == BitVec.ofNat 32 (idx e f).val)).toNat : ℝ) : EReal) = if d = idx e f then 1 else 0
  rw [word_beq]
  by_cases h : d = idx e f
  · rw [if_pos h, decide_eq_true h]
    show (((1 : ℕ) : ℝ) : EReal) = 1
    rw [Nat.cast_one, EReal.coe_one]
  · rw [if_neg h, decide_eq_false h]
    show (((0 : ℕ) : ℝ) : EReal) = 0
    rw [Nat.cast_zero, EReal.coe_zero]

/-- The product's dimension record: batch axis 0 of both operands, the left operand's axis 2 contracted with the right
    operand's axis 1. -/
private abbrev D := dot_S100x100x10_S100x10x5_S100x100x5_2_1_1_2_0_0

/-- The left operand's batch coordinate is the result's. -/
theorem lhs_0 (j : S100x100x5.Idx) (q : D.contr.Idx) : (D.lhsIdx j q 0).val = (j 0).val := by
  unfold DotDims.lhsIdx
  rw [dif_pos (show (0 : Fin S100x100x10.rank) ∈ D.lhsBatch from List.mem_singleton_self _)]
  rfl

/-- The left operand's row coordinate is the result's. -/
theorem lhs_1 (j : S100x100x5.Idx) (q : D.contr.Idx) : (D.lhsIdx j q 1).val = (j 1).val := by
  unfold DotDims.lhsIdx
  rw [dif_neg (show ¬(1 : Fin S100x100x10.rank) ∈ D.lhsBatch from by decide),
    dif_pos (show (1 : Fin S100x100x10.rank) ∈ D.lhsNonContracting from List.mem_singleton_self _)]
  rfl

/-- The left operand's last coordinate is the contraction index. -/
theorem lhs_2 (j : S100x100x5.Idx) (q : D.contr.Idx) : (D.lhsIdx j q 2).val = (q ⟨0, Nat.one_pos⟩).val :=
  D.lhsIdx_val_of_single rfl j q

/-- The right operand's batch coordinate is the result's. -/
theorem rhs_0 (j : S100x100x5.Idx) (q : D.contr.Idx) : (D.rhsIdx j q 0).val = (j 0).val := by
  unfold DotDims.rhsIdx
  rw [dif_pos (show (0 : Fin S100x10x5.rank) ∈ D.rhsBatch from List.mem_singleton_self _)]
  rfl

/-- The right operand's middle coordinate is the contraction index. -/
theorem rhs_1 (j : S100x100x5.Idx) (q : D.contr.Idx) : (D.rhsIdx j q 1).val = (q ⟨0, Nat.one_pos⟩).val :=
  D.rhsIdx_val_of_single rfl j q

/-- The right operand's last coordinate is the result's. -/
theorem rhs_2 (j : S100x100x5.Idx) (q : D.contr.Idx) : (D.rhsIdx j q 2).val = (j 2).val := by
  unfold DotDims.rhsIdx
  rw [dif_neg (show ¬(2 : Fin S100x10x5.rank) ∈ D.rhsBatch from by decide),
    dif_pos (show (2 : Fin S100x10x5.rank) ∈ D.rhsNonContracting from List.mem_singleton_self _)]
  rfl

/-- The batched product at an entry: estimator `e`'s row `d` of the left array against its column `k` of the right one,
    summed over the ten contracted positions. -/
theorem dg_apply (l : FVec Ideal S100x100x10 .f32) (r : FVec Ideal S100x10x5 .f32) (e d : Fin 100) (k : Fin 5) :
    Host.dotGeneral D (some .fp32) l r (ix3 e d k) = ∑ f : Fin 10, l (ix3 e d f) * r (ix3 e f k) := by
  simp only [Host.dotGeneral]
  rw [Ideal.dotGeneral_apply, ← Equiv.sum_comp (contrEquiv1 D 10 rfl rfl).symm]
  refine Finset.sum_congr rfl fun q _ => ?_
  have hq := contrEquiv1_symm_val D 10 rfl rfl q
  have el : D.lhsIdx (ix3 e d k) ((contrEquiv1 D 10 rfl rfl).symm q) = ix3 e d q :=
    funext fun a => Fin.ext (by
      match a with
      | ⟨0, _⟩ => exact lhs_0 _ _
      | ⟨1, _⟩ => exact lhs_1 _ _
      | ⟨2, _⟩ => exact (lhs_2 _ _).trans hq)
  have er : D.rhsIdx (ix3 e d k) ((contrEquiv1 D 10 rfl rfl).symm q) = ix3 e q k :=
    funext fun a => Fin.ext (by
      match a with
      | ⟨0, _⟩ => exact rhs_0 _ _
      | ⟨1, _⟩ => exact (rhs_1 _ _).trans hq
      | ⟨2, _⟩ => exact rhs_2 _ _)
  rw [el, er]

/-- The regrouping at an entry: flat column `5 g + r` of group `gi` is column `r` of estimator `4 gi + g`. -/
theorem regroup_apply (x : FVec Ideal S100x100x5 .f32) (gi : Fin 25) (d : Fin 100) (k : Fin 20)
    (E : Fin 100) (r : Fin 5) (hE : E.val = 4 * gi.val + k.val / 5) (hr : r.val = k.val % 5) :
    shapeCast S25x100x20
        (transpose S25x100x4x5 [0, 2, 1, 3]
          (shapeCast S25x4x100x5 x shapeCasts_S100x100x5_S25x4x100x5)
          transposes_S25x4x100x5_S25x100x4x5_0_2_1_3)
        shapeCasts_S25x100x4x5_S25x100x20 (ix3 gi d k)
      = x (ix3 E d r) := by
  have hg : k.val / 5 < 4 := by have := k.isLt; omega
  refine (shapeCast_apply _ _ (ix3 gi d k) (ix4 gi d (⟨k.val / 5, hg⟩ : Fin 4) r) ?_).trans ?_
  · rw [Shape.rowMajor_val_four, Shape.rowMajor_val_three]
    show ((gi.val * 100 + d.val) * 4 + k.val / 5) * 5 + r.val = (gi.val * 100 + d.val) * 20 + k.val
    omega
  refine (transpose_apply _ _ _ (ix4 gi d (⟨k.val / 5, hg⟩ : Fin 4) r) (ix4 gi (⟨k.val / 5, hg⟩ : Fin 4) d r) (fun b => ?_)).trans ?_
  · match b with | ⟨0, _⟩ => rfl | ⟨1, _⟩ => rfl | ⟨2, _⟩ => rfl | ⟨3, _⟩ => rfl
  refine shapeCast_apply _ _ (ix4 gi (⟨k.val / 5, hg⟩ : Fin 4) d r) (ix3 E d r) ?_
  rw [Shape.rowMajor_val_four, Shape.rowMajor_val_three]
  show (E.val * 100 + d.val) * 5 + r.val = ((gi.val * 4 + k.val / 5) * 100 + d.val) * 5 + r.val
  omega

/-- The first weight's array as the operations build it from the index table and the weight. -/
def w0term (a1 : IVec S100x10 32) (a2 : FVec Ideal S100x10x5 .f32) : FVec Ideal S25x100x20 .f32 :=
  shapeCast S25x100x20
    (transpose S25x100x4x5 [0, 2, 1, 3]
      (shapeCast S25x4x100x5
        (Host.dotGeneral dot_S100x100x10_S100x10x5_S100x100x5_2_1_1_2_0_0 (some .fp32)
          (uitofp .f32
            (cmpi .eq
              (broadcastInDim S100x100x10 ![0, 1, 2] bcast_S1x100x1_S100x100x10_0_1_2
                (broadcastInDim S1x100x1 ![1] bcast_S100_S1x100x1_1 (iotaInDim S100 32 0)))
              (broadcastInDim S100x100x10 ![0, 1, 2] bcast_S100x1x10_S100x100x10_0_1_2
                (broadcastInDim S100x1x10 ![0, 2] bcast_S100x10_S100x1x10_0_2 a1))) : FVec Ideal S100x100x10 .f32)
          a2 : FVec Ideal S100x100x5 .f32)
        shapeCasts_S100x100x5_S25x4x100x5)
      transposes_S25x4x100x5_S25x100x4x5_0_2_1_3)
    shapeCasts_S25x100x4x5_S25x100x20

/-- The array the launch finds in the first weight's buffer is that term of the index table and the weight as launched:
    the eleven operations that build it come first, and none of the later ones writes the buffer. -/
theorem V_v10_term :
    (V m c main_v10 : FVec Ideal S25x100x20 .f32)
      = w0term (m ((c.tc : Thread nD τ).loc main_arg1)) (m ((c.tc : Thread nD τ).loc main_arg2)) := by
  show StableHlo.after hostOps0 (fun b => m (c, b)) (Proc.devRef .tc main_v10) = _
  rw [← List.take_append_drop 11 (hostOps0 : List (HloOp τ sig (Elt Ideal))), StableHlo.after_append]
  rw [StableHlo.after_of_forall_not_mem (b := Proc.devRef .tc main_v10) _ _ (List.forall_iff_forall_mem.mp (by
    simp only [hostOps0, List.drop_succ_cons, List.drop_zero, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  simp only [hostOps0, List.take_succ_cons, List.take_zero]
  after_results
  rfl

/-- The first weight of group `gi`: position `(d, k)` sums, over the ten chosen columns of estimator
    `4 gi + k / 5`, the 0/1 test "column `d` is the chosen one" times that estimator's weight entry. -/
theorem V_v10 (idx : Fin 100 → Fin 10 → Fin 100) (hidx : Decodes (m ((c.tc : Thread nD τ).loc main_arg1)) idx) (gi : Fin 25) (d : Fin 100) (k : Fin 20) :
    (V m c main_v10 : A3 25 100 20) (ix3 gi d k) = Spec.pkW0 (Spec.onehot idx) (c3 ((m ((c.tc : Thread nD τ).loc main_arg2)) : A3 100 10 5)) gi d k.val := by
  have hE : 4 * gi.val + k.val / 5 < 100 := by
    have := gi.isLt
    have := k.isLt
    omega
  have hr : k.val % 5 < 5 := Nat.mod_lt _ (by decide)
  -- the buffer holds the operations' term; read it through the regrouping, then the product
  refine (congrFun (V_v10_term m c) (ix3 gi d k)).trans ?_
  unfold w0term
  refine (regroup_apply _ gi d k ⟨4 * gi.val + k.val / 5, hE⟩ ⟨k.val % 5, hr⟩ rfl rfl).trans ?_
  refine (dg_apply _ _ _ d _).trans ?_
  -- the packed weight's sum, its estimator and column written as the same bounded numbers
  unfold Spec.pkW0
  rw [Spec.fm_of_lt 100 _ hE, show Spec.fm 5 k.val = ⟨k.val % 5, hr⟩ from rfl]
  refine Finset.sum_congr rfl fun f _ => ?_
  exact congrArg (· * _) (oh_apply _ idx hidx _ d f)

end Cert.KerHost

end
-- ==== Proof.KerHostBias.lean ====
/-
  The packed biases the host builds before the launch, read at an entry: a bias array regrouped by fours and flattened, the last layer's first written into a block of zeros 128 entries wide.
-/
import proofs.«417956_j37340445671918_3_alg».proof.Proof.Gen.KernelIdeal.Frame
import proofs.«417956_j37340445671918_3_alg».proof.Proof.Spec
import proofs.«417956_j37340445671918_3_alg».proof.Proof.Views
import proofs.«417956_j37340445671918_3_alg».proof.Proof.LibScatterSet
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KerHost

open Cert.KernelIdeal Cert.KernelIdeal.Gen Idealize.ShloMosaic Idealize.ShloMosaic.TcCoe Idealize.SL.Sem Idealize.ShloMosaic.ValueIdx Cert.Views

variable (m : (ℓ : Loc nD τ sig) → Buf (Elt Ideal) ℓ) (c : Dev nD)

/-- A table of 100 rows of `M` entries regrouped as 25 groups of 4 rows, each group's rows then laid end to end
    (`N = 4 M` entries): in row-major order both regroupings keep every entry's position, so entry `k` of group `gi`
    sits at position `gi · 4M + k = (4 gi + k / M) · M + k % M` of the table: it is entry `k % M` of row `4 gi + k / M`. -/
private theorem pack_apply {M N : ℕ} [NeZero M] (hN : N = 4 * M) (x : A2 100 M)
    (h1 : (⟨2, ![100, M]⟩ : Shape).ShapeCasts ⟨3, ![25, 4, M]⟩)
    (h2 : (⟨3, ![25, 4, M]⟩ : Shape).ShapeCasts ⟨3, ![25, 1, N]⟩)
    (gi : Fin 25) (k : Fin N) :
    shapeCast ⟨3, ![25, 1, N]⟩ (shapeCast ⟨3, ![25, 4, M]⟩ x h1) h2 (ix3 gi 0 k) = Spec.pkB (c2 x) gi k.val := by
  have hM : 0 < M := NeZero.pos M
  have hk : k.val < M * 4 := by have := k.isLt; omega
  have hq : k.val / M < 4 := Nat.div_lt_of_lt_mul hk
  have hr : k.val % M < M := Nat.mod_lt _ hM
  have hqr : M * (k.val / M) + k.val % M = k.val := Nat.div_add_mod _ _
  have hrow : 4 * gi.val + k.val / M < 100 := by have := gi.isLt; omega
  refine (shapeCast_apply _ h2 (ix3 gi (0 : Fin 1) k) (ix3 gi (⟨k.val / M, hq⟩ : Fin 4) (⟨k.val % M, hr⟩ : Fin M)) (by
    rw [Shape.rowMajor_val_three, Shape.rowMajor_val_three]
    show (gi.val * 4 + k.val / M) * M + k.val % M = (gi.val * 1 + 0) * N + k.val
    subst hN
    calc (gi.val * 4 + k.val / M) * M + k.val % M
        = gi.val * (4 * M) + (M * (k.val / M) + k.val % M) := by ring
      _ = (gi.val * 1 + 0) * (4 * M) + k.val := by rw [hqr]; ring)).trans ?_
  refine (shapeCast_apply _ h1 (ix3 gi (⟨k.val / M, hq⟩ : Fin 4) (⟨k.val % M, hr⟩ : Fin M))
    (ix2 (⟨4 * gi.val + k.val / M, hrow⟩ : Fin 100) (⟨k.val % M, hr⟩ : Fin M)) (by
    rw [Shape.rowMajor_val_two, Shape.rowMajor_val_three]
    show (4 * gi.val + k.val / M) * M + k.val % M = (gi.val * 4 + k.val / M) * M + k.val % M
    ring)).trans ?_
  unfold Spec.pkB c2
  rw [Spec.fm_of_lt 100 _ hrow]
  rfl

/-- Where update element `j` of the 25 × 4 × 100 block lands in the 25 × 4 × 128 block: the same coordinates. -/
private def land (j : (⟨3, ![25, 4, 100]⟩ : Shape).Idx) : (⟨3, ![25, 4, 128]⟩ : Shape).Idx :=
  ix3 (j 0 : Fin 25) (j 1 : Fin 4) (⟨(j 2 : Fin 100).val, by have h : ((j 2 : Fin 100) : ℕ) < 100 := (j 2 : Fin 100).isLt; omega⟩ : Fin 128)

private theorem land_ix3 (a : Fin 25) (b : Fin 4) (r : Fin 100) :
    land (ix3 a b r) = ix3 a b (⟨r.val, by have := r.isLt; omega⟩ : Fin 128) := rfl

/-- Distinct update elements land on distinct elements: the landing element has the update element's coordinates. -/
private theorem land_injective : Function.Injective land := by
  intro i j h
  have h0 : i 0 = j 0 := congrFun h 0
  have h1 : i 1 = j 1 := congrFun h 1
  have h2 : (land i 2).val = (land j 2).val := congrArg Fin.val (congrFun h 2)
  funext a
  match a with
  | ⟨0, _⟩ => exact h0
  | ⟨1, _⟩ => exact h1
  | ⟨2, _⟩ => exact Fin.ext h2

/-- With the start index the zero word (on the last axis, the only one the scatter's map names), the window of update
    element `j` starts at the origin: on every axis start plus window coordinate is `j`'s coordinate, which is inside
    the operand since 100 ≤ 128. So every update element lands, at its own coordinates. -/
private theorem land_spec (idx : IVec S1 32) (hidx : ∀ i, idx i = 0#32) (j : S25x4x100.Idx) :
    scatter_S25x4x128_S1_S25x4x100_012_n_2_0.resultIdx? j idx = some (land j) := by
  have hs : ∀ a, scatter_S25x4x128_S1_S25x4x100_012_n_2_0.start j idx a = 0 := by
    intro a
    unfold ScatterDims.start
    split
    · rw [hidx]; rfl
    · rfl
  have hw : ∀ a, scatter_S25x4x128_S1_S25x4x100_012_n_2_0.window j a = (land j a).val := by
    intro a
    match a with
    | ⟨0, _⟩ => rfl
    | ⟨1, _⟩ => rfl
    | ⟨2, _⟩ => rfl
  have hc : ∀ a, 0 ≤ scatter_S25x4x128_S1_S25x4x100_012_n_2_0.start j idx a + scatter_S25x4x128_S1_S25x4x100_012_n_2_0.window j a ∧
      scatter_S25x4x128_S1_S25x4x100_012_n_2_0.start j idx a + scatter_S25x4x128_S1_S25x4x100_012_n_2_0.window j a < S25x4x128.size a := by
    intro a
    rw [hs a, hw a, zero_add]
    exact ⟨Int.natCast_nonneg _, Int.ofNat_lt.mpr (land j a).isLt⟩
  unfold ScatterDims.resultIdx?
  rw [dif_pos hc]
  refine congrArg some (funext fun a => Fin.ext ?_)
  show (scatter_S25x4x128_S1_S25x4x100_012_n_2_0.start j idx a + scatter_S25x4x128_S1_S25x4x100_012_n_2_0.window j a).toNat = (land j a).val
  rw [hs a, hw a, zero_add, Int.toNat_natCast]

/-- The 100 × 100 table regrouped as 25 × 4 × 100, written over the first 100 of each row of 128 zeros, the groups'
    rows then laid end to end: entry `k` of group `gi` is entry `k % 128` of row `4 gi + k / 128` of the table where
    `k % 128 < 100`, and zero in the tail of each slot. -/
private theorem packpad_apply (x : A2 100 100) (z : A3 25 4 128) (hz : ∀ i, z i = 0)
    (idx : IVec S1 32) (hidx : ∀ i, idx i = 0#32)
    (h1 : S100x100.ShapeCasts S25x4x100) (h2 : S25x4x128.ShapeCasts S25x1x512)
    (gi : Fin 25) (k : Fin 512) :
    shapeCast S25x1x512 (Host.scatter scatter_S25x4x128_S1_S25x4x100_012_n_2_0 (fun _ b => b) z idx (shapeCast S25x4x100 x h1)) h2 (ix3 gi 0 k)
      = Spec.pkBpad (c2 x) gi k.val := by
  have hq : k.val / 128 < 4 := by have := k.isLt; omega
  have hr : k.val % 128 < 128 := Nat.mod_lt _ (by decide)
  have hrow : 4 * gi.val + k.val / 128 < 100 := by have := gi.isLt; omega
  obtain ⟨hset, hkeep⟩ := Cert.LibScatterSet.scatter_set scatter_S25x4x128_S1_S25x4x100_012_n_2_0 z idx (shapeCast S25x4x100 x h1) land
    (land_spec idx hidx) land_injective
  refine (shapeCast_apply _ h2 (ix3 gi (0 : Fin 1) k) (ix3 gi (⟨k.val / 128, hq⟩ : Fin 4) (⟨k.val % 128, hr⟩ : Fin 128)) (by
    rw [Shape.rowMajor_val_three, Shape.rowMajor_val_three]
    show (gi.val * 4 + k.val / 128) * 128 + k.val % 128 = (gi.val * 1 + 0) * 512 + k.val
    omega)).trans ?_
  unfold Spec.pkBpad
  by_cases hlt : k.val % 128 < 100
  · rw [if_pos hlt]
    have hat := hset (ix3 gi (⟨k.val / 128, hq⟩ : Fin 4) (⟨k.val % 128, hlt⟩ : Fin 100))
    rw [land_ix3] at hat
    refine hat.trans ?_
    refine (shapeCast_apply _ h1 (ix3 gi (⟨k.val / 128, hq⟩ : Fin 4) (⟨k.val % 128, hlt⟩ : Fin 100))
      (ix2 (⟨4 * gi.val + k.val / 128, hrow⟩ : Fin 100) (⟨k.val % 128, hlt⟩ : Fin 100)) (by
      rw [Shape.rowMajor_val_two, Shape.rowMajor_val_three]
      show (4 * gi.val + k.val / 128) * 100 + k.val % 128 = (gi.val * 4 + k.val / 128) * 100 + k.val % 128
      omega)).trans ?_
    unfold c2
    rw [Spec.fm_of_lt 100 _ hrow, Spec.fm_of_lt 100 _ hlt]
  · rw [if_neg hlt]
    refine (hkeep _ (fun j hj => ?_)).trans (hz _)
    have hb : ((j 2 : Fin 100) : ℕ) < 100 := (j 2 : Fin 100).isLt
    have e : (land j 2).val = k.val % 128 := congrArg Fin.val (congrFun hj 2)
    have e' : (land j 2).val = ((j 2 : Fin 100) : ℕ) := rfl
    omega

set_option maxHeartbeats 4000000 in
theorem V_v12 (gi : Fin 25) (k : Fin 20) :
    (V m c main_v12 : A3 25 1 20) (ix3 gi 0 k) = Spec.pkB (c2 ((m ((c.tc : Thread nD τ).loc main_arg3)) : A2 100 5)) gi k.val := by
  have e : (V m c main_v12 : A3 25 1 20)
      = shapeCast S25x1x20 (shapeCast S25x4x5 ((m ((c.tc : Thread nD τ).loc main_arg3)) : A2 100 5)
          shapeCasts_S100x5_S25x4x5) shapeCasts_S25x4x5_S25x1x20 := by
    dsimp only [Gen.V, Gen.hostOps0]; after_results_simp; rfl
  rw [e]
  exact pack_apply (M := 5) (N := 20) rfl _ _ _ gi k

set_option maxHeartbeats 4000000 in
theorem V_v28 (gi : Fin 25) (k : Fin 8) :
    (V m c main_v28 : A3 25 1 8) (ix3 gi 0 k) = Spec.pkB (c2 ((m ((c.tc : Thread nD τ).loc main_arg5)) : A2 100 2)) gi k.val := by
  have e : (V m c main_v28 : A3 25 1 8)
      = shapeCast S25x1x8 (shapeCast S25x4x2 ((m ((c.tc : Thread nD τ).loc main_arg5)) : A2 100 2)
          shapeCasts_S100x2_S25x4x2) shapeCasts_S25x4x2_S25x1x8 := by
    dsimp only [Gen.V, Gen.hostOps0]; after_results_simp; rfl
  rw [e]
  exact pack_apply (M := 2) (N := 8) rfl _ _ _ gi k

set_option maxHeartbeats 4000000 in
theorem V_v44 (gi : Fin 25) (k : Fin 8) :
    (V m c main_v44 : A3 25 1 8) (ix3 gi 0 k) = Spec.pkB (c2 ((m ((c.tc : Thread nD τ).loc main_arg7)) : A2 100 2)) gi k.val := by
  have e : (V m c main_v44 : A3 25 1 8)
      = shapeCast S25x1x8 (shapeCast S25x4x2 ((m ((c.tc : Thread nD τ).loc main_arg7)) : A2 100 2)
          shapeCasts_S100x2_S25x4x2) shapeCasts_S25x4x2_S25x1x8 := by
    dsimp only [Gen.V, Gen.hostOps0]; after_results_simp; rfl
  rw [e]
  exact pack_apply (M := 2) (N := 8) rfl _ _ _ gi k

set_option maxHeartbeats 4000000 in
theorem V_v60 (gi : Fin 25) (k : Fin 100) :
    (V m c main_v60 : A3 25 1 100) (ix3 gi 0 k) = Spec.pkB (c2 ((m ((c.tc : Thread nD τ).loc main_arg9)) : A2 100 25)) gi k.val := by
  have e : (V m c main_v60 : A3 25 1 100)
      = shapeCast S25x1x100 (shapeCast S25x4x25 ((m ((c.tc : Thread nD τ).loc main_arg9)) : A2 100 25)
          shapeCasts_S100x25_S25x4x25) shapeCasts_S25x4x25_S25x1x100 := by
    dsimp only [Gen.V, Gen.hostOps0]; after_results_simp; rfl
  rw [e]
  exact pack_apply (M := 25) (N := 100) rfl _ _ _ gi k

set_option maxHeartbeats 4000000 in
theorem V_v76 (gi : Fin 25) (k : Fin 200) :
    (V m c main_v76 : A3 25 1 200) (ix3 gi 0 k) = Spec.pkB (c2 ((m ((c.tc : Thread nD τ).loc main_arg11)) : A2 100 50)) gi k.val := by
  have e : (V m c main_v76 : A3 25 1 200)
      = shapeCast S25x1x200 (shapeCast S25x4x50 ((m ((c.tc : Thread nD τ).loc main_arg11)) : A2 100 50)
          shapeCasts_S100x50_S25x4x50) shapeCasts_S25x4x50_S25x1x200 := by
    dsimp only [Gen.V, Gen.hostOps0]; after_results_simp; rfl
  rw [e]
  exact pack_apply (M := 50) (N := 200) rfl _ _ _ gi k

set_option maxHeartbeats 4000000 in
theorem V_v114 (gi : Fin 25) (k : Fin 100) :
    (V m c main_v114 : A3 25 1 100) (ix3 gi 0 k) = Spec.pkB (c2 ((m ((c.tc : Thread nD τ).loc main_arg15)) : A2 100 25)) gi k.val := by
  have e : (V m c main_v114 : A3 25 1 100)
      = shapeCast S25x1x100 (shapeCast S25x4x25 ((m ((c.tc : Thread nD τ).loc main_arg15)) : A2 100 25)
          shapeCasts_S100x25_S25x4x25) shapeCasts_S25x4x25_S25x1x100 := by
    dsimp only [Gen.V, Gen.hostOps0]; after_results_simp; rfl
  rw [e]
  exact pack_apply (M := 25) (N := 100) rfl _ _ _ gi k

set_option maxHeartbeats 4000000 in
theorem V_v130 (gi : Fin 25) (k : Fin 200) :
    (V m c main_v130 : A3 25 1 200) (ix3 gi 0 k) = Spec.pkB (c2 ((m ((c.tc : Thread nD τ).loc main_arg17)) : A2 100 50)) gi k.val := by
  have e : (V m c main_v130 : A3 25 1 200)
      = shapeCast S25x1x200 (shapeCast S25x4x50 ((m ((c.tc : Thread nD τ).loc main_arg17)) : A2 100 50)
          shapeCasts_S100x50_S25x4x50) shapeCasts_S25x4x50_S25x1x200 := by
    dsimp only [Gen.V, Gen.hostOps0]; after_results_simp; rfl
  rw [e]
  exact pack_apply (M := 50) (N := 200) rfl _ _ _ gi k

set_option maxHeartbeats 4000000 in
theorem V_v98 (gi : Fin 25) (k : Fin 512) :
    (V m c main_v98 : A3 25 1 512) (ix3 gi 0 k) = Spec.pkBpad (c2 ((m ((c.tc : Thread nD τ).loc main_arg13)) : A2 100 100)) gi k.val := by
  have e : (V m c main_v98 : A3 25 1 512)
      = shapeCast S25x1x512 (Host.scatter scatter_S25x4x128_S1_S25x4x100_012_n_2_0 (fun _ b => b)
          (broadcastInDim S25x4x128 ![] bcast_S_S25x4x128 (constant (F := Ideal) S_ .f32 0x00000000#32))
          (broadcastInDim S1 ![] bcast_S_S1 (constantI S_ 32 0#32))
          (shapeCast S25x4x100 ((m ((c.tc : Thread nD τ).loc main_arg13)) : A2 100 100) shapeCasts_S100x100_S25x4x100))
          shapeCasts_S25x4x128_S25x1x512 := by
    dsimp only [Gen.V, Gen.hostOps0]; after_results_simp; rfl
  rw [e]
  exact packpad_apply _ _
    (fun i => (broadcastInDim_scalar_apply _ _ i).trans ((constant_apply _ _).trans Ideal.ofBits_zero_f32))
    _ (fun i => broadcastInDim_scalar_apply _ _ i) _ _ gi k

set_option maxHeartbeats 4000000 in
theorem V_v152 (gi : Fin 25) (k : Fin 512) :
    (V m c main_v152 : A3 25 1 512) (ix3 gi 0 k) = Spec.pkBpad (c2 ((m ((c.tc : Thread nD τ).loc main_arg19)) : A2 100 100)) gi k.val := by
  have e : (V m c main_v152 : A3 25 1 512)
      = shapeCast S25x1x512 (Host.scatter scatter_S25x4x128_S1_S25x4x100_012_n_2_0 (fun _ b => b)
          (broadcastInDim S25x4x128 ![] bcast_S_S25x4x128 (constant (F := Ideal) S_ .f32 0x00000000#32))
          (broadcastInDim S1 ![] bcast_S_S1 (constantI S_ 32 0#32))
          (shapeCast S25x4x100 ((m ((c.tc : Thread nD τ).loc main_arg19)) : A2 100 100) shapeCasts_S100x100_S25x4x100))
          shapeCasts_S25x4x128_S25x1x512 := by
    dsimp only [Gen.V, Gen.hostOps0]; after_results_simp; rfl
  rw [e]
  exact packpad_apply _ _
    (fun i => (broadcastInDim_scalar_apply _ _ i).trans ((constant_apply _ _).trans Ideal.ofBits_zero_f32))
    _ (fun i => broadcastInDim_scalar_apply _ _ i) _ _ gi k

end Cert.KerHost

end
-- ==== Proof.KerHostBD.lean ====
/-
  The block-diagonal weights the host builds before the launch, read at an entry: a weight array regrouped by fours, multiplied by the 4×4 identity spread over two axes, transposed and flattened (the last layer's first written into a block of zeros 128 columns wide).
-/
import proofs.«417956_j37340445671918_3_alg».proof.Proof.Gen.KernelIdeal.Frame
import proofs.«417956_j37340445671918_3_alg».proof.Proof.Spec
import proofs.«417956_j37340445671918_3_alg».proof.Proof.Views
import proofs.«417956_j37340445671918_3_alg».proof.Proof.LibScatterSet
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KerHost

open Cert.KernelIdeal Cert.KernelIdeal.Gen Idealize.ShloMosaic Idealize.ShloMosaic.TcCoe Idealize.SL.Sem Idealize.ShloMosaic.ValueIdx Cert.Views

variable (m : (ℓ : Loc nD τ sig) → Buf (Elt Ideal) ℓ) (c : Dev nD)

/-- The row-major position of entry `(g, a, k')` of a `[·, 4K, 4M]` array is that of entry
    `(g, a / K, a % K, k' / M, k' % M)` of the `[·, 4, K, 4, M]` array it flattens. -/
private theorem pos_eq (K M g a k' : ℕ) :
    ((((g * 4 + a / K) * K + a % K) * 4 + k' / M) * M + k' % M) = (g * (4 * K) + a) * (4 * M) + k' := by
  have ha := Nat.div_add_mod a K
  have hk := Nat.div_add_mod k' M
  generalize a / K = A at *
  generalize a % K = I at *
  generalize k' / M = Q at *
  generalize k' % M = R at *
  subst ha hk
  ring

/-- The 4×4 identity as the host builds it: the row number (plus a zero word) compared with the column number, as a float. -/
private theorem eye_apply (h0 : (⟨0, ![]⟩ : Shape).BroadcastsInDim ⟨2, ![4, 4]⟩ ![]) (p q : Fin 4) :
    (uitofp (F := Ideal) .f32 (cmpi .eq (addi (iotaInDim ⟨2, ![4, 4]⟩ 32 0)
        (broadcastInDim ⟨2, ![4, 4]⟩ ![] h0 (constantI ⟨0, ![]⟩ 32 0#32))) (iotaInDim ⟨2, ![4, 4]⟩ 32 1)) :
          (⟨2, ![4, 4]⟩ : Shape).Idx → EReal) (ix2 p q)
      = if p.val = q.val then 1 else 0 := by
  have h : IntOp.cmpi .eq (IntOp.addi (BitVec.ofNat 32 p.val) 0#32) (BitVec.ofNat 32 q.val)
      = if p.val = q.val then 1#1 else 0#1 := by
    revert p q; decide
  show (((IntOp.cmpi .eq (IntOp.addi (BitVec.ofNat 32 p.val) 0#32) (BitVec.ofNat 32 q.val)).toNat : ℝ) : EReal) = _
  rw [h]
  split_ifs
  · show (((1 : ℕ) : ℝ) : EReal) = 1
    rw [Nat.cast_one, EReal.coe_one]
  · show (((0 : ℕ) : ℝ) : EReal) = 0
    rw [Nat.cast_zero, EReal.coe_zero]

/-- A weight array `[100, K, M]` regrouped by fours, multiplied by the 4×4 identity spread over the two group axes,
    transposed and flattened to `[25, 4K, 4M]`: entry `(g, a, k)` is `w (4 g + a / K) (a % K) (k % M)` where the two
    blocks `a / K` and `k / M` agree, and zero elsewhere. -/
private theorem blockDiag_apply {K M KK MM : ℕ} [NeZero K] [NeZero M] (hKK : KK = 4 * K) (hMM : MM = 4 * M)
    (w : (⟨3, ![100, K, M]⟩ : Shape).Idx → EReal)
    (eye : (⟨2, ![4, 4]⟩ : Shape).Idx → EReal)
    (heye : ∀ p q : Fin 4, eye (ix2 p q) = if p.val = q.val then 1 else 0)
    (h1 : (⟨3, ![100, K, M]⟩ : Shape).ShapeCasts ⟨4, ![25, 4, K, M]⟩)
    (h2 : (⟨4, ![25, 4, K, M]⟩ : Shape).BroadcastsInDim ⟨5, ![25, 4, 1, K, M]⟩ ![0, 1, 3, 4])
    (h3 : (⟨5, ![25, 4, 1, K, M]⟩ : Shape).BroadcastsInDim ⟨5, ![25, 4, 4, K, M]⟩ ![0, 1, 2, 3, 4])
    (h4 : (⟨2, ![4, 4]⟩ : Shape).BroadcastsInDim ⟨5, ![1, 4, 4, 1, 1]⟩ ![1, 2])
    (h5 : (⟨5, ![1, 4, 4, 1, 1]⟩ : Shape).BroadcastsInDim ⟨5, ![25, 4, 4, K, M]⟩ ![0, 1, 2, 3, 4])
    (h6 : (⟨5, ![25, 4, 4, K, M]⟩ : Shape).Transposes [0, 1, 3, 2, 4] ⟨5, ![25, 4, K, 4, M]⟩)
    (h7 : (⟨5, ![25, 4, K, 4, M]⟩ : Shape).ShapeCasts ⟨3, ![25, KK, MM]⟩)
    (gi : Fin 25) (a : Fin KK) (k : Fin MM) :
    shapeCast ⟨3, ![25, KK, MM]⟩
      (transpose ⟨5, ![25, 4, K, 4, M]⟩ [0, 1, 3, 2, 4]
        (mulf (F := Ideal) (φ := .f32)
          (broadcastInDim ⟨5, ![25, 4, 4, K, M]⟩ ![0, 1, 2, 3, 4] h3
            (broadcastInDim ⟨5, ![25, 4, 1, K, M]⟩ ![0, 1, 3, 4] h2 (shapeCast ⟨4, ![25, 4, K, M]⟩ w h1)))
          (broadcastInDim ⟨5, ![25, 4, 4, K, M]⟩ ![0, 1, 2, 3, 4] h5
            (broadcastInDim ⟨5, ![1, 4, 4, 1, 1]⟩ ![1, 2] h4 eye))) h6) h7 (ix3 gi a k)
      = Spec.pkBD (c3 w) gi a.val k.val := by
  subst hKK hMM
  have hK := NeZero.pos K
  have hM := NeZero.pos M
  have hp : a.val / K < 4 := (Nat.div_lt_iff_lt_mul hK).mpr a.isLt
  have hi : a.val % K < K := Nat.mod_lt _ hK
  have hq : k.val / M < 4 := (Nat.div_lt_iff_lt_mul hM).mpr k.isLt
  have hr : k.val % M < M := Nat.mod_lt _ hM
  have hg := gi.isLt
  -- the flattening: the entry's position in the `[25, 4, K, 4, M]` array
  refine (shapeCast_apply _ h7 (ix3 gi a k)
    (ix5 gi (⟨a.val / K, hp⟩ : Fin 4) (⟨a.val % K, hi⟩ : Fin K) (⟨k.val / M, hq⟩ : Fin 4) (⟨k.val % M, hr⟩ : Fin M)) ?_).trans ?_
  · rw [Shape.rowMajor_val_five, Shape.rowMajor_val_three]
    exact pos_eq K M gi.val a.val k.val
  -- the transpose swaps the within-block row with the column block
  refine (transpose_apply _ _ h6 _
    (ix5 gi (⟨a.val / K, hp⟩ : Fin 4) (⟨k.val / M, hq⟩ : Fin 4) (⟨a.val % K, hi⟩ : Fin K) (⟨k.val % M, hr⟩ : Fin M)) ?_).trans ?_
  · intro b
    match b with
    | ⟨0, _⟩ => rfl
    | ⟨1, _⟩ => rfl
    | ⟨2, _⟩ => rfl
    | ⟨3, _⟩ => rfl
    | ⟨4, _⟩ => rfl
  refine (mulf_apply _ _ _).trans ?_
  unfold Spec.pkBD
  refine congrArg₂ (· * ·) ?_ ?_
  · -- the weight, spread over the column-block axis
    refine (broadcastInDim_apply _ h3 _ _
      (ix5 gi (⟨a.val / K, hp⟩ : Fin 4) (0 : Fin 1) (⟨a.val % K, hi⟩ : Fin K) (⟨k.val % M, hr⟩ : Fin M)) ?_).trans ?_
    · intro b
      match b with
      | ⟨0, _⟩ => exact (if_neg (show ¬ ((25 : ℕ) = 1) by decide)).symm
      | ⟨1, _⟩ => exact (if_neg (show ¬ ((4 : ℕ) = 1) by decide)).symm
      | ⟨2, _⟩ => exact (if_pos rfl).symm
      | ⟨3, _⟩ =>
        show a.val % K = if K = 1 then 0 else a.val % K
        split_ifs with h1K
        · omega
        · rfl
      | ⟨4, _⟩ =>
        show k.val % M = if M = 1 then 0 else k.val % M
        split_ifs with h1M
        · omega
        · rfl
    refine (broadcastInDim_apply _ h2 _ _
      (ix4 gi (⟨a.val / K, hp⟩ : Fin 4) (⟨a.val % K, hi⟩ : Fin K) (⟨k.val % M, hr⟩ : Fin M)) ?_).trans ?_
    · intro b
      match b with
      | ⟨0, _⟩ => exact (if_neg (show ¬ ((25 : ℕ) = 1) by decide)).symm
      | ⟨1, _⟩ => exact (if_neg (show ¬ ((4 : ℕ) = 1) by decide)).symm
      | ⟨2, _⟩ =>
        show a.val % K = if K = 1 then 0 else a.val % K
        split_ifs with h1K
        · omega
        · rfl
      | ⟨3, _⟩ =>
        show k.val % M = if M = 1 then 0 else k.val % M
        split_ifs with h1M
        · omega
        · rfl
    refine (shapeCast_apply w h1 _ (ix3 (Spec.fm 100 (4 * gi.val + a.val / K)) (Spec.fm K a.val) (Spec.fm M k.val)) ?_).trans rfl
    rw [Shape.rowMajor_val_three, Shape.rowMajor_val_four]
    show ((4 * gi.val + a.val / K) % 100 * K + a.val % K) * M + k.val % M
      = ((gi.val * 4 + a.val / K) * K + a.val % K) * M + k.val % M
    rw [Nat.mod_eq_of_lt (by omega), Nat.mul_comm 4 gi.val]
  · -- the identity, spread over the group and the within-block axes
    refine (broadcastInDim_apply _ h5 _ _
      (ix5 (0 : Fin 1) (⟨a.val / K, hp⟩ : Fin 4) (⟨k.val / M, hq⟩ : Fin 4) (0 : Fin 1) (0 : Fin 1)) ?_).trans ?_
    · intro b
      match b with
      | ⟨0, _⟩ => exact (if_pos rfl).symm
      | ⟨1, _⟩ => exact (if_neg (show ¬ ((4 : ℕ) = 1) by decide)).symm
      | ⟨2, _⟩ => exact (if_neg (show ¬ ((4 : ℕ) = 1) by decide)).symm
      | ⟨3, _⟩ => exact (if_pos rfl).symm
      | ⟨4, _⟩ => exact (if_pos rfl).symm
    refine (broadcastInDim_apply _ h4 _ _ (ix2 (⟨a.val / K, hp⟩ : Fin 4) (⟨k.val / M, hq⟩ : Fin 4)) ?_).trans ?_
    · intro b
      match b with
      | ⟨0, _⟩ => exact (if_neg (show ¬ ((4 : ℕ) = 1) by decide)).symm
      | ⟨1, _⟩ => exact (if_neg (show ¬ ((4 : ℕ) = 1) by decide)).symm
    exact heye _ _

theorem V_v26 (gi : Fin 25) (a : Fin 20) (k : Fin 8) :
    (V m c main_v26 : A3 25 20 8) (ix3 gi a k) = Spec.pkBD (c3 ((m ((c.tc : Thread nD τ).loc main_arg4)) : A3 100 5 2)) gi a.val k.val := by
  -- the array as the host operations build it from the argument
  have e : (V m c main_v26 : A3 25 20 8) =
      shapeCast S25x20x8
        (transpose S25x4x5x4x2 [0, 1, 3, 2, 4]
          (mulf
            (broadcastInDim S25x4x4x5x2 ![0, 1, 2, 3, 4] bcast_S25x4x1x5x2_S25x4x4x5x2_0_1_2_3_4
              (broadcastInDim S25x4x1x5x2 ![0, 1, 3, 4] bcast_S25x4x5x2_S25x4x1x5x2_0_1_3_4
                (shapeCast S25x4x5x2 ((m ((c.tc : Thread nD τ).loc main_arg4)) : A3 100 5 2) shapeCasts_S100x5x2_S25x4x5x2)))
            (broadcastInDim S25x4x4x5x2 ![0, 1, 2, 3, 4] bcast_S1x4x4x1x1_S25x4x4x5x2_0_1_2_3_4
              (broadcastInDim S1x4x4x1x1 ![1, 2] bcast_S4x4_S1x4x4x1x1_1_2
                (uitofp (F := Ideal) .f32 (cmpi .eq (addi (iotaInDim S4x4 32 0)
                  (broadcastInDim S4x4 ![] bcast_S_S4x4 (constantI S_ 32 0#32))) (iotaInDim S4x4 32 1))))))
          transposes_S25x4x4x5x2_S25x4x5x4x2_0_1_3_2_4)
        shapeCasts_S25x4x5x4x2_S25x20x8 := by
    dsimp only [Gen.V, Gen.hostOps0]; after_results_simp; rfl
  exact (congrFun e _).trans
    (blockDiag_apply (K := 5) (M := 2) rfl rfl _ _ (eye_apply bcast_S_S4x4) _ _ _ _ _ _ _ gi a k)

theorem V_v42 (gi : Fin 25) (a : Fin 8) (k : Fin 8) :
    (V m c main_v42 : A3 25 8 8) (ix3 gi a k) = Spec.pkBD (c3 ((m ((c.tc : Thread nD τ).loc main_arg6)) : A3 100 2 2)) gi a.val k.val := by
  -- the array as the host operations build it from the argument
  have e : (V m c main_v42 : A3 25 8 8) =
      shapeCast S25x8x8
        (transpose S25x4x2x4x2 [0, 1, 3, 2, 4]
          (mulf
            (broadcastInDim S25x4x4x2x2 ![0, 1, 2, 3, 4] bcast_S25x4x1x2x2_S25x4x4x2x2_0_1_2_3_4
              (broadcastInDim S25x4x1x2x2 ![0, 1, 3, 4] bcast_S25x4x2x2_S25x4x1x2x2_0_1_3_4
                (shapeCast S25x4x2x2 ((m ((c.tc : Thread nD τ).loc main_arg6)) : A3 100 2 2) shapeCasts_S100x2x2_S25x4x2x2)))
            (broadcastInDim S25x4x4x2x2 ![0, 1, 2, 3, 4] bcast_S1x4x4x1x1_S25x4x4x2x2_0_1_2_3_4
              (broadcastInDim S1x4x4x1x1 ![1, 2] bcast_S4x4_S1x4x4x1x1_1_2
                (uitofp (F := Ideal) .f32 (cmpi .eq (addi (iotaInDim S4x4 32 0)
                  (broadcastInDim S4x4 ![] bcast_S_S4x4 (constantI S_ 32 0#32))) (iotaInDim S4x4 32 1))))))
          transposes_S25x4x4x2x2_S25x4x2x4x2_0_1_3_2_4)
        shapeCasts_S25x4x2x4x2_S25x8x8 := by
    dsimp only [Gen.V, Gen.hostOps0]; after_results_simp; rfl
  exact (congrFun e _).trans
    (blockDiag_apply (K := 2) (M := 2) rfl rfl _ _ (eye_apply bcast_S_S4x4) _ _ _ _ _ _ _ gi a k)

theorem V_v58 (gi : Fin 25) (a : Fin 8) (k : Fin 100) :
    (V m c main_v58 : A3 25 8 100) (ix3 gi a k) = Spec.pkBD (c3 ((m ((c.tc : Thread nD τ).loc main_arg8)) : A3 100 2 25)) gi a.val k.val := by
  -- the array as the host operations build it from the argument
  have e : (V m c main_v58 : A3 25 8 100) =
      shapeCast S25x8x100
        (transpose S25x4x2x4x25 [0, 1, 3, 2, 4]
          (mulf
            (broadcastInDim S25x4x4x2x25 ![0, 1, 2, 3, 4] bcast_S25x4x1x2x25_S25x4x4x2x25_0_1_2_3_4
              (broadcastInDim S25x4x1x2x25 ![0, 1, 3, 4] bcast_S25x4x2x25_S25x4x1x2x25_0_1_3_4
                (shapeCast S25x4x2x25 ((m ((c.tc : Thread nD τ).loc main_arg8)) : A3 100 2 25) shapeCasts_S100x2x25_S25x4x2x25)))
            (broadcastInDim S25x4x4x2x25 ![0, 1, 2, 3, 4] bcast_S1x4x4x1x1_S25x4x4x2x25_0_1_2_3_4
              (broadcastInDim S1x4x4x1x1 ![1, 2] bcast_S4x4_S1x4x4x1x1_1_2
                (uitofp (F := Ideal) .f32 (cmpi .eq (addi (iotaInDim S4x4 32 0)
                  (broadcastInDim S4x4 ![] bcast_S_S4x4 (constantI S_ 32 0#32))) (iotaInDim S4x4 32 1))))))
          transposes_S25x4x4x2x25_S25x4x2x4x25_0_1_3_2_4)
        shapeCasts_S25x4x2x4x25_S25x8x100 := by
    dsimp only [Gen.V, Gen.hostOps0]; after_results_simp; rfl
  exact (congrFun e _).trans
    (blockDiag_apply (K := 2) (M := 25) rfl rfl _ _ (eye_apply bcast_S_S4x4) _ _ _ _ _ _ _ gi a k)

theorem V_v74 (gi : Fin 25) (a : Fin 100) (k : Fin 200) :
    (V m c main_v74 : A3 25 100 200) (ix3 gi a k) = Spec.pkBD (c3 ((m ((c.tc : Thread nD τ).loc main_arg10)) : A3 100 25 50)) gi a.val k.val := by
  -- the array as the host operations build it from the argument
  have e : (V m c main_v74 : A3 25 100 200) =
      shapeCast S25x100x200
        (transpose S25x4x25x4x50 [0, 1, 3, 2, 4]
          (mulf
            (broadcastInDim S25x4x4x25x50 ![0, 1, 2, 3, 4] bcast_S25x4x1x25x50_S25x4x4x25x50_0_1_2_3_4
              (broadcastInDim S25x4x1x25x50 ![0, 1, 3, 4] bcast_S25x4x25x50_S25x4x1x25x50_0_1_3_4
                (shapeCast S25x4x25x50 ((m ((c.tc : Thread nD τ).loc main_arg10)) : A3 100 25 50) shapeCasts_S100x25x50_S25x4x25x50)))
            (broadcastInDim S25x4x4x25x50 ![0, 1, 2, 3, 4] bcast_S1x4x4x1x1_S25x4x4x25x50_0_1_2_3_4
              (broadcastInDim S1x4x4x1x1 ![1, 2] bcast_S4x4_S1x4x4x1x1_1_2
                (uitofp (F := Ideal) .f32 (cmpi .eq (addi (iotaInDim S4x4 32 0)
                  (broadcastInDim S4x4 ![] bcast_S_S4x4 (constantI S_ 32 0#32))) (iotaInDim S4x4 32 1))))))
          transposes_S25x4x4x25x50_S25x4x25x4x50_0_1_3_2_4)
        shapeCasts_S25x4x25x4x50_S25x100x200 := by
    dsimp only [Gen.V, Gen.hostOps0]; after_results_simp; rfl
  exact (congrFun e _).trans
    (blockDiag_apply (K := 25) (M := 50) rfl rfl _ _ (eye_apply bcast_S_S4x4) _ _ _ _ _ _ _ gi a k)

theorem V_v112 (gi : Fin 25) (a : Fin 8) (k : Fin 100) :
    (V m c main_v112 : A3 25 8 100) (ix3 gi a k) = Spec.pkBD (c3 ((m ((c.tc : Thread nD τ).loc main_arg14)) : A3 100 2 25)) gi a.val k.val := by
  -- the array as the host operations build it from the argument
  have e : (V m c main_v112 : A3 25 8 100) =
      shapeCast S25x8x100
        (transpose S25x4x2x4x25 [0, 1, 3, 2, 4]
          (mulf
            (broadcastInDim S25x4x4x2x25 ![0, 1, 2, 3, 4] bcast_S25x4x1x2x25_S25x4x4x2x25_0_1_2_3_4
              (broadcastInDim S25x4x1x2x25 ![0, 1, 3, 4] bcast_S25x4x2x25_S25x4x1x2x25_0_1_3_4
                (shapeCast S25x4x2x25 ((m ((c.tc : Thread nD τ).loc main_arg14)) : A3 100 2 25) shapeCasts_S100x2x25_S25x4x2x25)))
            (broadcastInDim S25x4x4x2x25 ![0, 1, 2, 3, 4] bcast_S1x4x4x1x1_S25x4x4x2x25_0_1_2_3_4
              (broadcastInDim S1x4x4x1x1 ![1, 2] bcast_S4x4_S1x4x4x1x1_1_2
                (uitofp (F := Ideal) .f32 (cmpi .eq (addi (iotaInDim S4x4 32 0)
                  (broadcastInDim S4x4 ![] bcast_S_S4x4 (constantI S_ 32 0#32))) (iotaInDim S4x4 32 1))))))
          transposes_S25x4x4x2x25_S25x4x2x4x25_0_1_3_2_4)
        shapeCasts_S25x4x2x4x25_S25x8x100 := by
    dsimp only [Gen.V, Gen.hostOps0]; after_results_simp; rfl
  exact (congrFun e _).trans
    (blockDiag_apply (K := 2) (M := 25) rfl rfl _ _ (eye_apply bcast_S_S4x4) _ _ _ _ _ _ _ gi a k)

theorem V_v128 (gi : Fin 25) (a : Fin 100) (k : Fin 200) :
    (V m c main_v128 : A3 25 100 200) (ix3 gi a k) = Spec.pkBD (c3 ((m ((c.tc : Thread nD τ).loc main_arg16)) : A3 100 25 50)) gi a.val k.val := by
  -- the array as the host operations build it from the argument
  have e : (V m c main_v128 : A3 25 100 200) =
      shapeCast S25x100x200
        (transpose S25x4x25x4x50 [0, 1, 3, 2, 4]
          (mulf
            (broadcastInDim S25x4x4x25x50 ![0, 1, 2, 3, 4] bcast_S25x4x1x25x50_S25x4x4x25x50_0_1_2_3_4
              (broadcastInDim S25x4x1x25x50 ![0, 1, 3, 4] bcast_S25x4x25x50_S25x4x1x25x50_0_1_3_4
                (shapeCast S25x4x25x50 ((m ((c.tc : Thread nD τ).loc main_arg16)) : A3 100 25 50) shapeCasts_S100x25x50_S25x4x25x50)))
            (broadcastInDim S25x4x4x25x50 ![0, 1, 2, 3, 4] bcast_S1x4x4x1x1_S25x4x4x25x50_0_1_2_3_4
              (broadcastInDim S1x4x4x1x1 ![1, 2] bcast_S4x4_S1x4x4x1x1_1_2
                (uitofp (F := Ideal) .f32 (cmpi .eq (addi (iotaInDim S4x4 32 0)
                  (broadcastInDim S4x4 ![] bcast_S_S4x4 (constantI S_ 32 0#32))) (iotaInDim S4x4 32 1))))))
          transposes_S25x4x4x25x50_S25x4x25x4x50_0_1_3_2_4)
        shapeCasts_S25x4x25x4x50_S25x100x200 := by
    dsimp only [Gen.V, Gen.hostOps0]; after_results_simp; rfl
  exact (congrFun e _).trans
    (blockDiag_apply (K := 25) (M := 50) rfl rfl _ _ (eye_apply bcast_S_S4x4) _ _ _ _ _ _ _ gi a k)

end Cert.KerHost

end
-- ==== Proof.KerHostBDpad.lean ====
/-
  The last layer's block-diagonal weights the host builds before the launch, read at an entry: the weight array regrouped by fours, written into a block of zeros 128 columns wide, multiplied by the 4×4 identity spread over two axes, transposed and flattened.
-/
import proofs.«417956_j37340445671918_3_alg».proof.Proof.Gen.KernelIdeal.Frame
import proofs.«417956_j37340445671918_3_alg».proof.Proof.Spec
import proofs.«417956_j37340445671918_3_alg».proof.Proof.Views
import proofs.«417956_j37340445671918_3_alg».proof.Proof.LibScatterSet
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KerHost

open Cert.KernelIdeal Cert.KernelIdeal.Gen Idealize.ShloMosaic Idealize.ShloMosaic.TcCoe Idealize.SL.Sem Idealize.ShloMosaic.ValueIdx Cert.Views

variable (m : (ℓ : Loc nD τ sig) → Buf (Elt Ideal) ℓ) (c : Dev nD)

/-- The zero block the weight is written into. -/
private def zeros : S25x4x50x128.Idx → EReal :=
  broadcastInDim S25x4x50x128 ![] bcast_S_S25x4x50x128 (constant (F := Ideal) S_ .f32 0x00000000#32)

/-- The scatter's one start index: the word zero. -/
private def idx0 : IVec S1 32 := broadcastInDim S1 ![] bcast_S_S1 (constantI S_ 32 0#32)

/-- The weight regrouped by fours and written into the first 100 of 128 columns of the zero block. -/
private def wpad (w : S100x50x100.Idx → EReal) : S25x4x50x128.Idx → EReal :=
  Host.scatter scatter_S25x4x50x128_S1_S25x4x50x100_0123_n_3_0 (fun _ b => b) zeros idx0
    (shapeCast S25x4x50x100 w shapeCasts_S100x50x100_S25x4x50x100)

/-- The 4×4 identity as the host builds it: row number plus zero compared with column number, as a float. -/
private def eye : S4x4.Idx → EReal :=
  uitofp (F := Ideal) .f32
    (cmpi .eq (addi (iotaInDim S4x4 32 0) (broadcastInDim S4x4 ![] bcast_S_S4x4 (constantI S_ 32 0#32)))
      (iotaInDim S4x4 32 1))

/-- The host's term for the padded block-diagonal weight, as a function of the weight array. -/
private def bdpad (w : S100x50x100.Idx → EReal) : S25x200x512.Idx → EReal :=
  shapeCast S25x200x512
    (transpose S25x4x50x4x128 [0, 1, 3, 2, 4]
      (mulf (F := Ideal) (φ := .f32)
        (broadcastInDim S25x4x4x50x128 ![0, 1, 2, 3, 4] bcast_S25x4x1x50x128_S25x4x4x50x128_0_1_2_3_4
          (broadcastInDim S25x4x1x50x128 ![0, 1, 3, 4] bcast_S25x4x50x128_S25x4x1x50x128_0_1_3_4 (wpad w)))
        (broadcastInDim S25x4x4x50x128 ![0, 1, 2, 3, 4] bcast_S1x4x4x1x1_S25x4x4x50x128_0_1_2_3_4
          (broadcastInDim S1x4x4x1x1 ![1, 2] bcast_S4x4_S1x4x4x1x1_1_2 eye)))
      transposes_S25x4x4x50x128_S25x4x50x4x128_0_1_3_2_4)
    shapeCasts_S25x4x50x4x128_S25x200x512

/-- The identity's entry. -/
private theorem eye_apply (p q : Fin 4) : eye (ix2 p q) = if p = q then 1 else 0 := by
  have h : IntOp.cmpi .eq (IntOp.addi (BitVec.ofNat 32 p.val) 0#32) (BitVec.ofNat 32 q.val) = if p = q then 1#1 else 0#1 := by
    revert p q; decide
  show (((IntOp.cmpi .eq (IntOp.addi (BitVec.ofNat 32 p.val) 0#32) (BitVec.ofNat 32 q.val)).toNat : ℝ) : EReal) = _
  rw [h]
  by_cases hpq : p = q
  · rw [if_pos hpq, if_pos hpq]; simp
  · rw [if_neg hpq, if_neg hpq]; simp

/-- Where update entry `j` lands: the same coordinates, the last one among the first 100 of 128. -/
private def land (j : S25x4x50x100.Idx) : S25x4x50x128.Idx :=
  ix4 (n0 := 25) (n1 := 4) (n2 := 50) (n3 := 128) (j 0) (j 1) (j 2)
    ⟨(j 3).val, Nat.lt_of_lt_of_le (j 3).isLt (by decide)⟩

private theorem land_inj : Function.Injective land := by
  intro j j' h
  funext a
  match a with
  | ⟨0, _⟩ => exact congrFun h 0
  | ⟨1, _⟩ => exact congrFun h 1
  | ⟨2, _⟩ => exact congrFun h 2
  | ⟨3, _⟩ =>
    have h3 : (land j 3).val = (land j' 3).val := congrArg Fin.val (congrFun h 3)
    exact Fin.ext h3

/-- With the start index zero every update entry lands inside the block, at `land`. -/
private theorem hland (j : S25x4x50x100.Idx) :
    scatter_S25x4x50x128_S1_S25x4x50x100_0123_n_3_0.resultIdx? j idx0 = some (land j) := by
  have hs : ∀ a, scatter_S25x4x50x128_S1_S25x4x50x100_0123_n_3_0.start j idx0 a = 0 := by
    intro a
    unfold ScatterDims.start
    split
    · rfl
    · rfl
  have hw : ∀ a, (scatter_S25x4x50x128_S1_S25x4x50x100_0123_n_3_0.window j a : Int) = ((land j a).val : Int) := by
    intro a
    match a with
    | ⟨0, _⟩ => rfl
    | ⟨1, _⟩ => rfl
    | ⟨2, _⟩ => rfl
    | ⟨3, _⟩ => rfl
  unfold ScatterDims.resultIdx?
  rw [dif_pos (fun a => by rw [hs a, hw a]; have := (land j a).isLt; constructor <;> omega)]
  refine congrArg some (funext fun a => Fin.ext ?_)
  show (scatter_S25x4x50x128_S1_S25x4x50x100_0123_n_3_0.start j idx0 a
      + scatter_S25x4x50x128_S1_S25x4x50x100_0123_n_3_0.window j a).toNat = (land j a).val
  rw [hs a, hw a]; omega

/-- The padded weight's entry: the weight's inside the first 100 columns, zero in the tail. -/
private theorem wpad_apply (w : S100x50x100.Idx → EReal) (gi : Fin 25) (p : Fin 4) (i : Fin 50) (r : Fin 128) :
    wpad w (ix4 gi p i r)
      = if h : r.val < 100 then w (ix3 (n0 := 100) ⟨4 * gi.val + p.val, by omega⟩ i ⟨r.val, h⟩) else 0 := by
  obtain ⟨h1, h2⟩ := Cert.LibScatterSet.scatter_set scatter_S25x4x50x128_S1_S25x4x50x100_0123_n_3_0 zeros idx0
    (shapeCast S25x4x50x100 w shapeCasts_S100x50x100_S25x4x50x100) land hland land_inj
  by_cases h : r.val < 100
  · rw [dif_pos h]
    have e : (ix4 gi p i r : S25x4x50x128.Idx) = land (ix4 (n3 := 100) gi p i ⟨r.val, h⟩) := by
      funext a
      match a with
      | ⟨0, _⟩ => rfl
      | ⟨1, _⟩ => rfl
      | ⟨2, _⟩ => rfl
      | ⟨3, _⟩ => rfl
    unfold wpad
    rw [e, h1]
    refine shapeCast_apply w _ _ _ ?_
    rw [Shape.rowMajor_val_three, Shape.rowMajor_val_four]
    show ((4 * gi.val + p.val) * 50 + i.val) * 100 + r.val = ((gi.val * 4 + p.val) * 50 + i.val) * 100 + r.val
    omega
  · rw [dif_neg h]
    unfold wpad
    rw [h2 _ (fun j hj => h (by
      have e3 : (j 3).val = r.val := congrArg Fin.val (congrFun hj 3)
      have l3 : (j 3).val < 100 := (j 3).isLt
      omega))]
    exact Ideal.ofBits_zero_f32

/-- The host's term at the entry with coordinates `(gi, 50 p + i, 128 q + r)`: the padded weight at `(gi, p, i, r)` times
    the identity at `(p, q)`. -/
private theorem bdpad_read (w : S100x50x100.Idx → EReal) (gi : Fin 25) (p : Fin 4) (i : Fin 50) (q : Fin 4) (r : Fin 128)
    (a : Fin 200) (k : Fin 512) (ha : a.val = 50 * p.val + i.val) (hk : k.val = 128 * q.val + r.val) :
    bdpad w (ix3 gi a k) = wpad w (ix4 gi p i r) * eye (ix2 p q) := by
  unfold bdpad
  refine (shapeCast_apply _ _ (ix3 gi a k) (ix5 gi p i q r) ?_).trans ?_
  · rw [Shape.rowMajor_val_five, Shape.rowMajor_val_three]
    show ((((gi.val * 4 + p.val) * 50 + i.val) * 4 + q.val) * 128 + r.val) = (gi.val * 200 + a.val) * 512 + k.val
    omega
  refine (transpose_apply _ _ _ (ix5 gi p i q r) (ix5 gi p q i r) ?_).trans ?_
  · intro b
    match b with
    | ⟨0, _⟩ => rfl
    | ⟨1, _⟩ => rfl
    | ⟨2, _⟩ => rfl
    | ⟨3, _⟩ => rfl
    | ⟨4, _⟩ => rfl
  rw [mulf_apply]
  refine congrArg₂ (· * ·) ?_ ?_
  · refine (broadcastInDim_apply _ _ _ (ix5 gi p q i r) (ix5 gi p (0 : Fin 1) i r) ?_).trans ?_
    · intro b
      match b with
      | ⟨0, _⟩ => rfl
      | ⟨1, _⟩ => rfl
      | ⟨2, _⟩ => rfl
      | ⟨3, _⟩ => rfl
      | ⟨4, _⟩ => rfl
    refine broadcastInDim_apply _ _ _ (ix5 gi p (0 : Fin 1) i r) (ix4 gi p i r) ?_
    intro b
    match b with
    | ⟨0, _⟩ => rfl
    | ⟨1, _⟩ => rfl
    | ⟨2, _⟩ => rfl
    | ⟨3, _⟩ => rfl
  · refine (broadcastInDim_apply _ _ _ (ix5 gi p q i r) (ix5 (0 : Fin 1) p q (0 : Fin 1) (0 : Fin 1)) ?_).trans ?_
    · intro b
      match b with
      | ⟨0, _⟩ => rfl
      | ⟨1, _⟩ => rfl
      | ⟨2, _⟩ => rfl
      | ⟨3, _⟩ => rfl
      | ⟨4, _⟩ => rfl
    refine broadcastInDim_apply _ _ _ (ix5 (0 : Fin 1) p q (0 : Fin 1) (0 : Fin 1)) (ix2 p q) ?_
    intro b
    match b with
    | ⟨0, _⟩ => rfl
    | ⟨1, _⟩ => rfl

/-- The host's term at an entry is the padded block-diagonal weight's. -/
private theorem bdpad_apply (w : S100x50x100.Idx → EReal) (gi : Fin 25) (a : Fin 200) (k : Fin 512) :
    bdpad w (ix3 gi a k) = Spec.pkBDpad (c3 w) gi a.val k.val := by
  have hgi := gi.isLt
  have ha := a.isLt
  have hk := k.isLt
  rw [bdpad_read w gi ⟨a.val / 50, by omega⟩ ⟨a.val % 50, by omega⟩ ⟨k.val / 128, by omega⟩ ⟨k.val % 128, by omega⟩ a k
    (by show a.val = 50 * (a.val / 50) + a.val % 50; omega) (by show k.val = 128 * (k.val / 128) + k.val % 128; omega),
    wpad_apply, eye_apply]
  unfold Spec.pkBDpad
  refine congrArg₂ (· * ·) ?_ ?_
  · by_cases h : k.val % 128 < 100
    · rw [dif_pos h, if_pos h, Spec.fm_of_lt 100 (4 * gi.val + a.val / 50) (by omega), Spec.fm_of_lt 100 (k.val % 128) h]
      rfl
    · rw [dif_neg h, if_neg h]
  · by_cases hc : a.val / 50 = k.val / 128
    · rw [if_pos (Fin.ext hc), if_pos hc]
    · rw [if_neg (fun e => hc (congrArg Fin.val e)), if_neg hc]

set_option maxHeartbeats 4000000 in
/-- What the host operations before the launch leave in buffer `main_v93`: the padded block-diagonal term of the
    weight argument `main_arg12`. -/
private theorem term_v93 :
    (V m c main_v93 : A3 25 200 512) = bdpad (m ((c.tc : Thread nD τ).loc main_arg12)) := by
  dsimp only [Gen.V, Gen.hostOps0]
  after_results_simp
  rfl

set_option maxHeartbeats 4000000 in
/-- The same for buffer `main_v147` and the weight argument `main_arg18`. -/
private theorem term_v147 :
    (V m c main_v147 : A3 25 200 512) = bdpad (m ((c.tc : Thread nD τ).loc main_arg18)) := by
  dsimp only [Gen.V, Gen.hostOps0]
  after_results_simp
  rfl

theorem V_v93 (gi : Fin 25) (a : Fin 200) (k : Fin 512) :
    (V m c main_v93 : A3 25 200 512) (ix3 gi a k) = Spec.pkBDpad (c3 ((m ((c.tc : Thread nD τ).loc main_arg12)) : A3 100 50 100)) gi a.val k.val := by
  exact (congrFun (term_v93 m c) (ix3 gi a k)).trans (bdpad_apply _ gi a k)

theorem V_v147 (gi : Fin 25) (a : Fin 200) (k : Fin 512) :
    (V m c main_v147 : A3 25 200 512) (ix3 gi a k) = Spec.pkBDpad (c3 ((m ((c.tc : Thread nD τ).loc main_arg18)) : A3 100 50 100)) gi a.val k.val := by
  exact (congrFun (term_v147 m c) (ix3 gi a k)).trans (bdpad_apply _ gi a k)

end Cert.KerHost

end
-- ==== Proof.KerIdx.lean ====
/-
  The kernel's index maps over its 4 × 25 grid, and where an entry of a staged block lies in its array.

  Grid point `t = (ri, gi)` stages rows `2048 ri … 2048 ri + 2047` of the input and group `gi`'s packed weights
  and biases, and writes back the blocks `(gi, ri)` of the two results.
-/
import proofs.«417956_j37340445671918_3_alg».proof.Proof.Gen.KernelIdeal.Value
import proofs.«417956_j37340445671918_3_alg».proof.Proof.Views
import proofs.«417956_j37340445671918_3_alg».proof.Proof.Math
import proofs.«417956_j37340445671918_3_alg».proof.Proof.KerPay
import proofs.«417956_j37340445671918_3_alg».proof.Proof.KerHostW0
import proofs.«417956_j37340445671918_3_alg».proof.Proof.KerHostBias
import proofs.«417956_j37340445671918_3_alg».proof.Proof.KerHostBD
import proofs.«417956_j37340445671918_3_alg».proof.Proof.KerHostBDpad

noncomputable section

namespace Cert.KerBlock

open Cert.KernelIdeal Cert.KernelIdeal.Gen Cert.KernelIdeal.Value Idealize.ShloMosaic Idealize.ShloMosaic.TcCoe Idealize.SL.Sem
open Idealize.ShloMosaic.ValueIdx Cert.Views Cert.Spec Cert.KerPay
open Idealize.ShloMosaic.Pipeline (Dat)

variable (m : (ℓ : Loc nD τ sig) → Buf (Elt Ideal) ℓ) (ρ : Dev nD → PrngReg)

/-- The input rows and the encoder's parameters as the kernel's memory holds them. -/
def encP (c : Dev nD) : Spec.Enc := encOf (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
/-- The first decoder's parameters. -/
def decHi (c : Dev nD) : Spec.Dec := decOf (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
/-- The second decoder's parameters. -/
def decLo (c : Dev nD) : Spec.Dec := decOf (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))

/-! ## The index maps, decided over the 100 grid points -/

/-- The two results' blocks: block index `(gi, ri, 0)`. -/
theorem idx_out : ∀ t : Fin cfg0.N, win0_19.index t (0 : Fin 3) < 25 ∧ win0_19.index t (1 : Fin 3) < 4 ∧ win0_19.index t (2 : Fin 3) = 0
    ∧ win0_20.index t (0 : Fin 3) = win0_19.index t (0 : Fin 3) ∧ win0_20.index t (1 : Fin 3) = win0_19.index t (1 : Fin 3) ∧ win0_20.index t (2 : Fin 3) = 0 :=
  (by decide +kernel : ∀ t : Fin grid0.N, _)

/-- The input rows' block: block index `(ri, 0)`. -/
theorem idx_w0 : ∀ t : Fin cfg0.N, win0_0.index t (0 : Fin 2) = win0_19.index t (1 : Fin 3) ∧ win0_0.index t (1 : Fin 2) = 0 :=
  (by decide +kernel : ∀ t : Fin grid0.N, _)

theorem idx_w1 : ∀ t : Fin cfg0.N, win0_1.index t (0 : Fin 3) = win0_19.index t (0 : Fin 3) ∧ win0_1.index t (1 : Fin 3) = 0 ∧ win0_1.index t (2 : Fin 3) = 0 :=
  (by decide +kernel : ∀ t : Fin grid0.N, _)

theorem idx_w2 : ∀ t : Fin cfg0.N, win0_2.index t (0 : Fin 3) = win0_19.index t (0 : Fin 3) ∧ win0_2.index t (1 : Fin 3) = 0 ∧ win0_2.index t (2 : Fin 3) = 0 :=
  (by decide +kernel : ∀ t : Fin grid0.N, _)

theorem idx_w3 : ∀ t : Fin cfg0.N, win0_3.index t (0 : Fin 3) = win0_19.index t (0 : Fin 3) ∧ win0_3.index t (1 : Fin 3) = 0 ∧ win0_3.index t (2 : Fin 3) = 0 :=
  (by decide +kernel : ∀ t : Fin grid0.N, _)

theorem idx_w4 : ∀ t : Fin cfg0.N, win0_4.index t (0 : Fin 3) = win0_19.index t (0 : Fin 3) ∧ win0_4.index t (1 : Fin 3) = 0 ∧ win0_4.index t (2 : Fin 3) = 0 :=
  (by decide +kernel : ∀ t : Fin grid0.N, _)

theorem idx_w5 : ∀ t : Fin cfg0.N, win0_5.index t (0 : Fin 3) = win0_19.index t (0 : Fin 3) ∧ win0_5.index t (1 : Fin 3) = 0 ∧ win0_5.index t (2 : Fin 3) = 0 :=
  (by decide +kernel : ∀ t : Fin grid0.N, _)

theorem idx_w6 : ∀ t : Fin cfg0.N, win0_6.index t (0 : Fin 3) = win0_19.index t (0 : Fin 3) ∧ win0_6.index t (1 : Fin 3) = 0 ∧ win0_6.index t (2 : Fin 3) = 0 :=
  (by decide +kernel : ∀ t : Fin grid0.N, _)

theorem idx_w7 : ∀ t : Fin cfg0.N, win0_7.index t (0 : Fin 3) = win0_19.index t (0 : Fin 3) ∧ win0_7.index t (1 : Fin 3) = 0 ∧ win0_7.index t (2 : Fin 3) = 0 :=
  (by decide +kernel : ∀ t : Fin grid0.N, _)

theorem idx_w8 : ∀ t : Fin cfg0.N, win0_8.index t (0 : Fin 3) = win0_19.index t (0 : Fin 3) ∧ win0_8.index t (1 : Fin 3) = 0 ∧ win0_8.index t (2 : Fin 3) = 0 :=
  (by decide +kernel : ∀ t : Fin grid0.N, _)

theorem idx_w9 : ∀ t : Fin cfg0.N, win0_9.index t (0 : Fin 3) = win0_19.index t (0 : Fin 3) ∧ win0_9.index t (1 : Fin 3) = 0 ∧ win0_9.index t (2 : Fin 3) = 0 :=
  (by decide +kernel : ∀ t : Fin grid0.N, _)

theorem idx_w10 : ∀ t : Fin cfg0.N, win0_10.index t (0 : Fin 3) = win0_19.index t (0 : Fin 3) ∧ win0_10.index t (1 : Fin 3) = 0 ∧ win0_10.index t (2 : Fin 3) = 0 :=
  (by decide +kernel : ∀ t : Fin grid0.N, _)

theorem idx_w11 : ∀ t : Fin cfg0.N, win0_11.index t (0 : Fin 3) = win0_19.index t (0 : Fin 3) ∧ win0_11.index t (1 : Fin 3) = 0 ∧ win0_11.index t (2 : Fin 3) = 0 :=
  (by decide +kernel : ∀ t : Fin grid0.N, _)

theorem idx_w12 : ∀ t : Fin cfg0.N, win0_12.index t (0 : Fin 3) = win0_19.index t (0 : Fin 3) ∧ win0_12.index t (1 : Fin 3) = 0 ∧ win0_12.index t (2 : Fin 3) = 0 :=
  (by decide +kernel : ∀ t : Fin grid0.N, _)

theorem idx_w13 : ∀ t : Fin cfg0.N, win0_13.index t (0 : Fin 3) = win0_19.index t (0 : Fin 3) ∧ win0_13.index t (1 : Fin 3) = 0 ∧ win0_13.index t (2 : Fin 3) = 0 :=
  (by decide +kernel : ∀ t : Fin grid0.N, _)

theorem idx_w14 : ∀ t : Fin cfg0.N, win0_14.index t (0 : Fin 3) = win0_19.index t (0 : Fin 3) ∧ win0_14.index t (1 : Fin 3) = 0 ∧ win0_14.index t (2 : Fin 3) = 0 :=
  (by decide +kernel : ∀ t : Fin grid0.N, _)

theorem idx_w15 : ∀ t : Fin cfg0.N, win0_15.index t (0 : Fin 3) = win0_19.index t (0 : Fin 3) ∧ win0_15.index t (1 : Fin 3) = 0 ∧ win0_15.index t (2 : Fin 3) = 0 :=
  (by decide +kernel : ∀ t : Fin grid0.N, _)

theorem idx_w16 : ∀ t : Fin cfg0.N, win0_16.index t (0 : Fin 3) = win0_19.index t (0 : Fin 3) ∧ win0_16.index t (1 : Fin 3) = 0 ∧ win0_16.index t (2 : Fin 3) = 0 :=
  (by decide +kernel : ∀ t : Fin grid0.N, _)

theorem idx_w17 : ∀ t : Fin cfg0.N, win0_17.index t (0 : Fin 3) = win0_19.index t (0 : Fin 3) ∧ win0_17.index t (1 : Fin 3) = 0 ∧ win0_17.index t (2 : Fin 3) = 0 :=
  (by decide +kernel : ∀ t : Fin grid0.N, _)

theorem idx_w18 : ∀ t : Fin cfg0.N, win0_18.index t (0 : Fin 3) = win0_19.index t (0 : Fin 3) ∧ win0_18.index t (1 : Fin 3) = 0 ∧ win0_18.index t (2 : Fin 3) = 0 :=
  (by decide +kernel : ∀ t : Fin grid0.N, _)

/-! ## Where a block's entry lies in its array -/

theorem emb_w0 (t : Fin cfg0.N) (r : Fin 2048) (d : Fin 100) (n : Fin 8192) (hn : n.val = win0_19.index t (1 : Fin 3) * 2048 + r.val) :
    ((cfg0.win 0).blk t).view.emb (ix2 r d) = (ix2 n d : S8192x100.Idx) := by
  obtain ⟨e0, e1⟩ := idx_w0 t
  funext ax; apply Fin.ext
  match ax with
  | ⟨0, _⟩ => show win0_0.index t (0 : Fin 2) * 2048 + 1 * r.val = n.val; omega
  | ⟨1, _⟩ => show win0_0.index t (1 : Fin 2) * 100 + 1 * d.val = d.val; omega

theorem emb_w1 (t : Fin cfg0.N) (gi : Fin 25) (hgi : gi.val = win0_19.index t (0 : Fin 3)) (a : Fin 100) (k : Fin 20) :
    ((cfg0.win 1).blk t).view.emb (ix3 (0 : Fin 1) a k) = (ix3 gi a k : S25x100x20.Idx) := by
  obtain ⟨e0, e1, e2⟩ := idx_w1 t
  funext ax; apply Fin.ext
  match ax with
  | ⟨0, _⟩ => show win0_1.index t (0 : Fin 3) * 1 + 1 * 0 = gi.val; omega
  | ⟨1, _⟩ => show win0_1.index t (1 : Fin 3) * 100 + 1 * a.val = a.val; omega
  | ⟨2, _⟩ => show win0_1.index t (2 : Fin 3) * 20 + 1 * k.val = k.val; omega

theorem emb_w2 (t : Fin cfg0.N) (gi : Fin 25) (hgi : gi.val = win0_19.index t (0 : Fin 3)) (a : Fin 1) (k : Fin 20) :
    ((cfg0.win 2).blk t).view.emb (ix3 (0 : Fin 1) a k) = (ix3 gi a k : S25x1x20.Idx) := by
  obtain ⟨e0, e1, e2⟩ := idx_w2 t
  funext ax; apply Fin.ext
  match ax with
  | ⟨0, _⟩ => show win0_2.index t (0 : Fin 3) * 1 + 1 * 0 = gi.val; omega
  | ⟨1, _⟩ => show win0_2.index t (1 : Fin 3) * 1 + 1 * a.val = a.val; omega
  | ⟨2, _⟩ => show win0_2.index t (2 : Fin 3) * 20 + 1 * k.val = k.val; omega

theorem emb_w3 (t : Fin cfg0.N) (gi : Fin 25) (hgi : gi.val = win0_19.index t (0 : Fin 3)) (a : Fin 20) (k : Fin 8) :
    ((cfg0.win 3).blk t).view.emb (ix3 (0 : Fin 1) a k) = (ix3 gi a k : S25x20x8.Idx) := by
  obtain ⟨e0, e1, e2⟩ := idx_w3 t
  funext ax; apply Fin.ext
  match ax with
  | ⟨0, _⟩ => show win0_3.index t (0 : Fin 3) * 1 + 1 * 0 = gi.val; omega
  | ⟨1, _⟩ => show win0_3.index t (1 : Fin 3) * 20 + 1 * a.val = a.val; omega
  | ⟨2, _⟩ => show win0_3.index t (2 : Fin 3) * 8 + 1 * k.val = k.val; omega

theorem emb_w4 (t : Fin cfg0.N) (gi : Fin 25) (hgi : gi.val = win0_19.index t (0 : Fin 3)) (a : Fin 1) (k : Fin 8) :
    ((cfg0.win 4).blk t).view.emb (ix3 (0 : Fin 1) a k) = (ix3 gi a k : S25x1x8.Idx) := by
  obtain ⟨e0, e1, e2⟩ := idx_w4 t
  funext ax; apply Fin.ext
  match ax with
  | ⟨0, _⟩ => show win0_4.index t (0 : Fin 3) * 1 + 1 * 0 = gi.val; omega
  | ⟨1, _⟩ => show win0_4.index t (1 : Fin 3) * 1 + 1 * a.val = a.val; omega
  | ⟨2, _⟩ => show win0_4.index t (2 : Fin 3) * 8 + 1 * k.val = k.val; omega

theorem emb_w5 (t : Fin cfg0.N) (gi : Fin 25) (hgi : gi.val = win0_19.index t (0 : Fin 3)) (a : Fin 8) (k : Fin 8) :
    ((cfg0.win 5).blk t).view.emb (ix3 (0 : Fin 1) a k) = (ix3 gi a k : S25x8x8.Idx) := by
  obtain ⟨e0, e1, e2⟩ := idx_w5 t
  funext ax; apply Fin.ext
  match ax with
  | ⟨0, _⟩ => show win0_5.index t (0 : Fin 3) * 1 + 1 * 0 = gi.val; omega
  | ⟨1, _⟩ => show win0_5.index t (1 : Fin 3) * 8 + 1 * a.val = a.val; omega
  | ⟨2, _⟩ => show win0_5.index t (2 : Fin 3) * 8 + 1 * k.val = k.val; omega

theorem emb_w6 (t : Fin cfg0.N) (gi : Fin 25) (hgi : gi.val = win0_19.index t (0 : Fin 3)) (a : Fin 1) (k : Fin 8) :
    ((cfg0.win 6).blk t).view.emb (ix3 (0 : Fin 1) a k) = (ix3 gi a k : S25x1x8.Idx) := by
  obtain ⟨e0, e1, e2⟩ := idx_w6 t
  funext ax; apply Fin.ext
  match ax with
  | ⟨0, _⟩ => show win0_6.index t (0 : Fin 3) * 1 + 1 * 0 = gi.val; omega
  | ⟨1, _⟩ => show win0_6.index t (1 : Fin 3) * 1 + 1 * a.val = a.val; omega
  | ⟨2, _⟩ => show win0_6.index t (2 : Fin 3) * 8 + 1 * k.val = k.val; omega

theorem emb_w7 (t : Fin cfg0.N) (gi : Fin 25) (hgi : gi.val = win0_19.index t (0 : Fin 3)) (a : Fin 8) (k : Fin 100) :
    ((cfg0.win 7).blk t).view.emb (ix3 (0 : Fin 1) a k) = (ix3 gi a k : S25x8x100.Idx) := by
  obtain ⟨e0, e1, e2⟩ := idx_w7 t
  funext ax; apply Fin.ext
  match ax with
  | ⟨0, _⟩ => show win0_7.index t (0 : Fin 3) * 1 + 1 * 0 = gi.val; omega
  | ⟨1, _⟩ => show win0_7.index t (1 : Fin 3) * 8 + 1 * a.val = a.val; omega
  | ⟨2, _⟩ => show win0_7.index t (2 : Fin 3) * 100 + 1 * k.val = k.val; omega

theorem emb_w8 (t : Fin cfg0.N) (gi : Fin 25) (hgi : gi.val = win0_19.index t (0 : Fin 3)) (a : Fin 1) (k : Fin 100) :
    ((cfg0.win 8).blk t).view.emb (ix3 (0 : Fin 1) a k) = (ix3 gi a k : S25x1x100.Idx) := by
  obtain ⟨e0, e1, e2⟩ := idx_w8 t
  funext ax; apply Fin.ext
  match ax with
  | ⟨0, _⟩ => show win0_8.index t (0 : Fin 3) * 1 + 1 * 0 = gi.val; omega
  | ⟨1, _⟩ => show win0_8.index t (1 : Fin 3) * 1 + 1 * a.val = a.val; omega
  | ⟨2, _⟩ => show win0_8.index t (2 : Fin 3) * 100 + 1 * k.val = k.val; omega

theorem emb_w9 (t : Fin cfg0.N) (gi : Fin 25) (hgi : gi.val = win0_19.index t (0 : Fin 3)) (a : Fin 100) (k : Fin 200) :
    ((cfg0.win 9).blk t).view.emb (ix3 (0 : Fin 1) a k) = (ix3 gi a k : S25x100x200.Idx) := by
  obtain ⟨e0, e1, e2⟩ := idx_w9 t
  funext ax; apply Fin.ext
  match ax with
  | ⟨0, _⟩ => show win0_9.index t (0 : Fin 3) * 1 + 1 * 0 = gi.val; omega
  | ⟨1, _⟩ => show win0_9.index t (1 : Fin 3) * 100 + 1 * a.val = a.val; omega
  | ⟨2, _⟩ => show win0_9.index t (2 : Fin 3) * 200 + 1 * k.val = k.val; omega

theorem emb_w10 (t : Fin cfg0.N) (gi : Fin 25) (hgi : gi.val = win0_19.index t (0 : Fin 3)) (a : Fin 1) (k : Fin 200) :
    ((cfg0.win 10).blk t).view.emb (ix3 (0 : Fin 1) a k) = (ix3 gi a k : S25x1x200.Idx) := by
  obtain ⟨e0, e1, e2⟩ := idx_w10 t
  funext ax; apply Fin.ext
  match ax with
  | ⟨0, _⟩ => show win0_10.index t (0 : Fin 3) * 1 + 1 * 0 = gi.val; omega
  | ⟨1, _⟩ => show win0_10.index t (1 : Fin 3) * 1 + 1 * a.val = a.val; omega
  | ⟨2, _⟩ => show win0_10.index t (2 : Fin 3) * 200 + 1 * k.val = k.val; omega

theorem emb_w11 (t : Fin cfg0.N) (gi : Fin 25) (hgi : gi.val = win0_19.index t (0 : Fin 3)) (a : Fin 200) (k : Fin 512) :
    ((cfg0.win 11).blk t).view.emb (ix3 (0 : Fin 1) a k) = (ix3 gi a k : S25x200x512.Idx) := by
  obtain ⟨e0, e1, e2⟩ := idx_w11 t
  funext ax; apply Fin.ext
  match ax with
  | ⟨0, _⟩ => show win0_11.index t (0 : Fin 3) * 1 + 1 * 0 = gi.val; omega
  | ⟨1, _⟩ => show win0_11.index t (1 : Fin 3) * 200 + 1 * a.val = a.val; omega
  | ⟨2, _⟩ => show win0_11.index t (2 : Fin 3) * 512 + 1 * k.val = k.val; omega

theorem emb_w12 (t : Fin cfg0.N) (gi : Fin 25) (hgi : gi.val = win0_19.index t (0 : Fin 3)) (a : Fin 1) (k : Fin 512) :
    ((cfg0.win 12).blk t).view.emb (ix3 (0 : Fin 1) a k) = (ix3 gi a k : S25x1x512.Idx) := by
  obtain ⟨e0, e1, e2⟩ := idx_w12 t
  funext ax; apply Fin.ext
  match ax with
  | ⟨0, _⟩ => show win0_12.index t (0 : Fin 3) * 1 + 1 * 0 = gi.val; omega
  | ⟨1, _⟩ => show win0_12.index t (1 : Fin 3) * 1 + 1 * a.val = a.val; omega
  | ⟨2, _⟩ => show win0_12.index t (2 : Fin 3) * 512 + 1 * k.val = k.val; omega

theorem emb_w13 (t : Fin cfg0.N) (gi : Fin 25) (hgi : gi.val = win0_19.index t (0 : Fin 3)) (a : Fin 8) (k : Fin 100) :
    ((cfg0.win 13).blk t).view.emb (ix3 (0 : Fin 1) a k) = (ix3 gi a k : S25x8x100.Idx) := by
  obtain ⟨e0, e1, e2⟩ := idx_w13 t
  funext ax; apply Fin.ext
  match ax with
  | ⟨0, _⟩ => show win0_13.index t (0 : Fin 3) * 1 + 1 * 0 = gi.val; omega
  | ⟨1, _⟩ => show win0_13.index t (1 : Fin 3) * 8 + 1 * a.val = a.val; omega
  | ⟨2, _⟩ => show win0_13.index t (2 : Fin 3) * 100 + 1 * k.val = k.val; omega

theorem emb_w14 (t : Fin cfg0.N) (gi : Fin 25) (hgi : gi.val = win0_19.index t (0 : Fin 3)) (a : Fin 1) (k : Fin 100) :
    ((cfg0.win 14).blk t).view.emb (ix3 (0 : Fin 1) a k) = (ix3 gi a k : S25x1x100.Idx) := by
  obtain ⟨e0, e1, e2⟩ := idx_w14 t
  funext ax; apply Fin.ext
  match ax with
  | ⟨0, _⟩ => show win0_14.index t (0 : Fin 3) * 1 + 1 * 0 = gi.val; omega
  | ⟨1, _⟩ => show win0_14.index t (1 : Fin 3) * 1 + 1 * a.val = a.val; omega
  | ⟨2, _⟩ => show win0_14.index t (2 : Fin 3) * 100 + 1 * k.val = k.val; omega

theorem emb_w15 (t : Fin cfg0.N) (gi : Fin 25) (hgi : gi.val = win0_19.index t (0 : Fin 3)) (a : Fin 100) (k : Fin 200) :
    ((cfg0.win 15).blk t).view.emb (ix3 (0 : Fin 1) a k) = (ix3 gi a k : S25x100x200.Idx) := by
  obtain ⟨e0, e1, e2⟩ := idx_w15 t
  funext ax; apply Fin.ext
  match ax with
  | ⟨0, _⟩ => show win0_15.index t (0 : Fin 3) * 1 + 1 * 0 = gi.val; omega
  | ⟨1, _⟩ => show win0_15.index t (1 : Fin 3) * 100 + 1 * a.val = a.val; omega
  | ⟨2, _⟩ => show win0_15.index t (2 : Fin 3) * 200 + 1 * k.val = k.val; omega

theorem emb_w16 (t : Fin cfg0.N) (gi : Fin 25) (hgi : gi.val = win0_19.index t (0 : Fin 3)) (a : Fin 1) (k : Fin 200) :
    ((cfg0.win 16).blk t).view.emb (ix3 (0 : Fin 1) a k) = (ix3 gi a k : S25x1x200.Idx) := by
  obtain ⟨e0, e1, e2⟩ := idx_w16 t
  funext ax; apply Fin.ext
  match ax with
  | ⟨0, _⟩ => show win0_16.index t (0 : Fin 3) * 1 + 1 * 0 = gi.val; omega
  | ⟨1, _⟩ => show win0_16.index t (1 : Fin 3) * 1 + 1 * a.val = a.val; omega
  | ⟨2, _⟩ => show win0_16.index t (2 : Fin 3) * 200 + 1 * k.val = k.val; omega

theorem emb_w17 (t : Fin cfg0.N) (gi : Fin 25) (hgi : gi.val = win0_19.index t (0 : Fin 3)) (a : Fin 200) (k : Fin 512) :
    ((cfg0.win 17).blk t).view.emb (ix3 (0 : Fin 1) a k) = (ix3 gi a k : S25x200x512.Idx) := by
  obtain ⟨e0, e1, e2⟩ := idx_w17 t
  funext ax; apply Fin.ext
  match ax with
  | ⟨0, _⟩ => show win0_17.index t (0 : Fin 3) * 1 + 1 * 0 = gi.val; omega
  | ⟨1, _⟩ => show win0_17.index t (1 : Fin 3) * 200 + 1 * a.val = a.val; omega
  | ⟨2, _⟩ => show win0_17.index t (2 : Fin 3) * 512 + 1 * k.val = k.val; omega

theorem emb_w18 (t : Fin cfg0.N) (gi : Fin 25) (hgi : gi.val = win0_19.index t (0 : Fin 3)) (a : Fin 1) (k : Fin 512) :
    ((cfg0.win 18).blk t).view.emb (ix3 (0 : Fin 1) a k) = (ix3 gi a k : S25x1x512.Idx) := by
  obtain ⟨e0, e1, e2⟩ := idx_w18 t
  funext ax; apply Fin.ext
  match ax with
  | ⟨0, _⟩ => show win0_18.index t (0 : Fin 3) * 1 + 1 * 0 = gi.val; omega
  | ⟨1, _⟩ => show win0_18.index t (1 : Fin 3) * 1 + 1 * a.val = a.val; omega
  | ⟨2, _⟩ => show win0_18.index t (2 : Fin 3) * 512 + 1 * k.val = k.val; omega

theorem emb_w19 (t : Fin cfg0.N) (g : Fin 4) (r : Fin 2048) (j : Fin 100) (e : Fin 100) (n : Fin 8192)
    (he : e.val = win0_19.index t (0 : Fin 3) * 4 + g.val) (hn : n.val = win0_19.index t (1 : Fin 3) * 2048 + r.val) :
    ((cfg0.win 19).blk t).view.emb (ix3 g r j) = (ix3 e n j : S100x8192x100.Idx) := by
  obtain ⟨o0, o1, o2, o3, o4, o5⟩ := idx_out t
  funext ax; apply Fin.ext
  match ax with
  | ⟨0, _⟩ => show win0_19.index t (0 : Fin 3) * 4 + 1 * g.val = e.val; omega
  | ⟨1, _⟩ => show win0_19.index t (1 : Fin 3) * 2048 + 1 * r.val = n.val; omega
  | ⟨2, _⟩ => show win0_19.index t (2 : Fin 3) * 100 + 1 * j.val = j.val; omega

theorem emb_w20 (t : Fin cfg0.N) (g : Fin 4) (r : Fin 2048) (j : Fin 100) (e : Fin 100) (n : Fin 8192)
    (he : e.val = win0_19.index t (0 : Fin 3) * 4 + g.val) (hn : n.val = win0_19.index t (1 : Fin 3) * 2048 + r.val) :
    ((cfg0.win 20).blk t).view.emb (ix3 g r j) = (ix3 e n j : S100x8192x100.Idx) := by
  obtain ⟨o0, o1, o2, o3, o4, o5⟩ := idx_out t
  funext ax; apply Fin.ext
  match ax with
  | ⟨0, _⟩ => show win0_20.index t (0 : Fin 3) * 4 + 1 * g.val = e.val; omega
  | ⟨1, _⟩ => show win0_20.index t (1 : Fin 3) * 2048 + 1 * r.val = n.val; omega
  | ⟨2, _⟩ => show win0_20.index t (2 : Fin 3) * 100 + 1 * j.val = j.val; omega

end Cert.KerBlock

end
-- ==== Proof.KerRead.lean ====
/-
  A grid point's staged blocks, read entry by entry: each is an entry of the packed array of the point's group
  (or, for the input rows, of the input itself).
-/
import proofs.«417956_j37340445671918_3_alg».proof.Proof.KerIdx

noncomputable section

namespace Cert.KerBlock

open Cert.KernelIdeal Cert.KernelIdeal.Gen Cert.KernelIdeal.Value Idealize.ShloMosaic Idealize.ShloMosaic.TcCoe Idealize.SL.Sem
open Idealize.ShloMosaic.ValueIdx Cert.Views Cert.Spec Cert.KerPay
open Idealize.ShloMosaic.Pipeline (Dat)

variable (m : (ℓ : Loc nD τ sig) → Buf (Elt Ideal) ℓ) (ρ : Dev nD → PrngReg)

/-! ## The staged arrays -/

/-- The region's contents of two equal buffer references. -/
theorem V_congr (c : Dev nD) {b b' : Ref sig .tc} (h : b = b') : HEq (V m c b) (V m c b') := by subst h; rfl

theorem ref0 : Pipeline.arrRef spec0 0 = main_arg0 := rfl
theorem V0_eq (c : Dev nD) : V m c (Pipeline.arrRef spec0 0) = V m c main_arg0 := eq_of_heq (V_congr m c ref0)

theorem ref1 : Pipeline.arrRef spec0 1 = main_v10 := rfl
theorem V1_eq (c : Dev nD) : V m c (Pipeline.arrRef spec0 1) = V m c main_v10 := eq_of_heq (V_congr m c ref1)

theorem ref2 : Pipeline.arrRef spec0 2 = main_v12 := rfl
theorem V2_eq (c : Dev nD) : V m c (Pipeline.arrRef spec0 2) = V m c main_v12 := eq_of_heq (V_congr m c ref2)

theorem ref3 : Pipeline.arrRef spec0 3 = main_v26 := rfl
theorem V3_eq (c : Dev nD) : V m c (Pipeline.arrRef spec0 3) = V m c main_v26 := eq_of_heq (V_congr m c ref3)

theorem ref4 : Pipeline.arrRef spec0 4 = main_v28 := rfl
theorem V4_eq (c : Dev nD) : V m c (Pipeline.arrRef spec0 4) = V m c main_v28 := eq_of_heq (V_congr m c ref4)

theorem ref5 : Pipeline.arrRef spec0 5 = main_v42 := rfl
theorem V5_eq (c : Dev nD) : V m c (Pipeline.arrRef spec0 5) = V m c main_v42 := eq_of_heq (V_congr m c ref5)

theorem ref6 : Pipeline.arrRef spec0 6 = main_v44 := rfl
theorem V6_eq (c : Dev nD) : V m c (Pipeline.arrRef spec0 6) = V m c main_v44 := eq_of_heq (V_congr m c ref6)

theorem ref7 : Pipeline.arrRef spec0 7 = main_v58 := rfl
theorem V7_eq (c : Dev nD) : V m c (Pipeline.arrRef spec0 7) = V m c main_v58 := eq_of_heq (V_congr m c ref7)

theorem ref8 : Pipeline.arrRef spec0 8 = main_v60 := rfl
theorem V8_eq (c : Dev nD) : V m c (Pipeline.arrRef spec0 8) = V m c main_v60 := eq_of_heq (V_congr m c ref8)

theorem ref9 : Pipeline.arrRef spec0 9 = main_v74 := rfl
theorem V9_eq (c : Dev nD) : V m c (Pipeline.arrRef spec0 9) = V m c main_v74 := eq_of_heq (V_congr m c ref9)

theorem ref10 : Pipeline.arrRef spec0 10 = main_v76 := rfl
theorem V10_eq (c : Dev nD) : V m c (Pipeline.arrRef spec0 10) = V m c main_v76 := eq_of_heq (V_congr m c ref10)

theorem ref11 : Pipeline.arrRef spec0 11 = main_v93 := rfl
theorem V11_eq (c : Dev nD) : V m c (Pipeline.arrRef spec0 11) = V m c main_v93 := eq_of_heq (V_congr m c ref11)

theorem ref12 : Pipeline.arrRef spec0 12 = main_v98 := rfl
theorem V12_eq (c : Dev nD) : V m c (Pipeline.arrRef spec0 12) = V m c main_v98 := eq_of_heq (V_congr m c ref12)

theorem ref13 : Pipeline.arrRef spec0 13 = main_v112 := rfl
theorem V13_eq (c : Dev nD) : V m c (Pipeline.arrRef spec0 13) = V m c main_v112 := eq_of_heq (V_congr m c ref13)

theorem ref14 : Pipeline.arrRef spec0 14 = main_v114 := rfl
theorem V14_eq (c : Dev nD) : V m c (Pipeline.arrRef spec0 14) = V m c main_v114 := eq_of_heq (V_congr m c ref14)

theorem ref15 : Pipeline.arrRef spec0 15 = main_v128 := rfl
theorem V15_eq (c : Dev nD) : V m c (Pipeline.arrRef spec0 15) = V m c main_v128 := eq_of_heq (V_congr m c ref15)

theorem ref16 : Pipeline.arrRef spec0 16 = main_v130 := rfl
theorem V16_eq (c : Dev nD) : V m c (Pipeline.arrRef spec0 16) = V m c main_v130 := eq_of_heq (V_congr m c ref16)

theorem ref17 : Pipeline.arrRef spec0 17 = main_v147 := rfl
theorem V17_eq (c : Dev nD) : V m c (Pipeline.arrRef spec0 17) = V m c main_v147 := eq_of_heq (V_congr m c ref17)

theorem ref18 : Pipeline.arrRef spec0 18 = main_v152 := rfl
theorem V18_eq (c : Dev nD) : V m c (Pipeline.arrRef spec0 18) = V m c main_v152 := eq_of_heq (V_congr m c ref18)

/-! ## A point's blocks, read entry by entry -/

theorem blk_read0 (t : Fin cfg0.N) (X : A2 8192 100) (y : S2048x100.Idx) :
    ((cfg0.win 0).blk t).view.read (Elt Ideal) X y = X (((cfg0.win 0).blk t).view.emb y) := rfl

theorem iblk0_raw (c : Dev nD) (t : Fin cfg0.N) (y : S2048x100.Idx) :
    iblk m c 0 t y = V m c (Pipeline.arrRef spec0 0) (((cfg0.win 0).blk t).view.emb y) := by
  unfold iblk
  exact blk_read0 t _ y

theorem blk_read1 (t : Fin cfg0.N) (X : A3 25 100 20) (y : S1x100x20.Idx) :
    ((cfg0.win 1).blk t).view.read (Elt Ideal) X y = X (((cfg0.win 1).blk t).view.emb y) := rfl

theorem iblk1_raw (c : Dev nD) (t : Fin cfg0.N) (y : S1x100x20.Idx) :
    iblk m c 1 t y = V m c (Pipeline.arrRef spec0 1) (((cfg0.win 1).blk t).view.emb y) := by
  unfold iblk
  exact blk_read1 t _ y

theorem blk_read2 (t : Fin cfg0.N) (X : A3 25 1 20) (y : S1x1x20.Idx) :
    ((cfg0.win 2).blk t).view.read (Elt Ideal) X y = X (((cfg0.win 2).blk t).view.emb y) := rfl

theorem iblk2_raw (c : Dev nD) (t : Fin cfg0.N) (y : S1x1x20.Idx) :
    iblk m c 2 t y = V m c (Pipeline.arrRef spec0 2) (((cfg0.win 2).blk t).view.emb y) := by
  unfold iblk
  exact blk_read2 t _ y

theorem blk_read3 (t : Fin cfg0.N) (X : A3 25 20 8) (y : S1x20x8.Idx) :
    ((cfg0.win 3).blk t).view.read (Elt Ideal) X y = X (((cfg0.win 3).blk t).view.emb y) := rfl

theorem iblk3_raw (c : Dev nD) (t : Fin cfg0.N) (y : S1x20x8.Idx) :
    iblk m c 3 t y = V m c (Pipeline.arrRef spec0 3) (((cfg0.win 3).blk t).view.emb y) := by
  unfold iblk
  exact blk_read3 t _ y

theorem blk_read4 (t : Fin cfg0.N) (X : A3 25 1 8) (y : S1x1x8.Idx) :
    ((cfg0.win 4).blk t).view.read (Elt Ideal) X y = X (((cfg0.win 4).blk t).view.emb y) := rfl

theorem iblk4_raw (c : Dev nD) (t : Fin cfg0.N) (y : S1x1x8.Idx) :
    iblk m c 4 t y = V m c (Pipeline.arrRef spec0 4) (((cfg0.win 4).blk t).view.emb y) := by
  unfold iblk
  exact blk_read4 t _ y

theorem blk_read5 (t : Fin cfg0.N) (X : A3 25 8 8) (y : S1x8x8.Idx) :
    ((cfg0.win 5).blk t).view.read (Elt Ideal) X y = X (((cfg0.win 5).blk t).view.emb y) := rfl

theorem iblk5_raw (c : Dev nD) (t : Fin cfg0.N) (y : S1x8x8.Idx) :
    iblk m c 5 t y = V m c (Pipeline.arrRef spec0 5) (((cfg0.win 5).blk t).view.emb y) := by
  unfold iblk
  exact blk_read5 t _ y

theorem blk_read6 (t : Fin cfg0.N) (X : A3 25 1 8) (y : S1x1x8.Idx) :
    ((cfg0.win 6).blk t).view.read (Elt Ideal) X y = X (((cfg0.win 6).blk t).view.emb y) := rfl

theorem iblk6_raw (c : Dev nD) (t : Fin cfg0.N) (y : S1x1x8.Idx) :
    iblk m c 6 t y = V m c (Pipeline.arrRef spec0 6) (((cfg0.win 6).blk t).view.emb y) := by
  unfold iblk
  exact blk_read6 t _ y

theorem blk_read7 (t : Fin cfg0.N) (X : A3 25 8 100) (y : S1x8x100.Idx) :
    ((cfg0.win 7).blk t).view.read (Elt Ideal) X y = X (((cfg0.win 7).blk t).view.emb y) := rfl

theorem iblk7_raw (c : Dev nD) (t : Fin cfg0.N) (y : S1x8x100.Idx) :
    iblk m c 7 t y = V m c (Pipeline.arrRef spec0 7) (((cfg0.win 7).blk t).view.emb y) := by
  unfold iblk
  exact blk_read7 t _ y

theorem blk_read8 (t : Fin cfg0.N) (X : A3 25 1 100) (y : S1x1x100.Idx) :
    ((cfg0.win 8).blk t).view.read (Elt Ideal) X y = X (((cfg0.win 8).blk t).view.emb y) := rfl

theorem iblk8_raw (c : Dev nD) (t : Fin cfg0.N) (y : S1x1x100.Idx) :
    iblk m c 8 t y = V m c (Pipeline.arrRef spec0 8) (((cfg0.win 8).blk t).view.emb y) := by
  unfold iblk
  exact blk_read8 t _ y

theorem blk_read9 (t : Fin cfg0.N) (X : A3 25 100 200) (y : S1x100x200.Idx) :
    ((cfg0.win 9).blk t).view.read (Elt Ideal) X y = X (((cfg0.win 9).blk t).view.emb y) := rfl

theorem iblk9_raw (c : Dev nD) (t : Fin cfg0.N) (y : S1x100x200.Idx) :
    iblk m c 9 t y = V m c (Pipeline.arrRef spec0 9) (((cfg0.win 9).blk t).view.emb y) := by
  unfold iblk
  exact blk_read9 t _ y

theorem blk_read10 (t : Fin cfg0.N) (X : A3 25 1 200) (y : S1x1x200.Idx) :
    ((cfg0.win 10).blk t).view.read (Elt Ideal) X y = X (((cfg0.win 10).blk t).view.emb y) := rfl

theorem iblk10_raw (c : Dev nD) (t : Fin cfg0.N) (y : S1x1x200.Idx) :
    iblk m c 10 t y = V m c (Pipeline.arrRef spec0 10) (((cfg0.win 10).blk t).view.emb y) := by
  unfold iblk
  exact blk_read10 t _ y

theorem blk_read11 (t : Fin cfg0.N) (X : A3 25 200 512) (y : S1x200x512.Idx) :
    ((cfg0.win 11).blk t).view.read (Elt Ideal) X y = X (((cfg0.win 11).blk t).view.emb y) := rfl

theorem iblk11_raw (c : Dev nD) (t : Fin cfg0.N) (y : S1x200x512.Idx) :
    iblk m c 11 t y = V m c (Pipeline.arrRef spec0 11) (((cfg0.win 11).blk t).view.emb y) := by
  unfold iblk
  exact blk_read11 t _ y

theorem blk_read12 (t : Fin cfg0.N) (X : A3 25 1 512) (y : S1x1x512.Idx) :
    ((cfg0.win 12).blk t).view.read (Elt Ideal) X y = X (((cfg0.win 12).blk t).view.emb y) := rfl

theorem iblk12_raw (c : Dev nD) (t : Fin cfg0.N) (y : S1x1x512.Idx) :
    iblk m c 12 t y = V m c (Pipeline.arrRef spec0 12) (((cfg0.win 12).blk t).view.emb y) := by
  unfold iblk
  exact blk_read12 t _ y

theorem blk_read13 (t : Fin cfg0.N) (X : A3 25 8 100) (y : S1x8x100.Idx) :
    ((cfg0.win 13).blk t).view.read (Elt Ideal) X y = X (((cfg0.win 13).blk t).view.emb y) := rfl

theorem iblk13_raw (c : Dev nD) (t : Fin cfg0.N) (y : S1x8x100.Idx) :
    iblk m c 13 t y = V m c (Pipeline.arrRef spec0 13) (((cfg0.win 13).blk t).view.emb y) := by
  unfold iblk
  exact blk_read13 t _ y

theorem blk_read14 (t : Fin cfg0.N) (X : A3 25 1 100) (y : S1x1x100.Idx) :
    ((cfg0.win 14).blk t).view.read (Elt Ideal) X y = X (((cfg0.win 14).blk t).view.emb y) := rfl

theorem iblk14_raw (c : Dev nD) (t : Fin cfg0.N) (y : S1x1x100.Idx) :
    iblk m c 14 t y = V m c (Pipeline.arrRef spec0 14) (((cfg0.win 14).blk t).view.emb y) := by
  unfold iblk
  exact blk_read14 t _ y

theorem blk_read15 (t : Fin cfg0.N) (X : A3 25 100 200) (y : S1x100x200.Idx) :
    ((cfg0.win 15).blk t).view.read (Elt Ideal) X y = X (((cfg0.win 15).blk t).view.emb y) := rfl

theorem iblk15_raw (c : Dev nD) (t : Fin cfg0.N) (y : S1x100x200.Idx) :
    iblk m c 15 t y = V m c (Pipeline.arrRef spec0 15) (((cfg0.win 15).blk t).view.emb y) := by
  unfold iblk
  exact blk_read15 t _ y

theorem blk_read16 (t : Fin cfg0.N) (X : A3 25 1 200) (y : S1x1x200.Idx) :
    ((cfg0.win 16).blk t).view.read (Elt Ideal) X y = X (((cfg0.win 16).blk t).view.emb y) := rfl

theorem iblk16_raw (c : Dev nD) (t : Fin cfg0.N) (y : S1x1x200.Idx) :
    iblk m c 16 t y = V m c (Pipeline.arrRef spec0 16) (((cfg0.win 16).blk t).view.emb y) := by
  unfold iblk
  exact blk_read16 t _ y

theorem blk_read17 (t : Fin cfg0.N) (X : A3 25 200 512) (y : S1x200x512.Idx) :
    ((cfg0.win 17).blk t).view.read (Elt Ideal) X y = X (((cfg0.win 17).blk t).view.emb y) := rfl

theorem iblk17_raw (c : Dev nD) (t : Fin cfg0.N) (y : S1x200x512.Idx) :
    iblk m c 17 t y = V m c (Pipeline.arrRef spec0 17) (((cfg0.win 17).blk t).view.emb y) := by
  unfold iblk
  exact blk_read17 t _ y

theorem blk_read18 (t : Fin cfg0.N) (X : A3 25 1 512) (y : S1x1x512.Idx) :
    ((cfg0.win 18).blk t).view.read (Elt Ideal) X y = X (((cfg0.win 18).blk t).view.emb y) := rfl

theorem iblk18_raw (c : Dev nD) (t : Fin cfg0.N) (y : S1x1x512.Idx) :
    iblk m c 18 t y = V m c (Pipeline.arrRef spec0 18) (((cfg0.win 18).blk t).view.emb y) := by
  unfold iblk
  exact blk_read18 t _ y

theorem read_w0 (c : Dev nD) (t : Fin cfg0.N) (r : Fin 2048) (d : Fin 100) (n : Fin 8192)
    (hn : n.val = win0_19.index t (1 : Fin 3) * 2048 + r.val) :
    iblk m c 0 t (ix2 r d) = (encP m c).x n d := by
  rw [iblk0_raw, emb_w0 t r d n hn]
  exact (congrFun (V0_eq m c) (ix2 n d)).trans (congrFun (V_main_arg0 m c) (ix2 n d))

theorem read_w1 (c : Dev nD) (idx : Fin 100 → Fin 10 → Fin 100) (hidx : Decodes (m ((c.tc : Thread nD τ).loc main_arg1)) idx) (t : Fin cfg0.N) (gi : Fin 25) (hgi : gi.val = win0_19.index t (0 : Fin 3)) (a : Fin 100) (k : Fin 20) :
    iblk m c 1 t (ix3 (0 : Fin 1) a k) = Spec.pkW0 (Spec.onehot idx) (encP m c).w0 gi a k.val := by
  rw [iblk1_raw, emb_w1 t gi hgi a k]
  exact (congrFun (V1_eq m c) (ix3 gi a k)).trans (KerHost.V_v10 m c idx hidx gi a k)

theorem read_w2 (c : Dev nD) (t : Fin cfg0.N) (gi : Fin 25) (hgi : gi.val = win0_19.index t (0 : Fin 3)) (k : Fin 20) :
    iblk m c 2 t (ix3 (0 : Fin 1) (0 : Fin 1) k) = Spec.pkB (encP m c).b0 gi k.val := by
  rw [iblk2_raw, emb_w2 t gi hgi 0 k]
  exact (congrFun (V2_eq m c) (ix3 gi 0 k)).trans (KerHost.V_v12 m c gi k)

theorem read_w3 (c : Dev nD) (t : Fin cfg0.N) (gi : Fin 25) (hgi : gi.val = win0_19.index t (0 : Fin 3)) (a : Fin 20) (k : Fin 8) :
    iblk m c 3 t (ix3 (0 : Fin 1) a k) = Spec.pkBD (encP m c).w1 gi a.val k.val := by
  rw [iblk3_raw, emb_w3 t gi hgi a k]
  exact (congrFun (V3_eq m c) (ix3 gi a k)).trans (KerHost.V_v26 m c gi a k)

theorem read_w4 (c : Dev nD) (t : Fin cfg0.N) (gi : Fin 25) (hgi : gi.val = win0_19.index t (0 : Fin 3)) (k : Fin 8) :
    iblk m c 4 t (ix3 (0 : Fin 1) (0 : Fin 1) k) = Spec.pkB (encP m c).b1 gi k.val := by
  rw [iblk4_raw, emb_w4 t gi hgi 0 k]
  exact (congrFun (V4_eq m c) (ix3 gi 0 k)).trans (KerHost.V_v28 m c gi k)

theorem read_w5 (c : Dev nD) (t : Fin cfg0.N) (gi : Fin 25) (hgi : gi.val = win0_19.index t (0 : Fin 3)) (a : Fin 8) (k : Fin 8) :
    iblk m c 5 t (ix3 (0 : Fin 1) a k) = Spec.pkBD (encP m c).w2 gi a.val k.val := by
  rw [iblk5_raw, emb_w5 t gi hgi a k]
  exact (congrFun (V5_eq m c) (ix3 gi a k)).trans (KerHost.V_v42 m c gi a k)

theorem read_w6 (c : Dev nD) (t : Fin cfg0.N) (gi : Fin 25) (hgi : gi.val = win0_19.index t (0 : Fin 3)) (k : Fin 8) :
    iblk m c 6 t (ix3 (0 : Fin 1) (0 : Fin 1) k) = Spec.pkB (encP m c).b2 gi k.val := by
  rw [iblk6_raw, emb_w6 t gi hgi 0 k]
  exact (congrFun (V6_eq m c) (ix3 gi 0 k)).trans (KerHost.V_v44 m c gi k)

theorem read_w7 (c : Dev nD) (t : Fin cfg0.N) (gi : Fin 25) (hgi : gi.val = win0_19.index t (0 : Fin 3)) (a : Fin 8) (k : Fin 100) :
    iblk m c 7 t (ix3 (0 : Fin 1) a k) = Spec.pkBD (decHi m c).w0 gi a.val k.val := by
  rw [iblk7_raw, emb_w7 t gi hgi a k]
  exact (congrFun (V7_eq m c) (ix3 gi a k)).trans (KerHost.V_v58 m c gi a k)

theorem read_w8 (c : Dev nD) (t : Fin cfg0.N) (gi : Fin 25) (hgi : gi.val = win0_19.index t (0 : Fin 3)) (k : Fin 100) :
    iblk m c 8 t (ix3 (0 : Fin 1) (0 : Fin 1) k) = Spec.pkB (decHi m c).b0 gi k.val := by
  rw [iblk8_raw, emb_w8 t gi hgi 0 k]
  exact (congrFun (V8_eq m c) (ix3 gi 0 k)).trans (KerHost.V_v60 m c gi k)

theorem read_w9 (c : Dev nD) (t : Fin cfg0.N) (gi : Fin 25) (hgi : gi.val = win0_19.index t (0 : Fin 3)) (a : Fin 100) (k : Fin 200) :
    iblk m c 9 t (ix3 (0 : Fin 1) a k) = Spec.pkBD (decHi m c).w1 gi a.val k.val := by
  rw [iblk9_raw, emb_w9 t gi hgi a k]
  exact (congrFun (V9_eq m c) (ix3 gi a k)).trans (KerHost.V_v74 m c gi a k)

theorem read_w10 (c : Dev nD) (t : Fin cfg0.N) (gi : Fin 25) (hgi : gi.val = win0_19.index t (0 : Fin 3)) (k : Fin 200) :
    iblk m c 10 t (ix3 (0 : Fin 1) (0 : Fin 1) k) = Spec.pkB (decHi m c).b1 gi k.val := by
  rw [iblk10_raw, emb_w10 t gi hgi 0 k]
  exact (congrFun (V10_eq m c) (ix3 gi 0 k)).trans (KerHost.V_v76 m c gi k)

theorem read_w11 (c : Dev nD) (t : Fin cfg0.N) (gi : Fin 25) (hgi : gi.val = win0_19.index t (0 : Fin 3)) (a : Fin 200) (k : Fin 512) :
    iblk m c 11 t (ix3 (0 : Fin 1) a k) = Spec.pkBDpad (decHi m c).w2 gi a.val k.val := by
  rw [iblk11_raw, emb_w11 t gi hgi a k]
  exact (congrFun (V11_eq m c) (ix3 gi a k)).trans (KerHost.V_v93 m c gi a k)

theorem read_w12 (c : Dev nD) (t : Fin cfg0.N) (gi : Fin 25) (hgi : gi.val = win0_19.index t (0 : Fin 3)) (k : Fin 512) :
    iblk m c 12 t (ix3 (0 : Fin 1) (0 : Fin 1) k) = Spec.pkBpad (decHi m c).b2 gi k.val := by
  rw [iblk12_raw, emb_w12 t gi hgi 0 k]
  exact (congrFun (V12_eq m c) (ix3 gi 0 k)).trans (KerHost.V_v98 m c gi k)

theorem read_w13 (c : Dev nD) (t : Fin cfg0.N) (gi : Fin 25) (hgi : gi.val = win0_19.index t (0 : Fin 3)) (a : Fin 8) (k : Fin 100) :
    iblk m c 13 t (ix3 (0 : Fin 1) a k) = Spec.pkBD (decLo m c).w0 gi a.val k.val := by
  rw [iblk13_raw, emb_w13 t gi hgi a k]
  exact (congrFun (V13_eq m c) (ix3 gi a k)).trans (KerHost.V_v112 m c gi a k)

theorem read_w14 (c : Dev nD) (t : Fin cfg0.N) (gi : Fin 25) (hgi : gi.val = win0_19.index t (0 : Fin 3)) (k : Fin 100) :
    iblk m c 14 t (ix3 (0 : Fin 1) (0 : Fin 1) k) = Spec.pkB (decLo m c).b0 gi k.val := by
  rw [iblk14_raw, emb_w14 t gi hgi 0 k]
  exact (congrFun (V14_eq m c) (ix3 gi 0 k)).trans (KerHost.V_v114 m c gi k)

theorem read_w15 (c : Dev nD) (t : Fin cfg0.N) (gi : Fin 25) (hgi : gi.val = win0_19.index t (0 : Fin 3)) (a : Fin 100) (k : Fin 200) :
    iblk m c 15 t (ix3 (0 : Fin 1) a k) = Spec.pkBD (decLo m c).w1 gi a.val k.val := by
  rw [iblk15_raw, emb_w15 t gi hgi a k]
  exact (congrFun (V15_eq m c) (ix3 gi a k)).trans (KerHost.V_v128 m c gi a k)

theorem read_w16 (c : Dev nD) (t : Fin cfg0.N) (gi : Fin 25) (hgi : gi.val = win0_19.index t (0 : Fin 3)) (k : Fin 200) :
    iblk m c 16 t (ix3 (0 : Fin 1) (0 : Fin 1) k) = Spec.pkB (decLo m c).b1 gi k.val := by
  rw [iblk16_raw, emb_w16 t gi hgi 0 k]
  exact (congrFun (V16_eq m c) (ix3 gi 0 k)).trans (KerHost.V_v130 m c gi k)

theorem read_w17 (c : Dev nD) (t : Fin cfg0.N) (gi : Fin 25) (hgi : gi.val = win0_19.index t (0 : Fin 3)) (a : Fin 200) (k : Fin 512) :
    iblk m c 17 t (ix3 (0 : Fin 1) a k) = Spec.pkBDpad (decLo m c).w2 gi a.val k.val := by
  rw [iblk17_raw, emb_w17 t gi hgi a k]
  exact (congrFun (V17_eq m c) (ix3 gi a k)).trans (KerHost.V_v147 m c gi a k)

theorem read_w18 (c : Dev nD) (t : Fin cfg0.N) (gi : Fin 25) (hgi : gi.val = win0_19.index t (0 : Fin 3)) (k : Fin 512) :
    iblk m c 18 t (ix3 (0 : Fin 1) (0 : Fin 1) k) = Spec.pkBpad (decLo m c).b2 gi k.val := by
  rw [iblk18_raw, emb_w18 t gi hgi 0 k]
  exact (congrFun (V18_eq m c) (ix3 gi 0 k)).trans (KerHost.V_v152 m c gi k)

end Cert.KerBlock

end
-- ==== Proof.KerFlush.lean ====
/-
  What one grid point writes back: entry `(g, r, j)` of the block is column `128 g + j` of the packed computation on
  row `2048 ri + r`, which is entry `j` of estimator `4 gi + g` on that row: the block is a block of the result array.
-/
import proofs.«417956_j37340445671918_3_alg».proof.Proof.KerRead

noncomputable section

namespace Cert.KerBlock

open Cert.KernelIdeal Cert.KernelIdeal.Gen Cert.KernelIdeal.Value Idealize.ShloMosaic Idealize.ShloMosaic.TcCoe Idealize.SL.Sem
open Idealize.ShloMosaic.ValueIdx Cert.Views Cert.Spec Cert.KerPay
open Idealize.ShloMosaic.Pipeline (Dat)

variable (m : (ℓ : Loc nD τ sig) → Buf (Elt Ideal) ℓ) (ρ : Dev nD → PrngReg)

/-! ## The packed chains over a point's blocks -/

theorem chainEnc_eq (x0 : Vec Ideal S2048x100 .f32) (x1 : Vec Ideal S1x100x20 .f32) (x2 : Vec Ideal S1x1x20 .f32) (x3 : Vec Ideal S1x20x8 .f32)
    (x4 : Vec Ideal S1x1x8 .f32) (x5 : Vec Ideal S1x8x8 .f32) (x6 : Vec Ideal S1x1x8 .f32) (r : Fin 2048)
    (X : Fin 100 → EReal) (W0 : Fin 100 → Fin 20 → EReal) (B0 : Fin 20 → EReal) (W1 : Fin 20 → Fin 8 → EReal) (B1 : Fin 8 → EReal)
    (W2 : Fin 8 → Fin 8 → EReal) (B2 : Fin 8 → EReal)
    (h0 : ∀ d, x0 (ix2 r d) = X d) (h1 : ∀ d k, x1 (ix3 0 d k) = W0 d k) (h2 : ∀ k, x2 (ix3 0 0 k) = B0 k)
    (h3 : ∀ a k, x3 (ix3 0 a k) = W1 a k) (h4 : ∀ k, x4 (ix3 0 0 k) = B1 k)
    (h5 : ∀ a k, x5 (ix3 0 a k) = W2 a k) (h6 : ∀ k, x6 (ix3 0 0 k) = B2 k) :
    chainEnc x0 x1 x2 x3 x4 x5 x6 r = lin (lin (lin X W0 B0) W1 B1) W2 B2 := by
  unfold chainEnc
  rw [show (fun d : Fin 100 => x0 (ix2 r d)) = X from funext h0,
    show (fun (d : Fin 100) (k : Fin 20) => x1 (ix3 0 d k)) = W0 from funext fun d => funext (h1 d),
    show (fun k : Fin 20 => x2 (ix3 0 0 k)) = B0 from funext h2,
    show (fun (a : Fin 20) (k : Fin 8) => x3 (ix3 0 a k)) = W1 from funext fun a => funext (h3 a),
    show (fun k : Fin 8 => x4 (ix3 0 0 k)) = B1 from funext h4,
    show (fun (a : Fin 8) (k : Fin 8) => x5 (ix3 0 a k)) = W2 from funext fun a => funext (h5 a),
    show (fun k : Fin 8 => x6 (ix3 0 0 k)) = B2 from funext h6]

theorem chainDec_eq (z : Fin 8 → EReal) (y0 : Vec Ideal S1x8x100 .f32) (y1 : Vec Ideal S1x1x100 .f32) (y2 : Vec Ideal S1x100x200 .f32)
    (y3 : Vec Ideal S1x1x200 .f32) (y4 : Vec Ideal S1x200x512 .f32) (y5 : Vec Ideal S1x1x512 .f32)
    (W0 : Fin 8 → Fin 100 → EReal) (B0 : Fin 100 → EReal) (W1 : Fin 100 → Fin 200 → EReal) (B1 : Fin 200 → EReal)
    (W2 : Fin 200 → Fin 512 → EReal) (B2 : Fin 512 → EReal)
    (h0 : ∀ a k, y0 (ix3 0 a k) = W0 a k) (h1 : ∀ k, y1 (ix3 0 0 k) = B0 k)
    (h2 : ∀ a k, y2 (ix3 0 a k) = W1 a k) (h3 : ∀ k, y3 (ix3 0 0 k) = B1 k)
    (h4 : ∀ a k, y4 (ix3 0 a k) = W2 a k) (h5 : ∀ k, y5 (ix3 0 0 k) = B2 k) :
    chainDec z y0 y1 y2 y3 y4 y5 = lin (lin (lin z W0 B0) W1 B1) W2 B2 := by
  unfold chainDec
  rw [show (fun (a : Fin 8) (k : Fin 100) => y0 (ix3 0 a k)) = W0 from funext fun a => funext (h0 a),
    show (fun k : Fin 100 => y1 (ix3 0 0 k)) = B0 from funext h1,
    show (fun (a : Fin 100) (k : Fin 200) => y2 (ix3 0 a k)) = W1 from funext fun a => funext (h2 a),
    show (fun k : Fin 200 => y3 (ix3 0 0 k)) = B1 from funext h3,
    show (fun (a : Fin 200) (k : Fin 512) => y4 (ix3 0 a k)) = W2 from funext fun a => funext (h4 a),
    show (fun k : Fin 512 => y5 (ix3 0 0 k)) = B2 from funext h5]

/-- The encoder chain over point `t`'s blocks is the packed encoder of the point's group on the point's row. -/
theorem chainEnc_point (c : Dev nD) (idx : Fin 100 → Fin 10 → Fin 100) (hidx : Decodes (m ((c.tc : Thread nD τ).loc main_arg1)) idx) (t : Fin cfg0.N)
    (gi : Fin 25) (hgi : gi.val = win0_19.index t (0 : Fin 3)) (r : Fin 2048) (n : Fin 8192)
    (hn : n.val = win0_19.index t (1 : Fin 3) * 2048 + r.val) :
    chainEnc (iblk m c 0 t) (iblk m c 1 t) (iblk m c 2 t) (iblk m c 3 t) (iblk m c 4 t) (iblk m c 5 t) (iblk m c 6 t) r = packedEnc (encP m c) idx gi n :=
  chainEnc_eq (iblk m c 0 t) (iblk m c 1 t) (iblk m c 2 t) (iblk m c 3 t) (iblk m c 4 t) (iblk m c 5 t) (iblk m c 6 t) r
      ((encP m c).x n) (fun (d : Fin 100) (k : Fin 20) => Spec.pkW0 (Spec.onehot idx) (encP m c).w0 gi d k.val) (fun k : Fin 20 => Spec.pkB (encP m c).b0 gi k.val)
      (fun (a : Fin 20) (k : Fin 8) => Spec.pkBD (encP m c).w1 gi a.val k.val) (fun k : Fin 8 => Spec.pkB (encP m c).b1 gi k.val)
      (fun (a : Fin 8) (k : Fin 8) => Spec.pkBD (encP m c).w2 gi a.val k.val) (fun k : Fin 8 => Spec.pkB (encP m c).b2 gi k.val)
      (fun d => read_w0 m c t r d n hn) (read_w1 m c idx hidx t gi hgi) (read_w2 m c t gi hgi) (read_w3 m c t gi hgi) (read_w4 m c t gi hgi) (read_w5 m c t gi hgi) (read_w6 m c t gi hgi)

theorem chainDecHi_point (c : Dev nD) (t : Fin cfg0.N) (gi : Fin 25) (hgi : gi.val = win0_19.index t (0 : Fin 3)) (z : Fin 8 → EReal) :
    chainDec z (iblk m c 7 t) (iblk m c 8 t) (iblk m c 9 t) (iblk m c 10 t) (iblk m c 11 t) (iblk m c 12 t) = packedDec (decHi m c) gi z :=
  chainDec_eq z (iblk m c 7 t) (iblk m c 8 t) (iblk m c 9 t) (iblk m c 10 t) (iblk m c 11 t) (iblk m c 12 t)
      (fun (a : Fin 8) (k : Fin 100) => Spec.pkBD (decHi m c).w0 gi a.val k.val) (fun k : Fin 100 => Spec.pkB (decHi m c).b0 gi k.val)
      (fun (a : Fin 100) (k : Fin 200) => Spec.pkBD (decHi m c).w1 gi a.val k.val) (fun k : Fin 200 => Spec.pkB (decHi m c).b1 gi k.val)
      (fun (a : Fin 200) (k : Fin 512) => Spec.pkBDpad (decHi m c).w2 gi a.val k.val) (fun k : Fin 512 => Spec.pkBpad (decHi m c).b2 gi k.val)
      (read_w7 m c t gi hgi) (read_w8 m c t gi hgi) (read_w9 m c t gi hgi) (read_w10 m c t gi hgi) (read_w11 m c t gi hgi) (read_w12 m c t gi hgi)

theorem chainDecLo_point (c : Dev nD) (t : Fin cfg0.N) (gi : Fin 25) (hgi : gi.val = win0_19.index t (0 : Fin 3)) (z : Fin 8 → EReal) :
    chainDec z (iblk m c 13 t) (iblk m c 14 t) (iblk m c 15 t) (iblk m c 16 t) (iblk m c 17 t) (iblk m c 18 t) = packedDec (decLo m c) gi z :=
  chainDec_eq z (iblk m c 13 t) (iblk m c 14 t) (iblk m c 15 t) (iblk m c 16 t) (iblk m c 17 t) (iblk m c 18 t)
      (fun (a : Fin 8) (k : Fin 100) => Spec.pkBD (decLo m c).w0 gi a.val k.val) (fun k : Fin 100 => Spec.pkB (decLo m c).b0 gi k.val)
      (fun (a : Fin 100) (k : Fin 200) => Spec.pkBD (decLo m c).w1 gi a.val k.val) (fun k : Fin 200 => Spec.pkB (decLo m c).b1 gi k.val)
      (fun (a : Fin 200) (k : Fin 512) => Spec.pkBDpad (decLo m c).w2 gi a.val k.val) (fun k : Fin 512 => Spec.pkBpad (decLo m c).b2 gi k.val)
      (read_w13 m c t gi hgi) (read_w14 m c t gi hgi) (read_w15 m c t gi hgi) (read_w16 m c t gi hgi) (read_w17 m c t gi hgi) (read_w18 m c t gi hgi)

theorem cut19_apply (t : Fin cfg0.N) (f : Vec Ideal S4x2048x100 .f32) (y : S4x2048x100.Idx) :
    (cfg0.win 19).cut (grid0.coords t) f y = f y := rfl

theorem read19_apply (t : Fin cfg0.N) (X : A3 100 8192 100) (y : S4x2048x100.Idx) :
    ((cfg0.win 19).blk t).view.read (Elt Ideal) X y = X (((cfg0.win 19).blk t).view.emb y) := rfl

/-- What point `t` writes back to the first result is block `t` of the result array `G`. -/
theorem flushed19_eq (c : Dev nD) (idx : Fin 100 → Fin 10 → Fin 100) (hidx : Decodes (m ((c.tc : Thread nD τ).loc main_arg1)) idx)
    (hx : ∀ n d, ∃ r : ℝ, (encP m c).x n d = (r : EReal)) (hw0 : ∀ e f k, ∃ r : ℝ, (encP m c).w0 e f k = (r : EReal)) (t : Fin cfg0.N) :
    (dats m 0 c).flushed 19 t = ((cfg0.win 19).blk t).view.read (Elt Ideal) (G (encP m c) (decHi m c) idx) := by
  rw [flushed19]
  funext y
  obtain ⟨g, r, j, rfl⟩ : ∃ (g : Fin 4) (r : Fin 2048) (j : Fin 100), y = ix3 g r j := ⟨y 0, y 1, y 2, eq_ix3 y⟩
  obtain ⟨o0, o1, o2, o3, o4, o5⟩ := idx_out t
  have hr := r.isLt
  have hg := g.isLt
  obtain ⟨gi, hgi⟩ : ∃ gi : Fin 25, gi.val = win0_19.index t (0 : Fin 3) := ⟨⟨_, o0⟩, rfl⟩
  obtain ⟨n, hn⟩ : ∃ n : Fin 8192, n.val = win0_19.index t (1 : Fin 3) * 2048 + r.val := ⟨⟨_, by omega⟩, rfl⟩
  refine (cut19_apply t _ _).trans ?_
  refine Eq.trans ?_ (read19_apply t _ _).symm
  rw [emb_w19 t g r j (fm 100 (4 * gi.val + g.val)) n (by show (4 * gi.val + g.val) % 100 = _; omega) hn, G_apply,
    ← packed_eq (encP m c) (decHi m c) idx hx hw0 gi n g j]
  refine (out19_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) g r j).trans ?_
  rw [chainEnc_point m c idx hidx t gi hgi r n hn, chainDecHi_point m c t gi hgi]
  rfl

theorem cut20_apply (t : Fin cfg0.N) (f : Vec Ideal S4x2048x100 .f32) (y : S4x2048x100.Idx) :
    (cfg0.win 20).cut (grid0.coords t) f y = f y := rfl

theorem read20_apply (t : Fin cfg0.N) (X : A3 100 8192 100) (y : S4x2048x100.Idx) :
    ((cfg0.win 20).blk t).view.read (Elt Ideal) X y = X (((cfg0.win 20).blk t).view.emb y) := rfl

/-- What point `t` writes back to the second result is block `t` of the result array `G`. -/
theorem flushed20_eq (c : Dev nD) (idx : Fin 100 → Fin 10 → Fin 100) (hidx : Decodes (m ((c.tc : Thread nD τ).loc main_arg1)) idx)
    (hx : ∀ n d, ∃ r : ℝ, (encP m c).x n d = (r : EReal)) (hw0 : ∀ e f k, ∃ r : ℝ, (encP m c).w0 e f k = (r : EReal)) (t : Fin cfg0.N) :
    (dats m 0 c).flushed 20 t = ((cfg0.win 20).blk t).view.read (Elt Ideal) (G (encP m c) (decLo m c) idx) := by
  rw [flushed20]
  funext y
  obtain ⟨g, r, j, rfl⟩ : ∃ (g : Fin 4) (r : Fin 2048) (j : Fin 100), y = ix3 g r j := ⟨y 0, y 1, y 2, eq_ix3 y⟩
  obtain ⟨o0, o1, o2, o3, o4, o5⟩ := idx_out t
  have hr := r.isLt
  have hg := g.isLt
  obtain ⟨gi, hgi⟩ : ∃ gi : Fin 25, gi.val = win0_19.index t (0 : Fin 3) := ⟨⟨_, o0⟩, rfl⟩
  obtain ⟨n, hn⟩ : ∃ n : Fin 8192, n.val = win0_19.index t (1 : Fin 3) * 2048 + r.val := ⟨⟨_, by omega⟩, rfl⟩
  refine (cut20_apply t _ _).trans ?_
  refine Eq.trans ?_ (read20_apply t _ _).symm
  rw [emb_w20 t g r j (fm 100 (4 * gi.val + g.val)) n (by show (4 * gi.val + g.val) % 100 = _; omega) hn, G_apply,
    ← packed_eq (encP m c) (decLo m c) idx hx hw0 gi n g j]
  refine (out20_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) g r j).trans ?_
  rw [chainEnc_point m c idx hidx t gi hgi r n hn, chainDecLo_point m c t gi hgi]
  rfl

end Cert.KerBlock

end
-- ==== Proof.KerBlock.lean ====
/-
  The 100 blocks the grid points write back tile each result array, so each array ends at `G`.
-/
import proofs.«417956_j37340445671918_3_alg».proof.Proof.KerFlush

noncomputable section

namespace Cert.KerBlock

open Cert.KernelIdeal Cert.KernelIdeal.Gen Cert.KernelIdeal.Value Idealize.ShloMosaic Idealize.ShloMosaic.TcCoe Idealize.SL.Sem
open Idealize.ShloMosaic.ValueIdx Cert.Views Cert.Spec Cert.KerPay
open Idealize.ShloMosaic.Pipeline (Dat)

variable (m : (ℓ : Loc nD τ sig) → Buf (Elt Ideal) ℓ) (ρ : Dev nD → PrngReg)

theorem mem_blk19 (t : Fin cfg0.N) (i : S100x8192x100.Idx) :
    i ∈ ((cfg0.win 19).blk t).view.set ↔ ∀ a : Fin 3, win0_19.index t a * S4x2048x100.size a ≤ (i a).val ∧ (i a).val < win0_19.index t a * S4x2048x100.size a + S4x2048x100.size a := by
  show i ∈ ((View.whole main_v153_0).slice (win0_19.rect t)).set ↔ _
  rw [View.set_slice_whole, Rect.mem_set_unit]
  exact Iff.rfl

/-- Every block index `(gi, ri, 0)` is some grid point's. -/
theorem idx_onto19 : ∀ (q0 : Fin 25) (q1 : Fin 4), ∃ t : Fin cfg0.N, win0_19.index t = ![q0.val, q1.val, 0] :=
  (by decide +kernel : ∀ (q0 : Fin 25) (q1 : Fin 4), ∃ t : Fin grid0.N, win0_19.index t = ![q0.val, q1.val, 0])

/-- The blocks tile the result array: entry `(e, n, j)` lies in the block of group `e / 4` and row chunk `n / 2048`. -/
theorem cover19 (i : S100x8192x100.Idx) : ∃ t : Fin cfg0.N, (cfg0.win 19).flush t = true ∧ i ∈ ((cfg0.win 19).blk t).view.set := by
  have hi0 : (i 0).val < 100 := (i 0).isLt
  have hi1 : (i 1).val < 8192 := (i 1).isLt
  have hi2 : (i 2).val < 100 := (i 2).isLt
  obtain ⟨t, ht⟩ := idx_onto19 ⟨(i 0).val / 4, by omega⟩ ⟨(i 1).val / 2048, by omega⟩
  have q0 : win0_19.index t (0 : Fin 3) = (i 0).val / 4 := congrFun ht 0
  have q1 : win0_19.index t (1 : Fin 3) = (i 1).val / 2048 := congrFun ht 1
  have q2 : win0_19.index t (2 : Fin 3) = 0 := congrFun ht 2
  refine ⟨t, flush0_19 t, ?_⟩
  rw [mem_blk19]
  intro a
  match a with
  | ⟨0, _⟩ => show win0_19.index t (0 : Fin 3) * 4 ≤ (i 0).val ∧ (i 0).val < win0_19.index t (0 : Fin 3) * 4 + 4; omega
  | ⟨1, _⟩ => show win0_19.index t (1 : Fin 3) * 2048 ≤ (i 1).val ∧ (i 1).val < win0_19.index t (1 : Fin 3) * 2048 + 2048; omega
  | ⟨2, _⟩ => show win0_19.index t (2 : Fin 3) * 100 ≤ (i 2).val ∧ (i 2).val < win0_19.index t (2 : Fin 3) * 100 + 100; omega

theorem mem_blk20 (t : Fin cfg0.N) (i : S100x8192x100.Idx) :
    i ∈ ((cfg0.win 20).blk t).view.set ↔ ∀ a : Fin 3, win0_20.index t a * S4x2048x100.size a ≤ (i a).val ∧ (i a).val < win0_20.index t a * S4x2048x100.size a + S4x2048x100.size a := by
  show i ∈ ((View.whole main_v153_1).slice (win0_20.rect t)).set ↔ _
  rw [View.set_slice_whole, Rect.mem_set_unit]
  exact Iff.rfl

/-- Every block index `(gi, ri, 0)` is some grid point's. -/
theorem idx_onto20 : ∀ (q0 : Fin 25) (q1 : Fin 4), ∃ t : Fin cfg0.N, win0_20.index t = ![q0.val, q1.val, 0] :=
  (by decide +kernel : ∀ (q0 : Fin 25) (q1 : Fin 4), ∃ t : Fin grid0.N, win0_20.index t = ![q0.val, q1.val, 0])

/-- The blocks tile the result array: entry `(e, n, j)` lies in the block of group `e / 4` and row chunk `n / 2048`. -/
theorem cover20 (i : S100x8192x100.Idx) : ∃ t : Fin cfg0.N, (cfg0.win 20).flush t = true ∧ i ∈ ((cfg0.win 20).blk t).view.set := by
  have hi0 : (i 0).val < 100 := (i 0).isLt
  have hi1 : (i 1).val < 8192 := (i 1).isLt
  have hi2 : (i 2).val < 100 := (i 2).isLt
  obtain ⟨t, ht⟩ := idx_onto20 ⟨(i 0).val / 4, by omega⟩ ⟨(i 1).val / 2048, by omega⟩
  have q0 : win0_20.index t (0 : Fin 3) = (i 0).val / 4 := congrFun ht 0
  have q1 : win0_20.index t (1 : Fin 3) = (i 1).val / 2048 := congrFun ht 1
  have q2 : win0_20.index t (2 : Fin 3) = 0 := congrFun ht 2
  refine ⟨t, flush0_20 t, ?_⟩
  rw [mem_blk20]
  intro a
  match a with
  | ⟨0, _⟩ => show win0_20.index t (0 : Fin 3) * 4 ≤ (i 0).val ∧ (i 0).val < win0_20.index t (0 : Fin 3) * 4 + 4; omega
  | ⟨1, _⟩ => show win0_20.index t (1 : Fin 3) * 2048 ≤ (i 1).val ∧ (i 1).val < win0_20.index t (1 : Fin 3) * 2048 + 2048; omega
  | ⟨2, _⟩ => show win0_20.index t (2 : Fin 3) * 100 ≤ (i 2).val ∧ (i 2).val < win0_20.index t (2 : Fin 3) * 100 + 100; omega

/-- The first result array after the run. -/
theorem final19 (c : Dev nD) (idx : Fin 100 → Fin 10 → Fin 100) (hidx : Decodes (m ((c.tc : Thread nD τ).loc main_arg1)) idx)
    (hx : ∀ n d, ∃ r : ℝ, (encP m c).x n d = (r : EReal)) (hw0 : ∀ e f k, ∃ r : ℝ, (encP m c).w0 e f k = (r : EReal)) :
    (dats m 0 c).arrAt 19 cfg0.N = G (encP m c) (decHi m c) idx :=
  (dats m 0 c).arrAt_eq_of_cover 19 (G (encP m c) (decHi m c) idx) (fun t _ => flushed19_eq m c idx hidx hx hw0 t) cover19

/-- The second result array after the run. -/
theorem final20 (c : Dev nD) (idx : Fin 100 → Fin 10 → Fin 100) (hidx : Decodes (m ((c.tc : Thread nD τ).loc main_arg1)) idx)
    (hx : ∀ n d, ∃ r : ℝ, (encP m c).x n d = (r : EReal)) (hw0 : ∀ e f k, ∃ r : ℝ, (encP m c).w0 e f k = (r : EReal)) :
    (dats m 0 c).arrAt 20 cfg0.N = G (encP m c) (decLo m c) idx :=
  (dats m 0 c).arrAt_eq_of_cover 20 (G (encP m c) (decLo m c) idx) (fun t _ => flushed20_eq m c idx hidx hx hw0 t) cover20

end Cert.KerBlock

end
-- ==== Proof.RefTerm.lean ====
/-
  The reference's result as one term of its argument arrays: the column gather, then for each layer a batched
  product over the estimator axis plus a bias broadcast along the rows, the decoder applied twice to the one latent.
  Each definition is the operations of the reference's program in their order, nothing more; they are stated for any
  float values.
-/
import proofs.«417956_j37340445671918_3_alg».proof.ReferenceIdeal
import proofs.«417956_j37340445671918_3_alg».proof.Proof.Gen.ReferenceIdeal

noncomputable section

namespace Cert.RefTerm

open Cert.ReferenceIdeal Cert.ReferenceIdeal.Gen Idealize.ShloMosaic Idealize.ShloMosaic.TcCoe Idealize.SL.Sem

variable {F : FTy → Type} [FloatOps F]

/-- A vector's type by shape and element type, as the host operations spell it. -/
abbrev T (s : Shape) (e : EltTy) := (⟨s, e⟩ : BufTy).Contents (Elt F)

/-- The index words with a negative one moved up by the row length (numpy's wrap-around). -/
def wrapped (rs : T (F := F) S100x10 .i32) : T (F := F) S100x10 .i32 :=
  select (cmpi .slt rs (broadcastInDim S100x10 ![] bcast_S_S100x10 (constantI S_ 32 0#32)))
    (addi rs (broadcastInDim S100x10 ![] bcast_S_S100x10 (constantI S_ 32 100#32))) rs

/-- The wrapped index words as the gather's start indices, a trailing unit axis added. -/
def starts (rs : T (F := F) S100x10 .i32) : T (F := F) S100x10x1 .i32 :=
  broadcastInDim S100x10x1 ![0, 1] bcast_S100x10_S100x10x1_0_1 (wrapped rs)

/-- Which wrapped index words lie in `[0, 99]`. -/
def inRange (rs : T (F := F) S100x10 .i32) : T (F := F) S100x10 .i1 :=
  Host.reduce IntOp.andi
    (andi (cmpi .sge (starts rs) (broadcastInDim S100x10x1 ![] bcast_S_S100x10x1 (constantI S_ 32 0#32)))
      (cmpi .sle (starts rs) (broadcastInDim S100x10x1 ![0, 1, 2] bcast_S1x1x1_S100x10x1_0_1_2
        (broadcastInDim S1x1x1 ![2] bcast_S1_S1x1x1_2 (constantI S1 32 99#32)))))
    (constantI S_ 1 1#1) reducesTo_S100x10x1_S100x10_d2 h_S_

/-- The chosen columns: entry `(n, e, f)` is column `rs e f` of row `n` where that index is in range, and the
    fill word elsewhere. -/
def taken (x : T (F := F) S8192x100 .f32) (rs : T (F := F) S100x10 .i32) : T (F := F) S8192x100x10 .f32 :=
  select (broadcastInDim S8192x100x10 ![1, 2] bcast_S100x10_S8192x100x10_1_2 (inRange rs))
    (Host.gather gather_S8192x100_S100x10x1_S8192x100x10_0_1_n_n_1_2_81921 x (starts rs))
    (broadcastInDim S8192x100x10 ![] bcast_S_S8192x100x10 (constant S_ .f32 0x7FC00000#32))

/-- The chosen columns with the estimator axis in front. -/
def gathered (x : T (F := F) S8192x100 .f32) (rs : T (F := F) S100x10 .i32) : T (F := F) S100x8192x10 .f32 :=
  transpose S100x8192x10 [1, 0, 2] (taken x rs) transposes_S8192x100x10_S100x8192x10_1_0_2

/-- The six layers, by their sizes: a product batched over the estimators, plus the bias along the rows. -/
def lay10_5 (a : T (F := F) S100x8192x10 .f32) (w : T (F := F) S100x10x5 .f32) (b : T (F := F) S100x5 .f32) : T (F := F) S100x8192x5 .f32 :=
  addf (Host.dotGeneral dot_S100x8192x10_S100x10x5_S100x8192x5_2_1_1_2_0_0 none a w)
    (broadcastInDim S100x8192x5 ![0, 1, 2] bcast_S100x1x5_S100x8192x5_0_1_2 (broadcastInDim S100x1x5 ![0, 2] bcast_S100x5_S100x1x5_0_2 b))
def lay5_2 (a : T (F := F) S100x8192x5 .f32) (w : T (F := F) S100x5x2 .f32) (b : T (F := F) S100x2 .f32) : T (F := F) S100x8192x2 .f32 :=
  addf (Host.dotGeneral dot_S100x8192x5_S100x5x2_S100x8192x2_2_1_1_2_0_0 none a w)
    (broadcastInDim S100x8192x2 ![0, 1, 2] bcast_S100x1x2_S100x8192x2_0_1_2 (broadcastInDim S100x1x2 ![0, 2] bcast_S100x2_S100x1x2_0_2 b))
def lay2_2 (a : T (F := F) S100x8192x2 .f32) (w : T (F := F) S100x2x2 .f32) (b : T (F := F) S100x2 .f32) : T (F := F) S100x8192x2 .f32 :=
  addf (Host.dotGeneral dot_S100x8192x2_S100x2x2_S100x8192x2_2_1_1_2_0_0 none a w)
    (broadcastInDim S100x8192x2 ![0, 1, 2] bcast_S100x1x2_S100x8192x2_0_1_2 (broadcastInDim S100x1x2 ![0, 2] bcast_S100x2_S100x1x2_0_2 b))
def lay2_25 (a : T (F := F) S100x8192x2 .f32) (w : T (F := F) S100x2x25 .f32) (b : T (F := F) S100x25 .f32) : T (F := F) S100x8192x25 .f32 :=
  addf (Host.dotGeneral dot_S100x8192x2_S100x2x25_S100x8192x25_2_1_1_2_0_0 none a w)
    (broadcastInDim S100x8192x25 ![0, 1, 2] bcast_S100x1x25_S100x8192x25_0_1_2 (broadcastInDim S100x1x25 ![0, 2] bcast_S100x25_S100x1x25_0_2 b))
def lay25_50 (a : T (F := F) S100x8192x25 .f32) (w : T (F := F) S100x25x50 .f32) (b : T (F := F) S100x50 .f32) : T (F := F) S100x8192x50 .f32 :=
  addf (Host.dotGeneral dot_S100x8192x25_S100x25x50_S100x8192x50_2_1_1_2_0_0 none a w)
    (broadcastInDim S100x8192x50 ![0, 1, 2] bcast_S100x1x50_S100x8192x50_0_1_2 (broadcastInDim S100x1x50 ![0, 2] bcast_S100x50_S100x1x50_0_2 b))
def lay50_100 (a : T (F := F) S100x8192x50 .f32) (w : T (F := F) S100x50x100 .f32) (b : T (F := F) S100x100 .f32) : T (F := F) S100x8192x100 .f32 :=
  addf (Host.dotGeneral dot_S100x8192x50_S100x50x100_S100x8192x100_2_1_1_2_0_0 none a w)
    (broadcastInDim S100x8192x100 ![0, 1, 2] bcast_S100x1x100_S100x8192x100_0_1_2 (broadcastInDim S100x1x100 ![0, 2] bcast_S100x100_S100x1x100_0_2 b))

/-- The latent pairs: the three encoder layers on the chosen columns. -/
def latent (x : T (F := F) S8192x100 .f32) (rs : T (F := F) S100x10 .i32)
    (w0 : T (F := F) S100x10x5 .f32) (b0 : T (F := F) S100x5 .f32) (w1 : T (F := F) S100x5x2 .f32) (b1 : T (F := F) S100x2 .f32)
    (w2 : T (F := F) S100x2x2 .f32) (b2 : T (F := F) S100x2 .f32) : T (F := F) S100x8192x2 .f32 :=
  lay2_2 (lay5_2 (lay10_5 (gathered x rs) w0 b0) w1 b1) w2 b2

/-- One decoder on the latent pairs. -/
def decoded (z : T (F := F) S100x8192x2 .f32)
    (w0 : T (F := F) S100x2x25 .f32) (b0 : T (F := F) S100x25 .f32) (w1 : T (F := F) S100x25x50 .f32) (b1 : T (F := F) S100x50 .f32)
    (w2 : T (F := F) S100x50x100 .f32) (b2 : T (F := F) S100x100 .f32) : T (F := F) S100x8192x100 .f32 :=
  lay50_100 (lay25_50 (lay2_25 z w0 b0) w1 b1) w2 b2

end Cert.RefTerm

end
-- ==== Proof.RefRun.lean ====
/-
  The reference's run: its @main is a straight line of host operations (the two outlined functions opened at their
  calls), so every weakly fair execution ends with each result array at the operations' composed term of the
  argument arrays — the terms of RefTerm — and the arguments as they were.
-/
import proofs.«417956_j37340445671918_3_alg».proof.Proof.RefTerm
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's sixty operations in order, the two outlined functions opened at their calls: the column gather's
    twenty-three over the call's own buffers (the index words wrapped — the wrap's select is the inner function's one
    operation —, the wrapped words as start indices, the range test folded over its unit axis, the gather, the fill
    where the test fails), then the transpose and, per layer, the batched product, the bias broadcast in two steps and
    the sum: three layers to the latent pairs, then each decoder's three layers on them. -/
abbrev ops : List (HloOp τ sig (Elt F)) :=
  [ TRef.nullary main_call0.c (constantI S_ 32 0#32),
    TRef.unary main_call0.c main_call0.v0 (broadcastInDim S100x10 ![] bcast_S_S100x10),
    TRef.binary (.of main_arg1) main_call0.v0 main_call0.v1 (cmpi .slt),
    TRef.nullary main_call0.c_0 (constantI S_ 32 100#32),
    TRef.unary main_call0.c_0 main_call0.v2 (broadcastInDim S100x10 ![] bcast_S_S100x10),
    TRef.binary (.of main_arg1) main_call0.v2 main_call0.v3 addi,
    TRef.ternary main_call0.v1 main_call0.v3 (.of main_arg1) main_call0.call0.v0 select,
    TRef.unary main_call0.call0.v0 main_call0.v5 (broadcastInDim S100x10x1 ![0, 1] bcast_S100x10_S100x10x1_0_1),
    TRef.nullary main_call0.c_1 (constantI S1 32 99#32),
    TRef.nullary main_call0.c_2 (constantI S_ 32 0#32),
    TRef.unary main_call0.c_2 main_call0.v6 (broadcastInDim S100x10x1 ![] bcast_S_S100x10x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S100x10x1 ![0, 1, 2] bcast_S1x1x1_S100x10x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S100x10x1_S100x10_d2 h_S_),
    TRef.binary (.of main_arg0) main_call0.v5 main_call0.v13 (fun x i => Host.gather gather_S8192x100_S100x10x1_S8192x100x10_0_1_n_n_1_2_81921 x i),
    TRef.unary main_call0.v12 main_call0.v14 (broadcastInDim S8192x100x10 ![1, 2] bcast_S100x10_S8192x100x10_1_2),
    TRef.nullary main_call0.cst (constant S_ .f32 0x7FC00000#32),
    TRef.unary main_call0.cst main_call0.v15 (broadcastInDim S8192x100x10 ![] bcast_S_S8192x100x10),
    TRef.ternary main_call0.v14 main_call0.v13 main_call0.v15 main_call0.v16 select,
    unary main_v0 main_v1 (transpose S100x8192x10 [1, 0, 2] · transposes_S8192x100x10_S100x8192x10_1_0_2),
    binary main_v1 main_arg2 main_v2 (fun l r => Host.dotGeneral dot_S100x8192x10_S100x10x5_S100x8192x5_2_1_1_2_0_0 none l r),
    unary main_arg3 main_v3 (broadcastInDim S100x1x5 ![0, 2] bcast_S100x5_S100x1x5_0_2),
    unary main_v3 main_v4 (broadcastInDim S100x8192x5 ![0, 1, 2] bcast_S100x1x5_S100x8192x5_0_1_2),
    binary main_v2 main_v4 main_v5 addf,
    binary main_v5 main_arg4 main_v6 (fun l r => Host.dotGeneral dot_S100x8192x5_S100x5x2_S100x8192x2_2_1_1_2_0_0 none l r),
    unary main_arg5 main_v7 (broadcastInDim S100x1x2 ![0, 2] bcast_S100x2_S100x1x2_0_2),
    unary main_v7 main_v8 (broadcastInDim S100x8192x2 ![0, 1, 2] bcast_S100x1x2_S100x8192x2_0_1_2),
    binary main_v6 main_v8 main_v9 addf,
    binary main_v9 main_arg6 main_v10 (fun l r => Host.dotGeneral dot_S100x8192x2_S100x2x2_S100x8192x2_2_1_1_2_0_0 none l r),
    unary main_arg7 main_v11 (broadcastInDim S100x1x2 ![0, 2] bcast_S100x2_S100x1x2_0_2),
    unary main_v11 main_v12 (broadcastInDim S100x8192x2 ![0, 1, 2] bcast_S100x1x2_S100x8192x2_0_1_2),
    binary main_v10 main_v12 main_v13 addf,
    binary main_v13 main_arg8 main_v14 (fun l r => Host.dotGeneral dot_S100x8192x2_S100x2x25_S100x8192x25_2_1_1_2_0_0 none l r),
    unary main_arg9 main_v15 (broadcastInDim S100x1x25 ![0, 2] bcast_S100x25_S100x1x25_0_2),
    unary main_v15 main_v16 (broadcastInDim S100x8192x25 ![0, 1, 2] bcast_S100x1x25_S100x8192x25_0_1_2),
    binary main_v14 main_v16 main_v17 addf,
    binary main_v17 main_arg10 main_v18 (fun l r => Host.dotGeneral dot_S100x8192x25_S100x25x50_S100x8192x50_2_1_1_2_0_0 none l r),
    unary main_arg11 main_v19 (broadcastInDim S100x1x50 ![0, 2] bcast_S100x50_S100x1x50_0_2),
    unary main_v19 main_v20 (broadcastInDim S100x8192x50 ![0, 1, 2] bcast_S100x1x50_S100x8192x50_0_1_2),
    binary main_v18 main_v20 main_v21 addf,
    binary main_v21 main_arg12 main_v22 (fun l r => Host.dotGeneral dot_S100x8192x50_S100x50x100_S100x8192x100_2_1_1_2_0_0 none l r),
    unary main_arg13 main_v23 (broadcastInDim S100x1x100 ![0, 2] bcast_S100x100_S100x1x100_0_2),
    unary main_v23 main_v24 (broadcastInDim S100x8192x100 ![0, 1, 2] bcast_S100x1x100_S100x8192x100_0_1_2),
    binary main_v22 main_v24 main_v25 addf,
    binary main_v13 main_arg14 main_v26 (fun l r => Host.dotGeneral dot_S100x8192x2_S100x2x25_S100x8192x25_2_1_1_2_0_0 none l r),
    unary main_arg15 main_v27 (broadcastInDim S100x1x25 ![0, 2] bcast_S100x25_S100x1x25_0_2),
    unary main_v27 main_v28 (broadcastInDim S100x8192x25 ![0, 1, 2] bcast_S100x1x25_S100x8192x25_0_1_2),
    binary main_v26 main_v28 main_v29 addf,
    binary main_v29 main_arg16 main_v30 (fun l r => Host.dotGeneral dot_S100x8192x25_S100x25x50_S100x8192x50_2_1_1_2_0_0 none l r),
    unary main_arg17 main_v31 (broadcastInDim S100x1x50 ![0, 2] bcast_S100x50_S100x1x50_0_2),
    unary main_v31 main_v32 (broadcastInDim S100x8192x50 ![0, 1, 2] bcast_S100x1x50_S100x8192x50_0_1_2),
    binary main_v30 main_v32 main_v33 addf,
    binary main_v33 main_arg18 main_v34 (fun l r => Host.dotGeneral dot_S100x8192x50_S100x50x100_S100x8192x100_2_1_1_2_0_0 none l r),
    unary main_arg19 main_v35 (broadcastInDim S100x1x100 ![0, 2] bcast_S100x100_S100x1x100_0_2),
    unary main_v35 main_v36 (broadcastInDim S100x8192x100 ![0, 1, 2] bcast_S100x1x100_S100x8192x100_0_1_2),
    binary main_v34 main_v36 main_v37 addf ]

/-- @main is that straight line: a call is its callee's body run on the call's buffers, and sequencing a finished
    body before the rest is the rest run after the body's steps — both by computation on the program's text. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub ..,
    binary_bufs_sub .., unary_bufs_sub .., unary_bufs_sub .., binary_bufs_sub ..,
    binary_bufs_sub .., unary_bufs_sub .., unary_bufs_sub .., binary_bufs_sub ..,
    binary_bufs_sub .., unary_bufs_sub .., unary_bufs_sub .., binary_bufs_sub ..,
    binary_bufs_sub .., unary_bufs_sub .., unary_bufs_sub .., binary_bufs_sub ..,
    binary_bufs_sub .., unary_bufs_sub .., unary_bufs_sub .., binary_bufs_sub ..,
    binary_bufs_sub .., unary_bufs_sub .., unary_bufs_sub .., binary_bufs_sub ..,
    binary_bufs_sub .., unary_bufs_sub .., unary_bufs_sub .., binary_bufs_sub ..,
    binary_bufs_sub .., unary_bufs_sub .., unary_bufs_sub .., binary_bufs_sub ..,
    binary_bufs_sub .., unary_bufs_sub .., unary_bufs_sub .., binary_bufs_sub ..⟩

/-! ## What the line leaves where

Each operation writes its own result buffer and nothing else, so the fold of the sixty results read at one buffer is
that buffer's operation applied to the folds at its operands — down to the argument arrays, which no operation
writes. -/

/-- The sixty buffers the operations write, one each, in order. -/
abbrev written : List (Ref sig .tc) :=
  [ main_call0_c, main_call0_v0, main_call0_v1, main_call0_c_0, main_call0_v2, main_call0_v3, main_call0_v4, main_call0_v5,
    main_call0_c_1, main_call0_c_2, main_call0_v6, main_call0_v7, main_call0_v8, main_call0_v9, main_call0_v10, main_call0_v11,
    main_call0_c_3, main_call0_v12, main_call0_v13, main_call0_v14, main_call0_cst, main_call0_v15, main_v0,
    main_v1, main_v2, main_v3, main_v4, main_v5, main_v6, main_v7, main_v8, main_v9, main_v10, main_v11, main_v12, main_v13,
    main_v14, main_v15, main_v16, main_v17, main_v18, main_v19, main_v20, main_v21, main_v22, main_v23, main_v24, main_v25,
    main_v26, main_v27, main_v28, main_v29, main_v30, main_v31, main_v32, main_v33, main_v34, main_v35, main_v36, main_v37 ]

/-- Each operation writes one buffer, and it is on that list. -/
theorem ops_writes : (ops : List (HloOp τ sig (Elt F))).Forall fun op =>
    op.writes ⊆ (written.map (Proc.devRef (τ := τ) .tc)).toFinset := by
  simp only [List.Forall, nullary_writes, unary_writes, binary_writes, ternary_writes, Finset.singleton_subset_iff,
    List.mem_toFinset]
  repeat' constructor
  all_goals exact List.mem_map_of_mem (by decide)

/-- A buffer off that list — every argument array — holds after the line what it held before. -/
theorem kept (V : Valuation τ sig (Elt F)) {r : Ref sig .tc} (hr : r ∉ written) :
    after ops V (Proc.devRef .tc r) = V (Proc.devRef .tc r) :=
  after_of_writes_sub ops V ops_writes hr

-- the comparison walks both terms operation by operation, thirty-seven deep, and checks at each of the call's typed
-- buffers that the transport along its type equation is the identity
set_option maxRecDepth 8192 in
set_option maxHeartbeats 1000000 in
/-- The first result: reading the fold back from the last sum through each operation's operands gives the first
    decoder's three layers on the latent pairs, themselves the encoder's three layers on the gathered columns; the
    call's buffers carry their values' own types, so the transports along those type equations are identities. -/
theorem out25_eq (V : Valuation τ sig (Elt F)) :
    after ops V (main_v25 : DevRef τ sig)
      = RefTerm.decoded
          (RefTerm.latent (V (main_arg0 : DevRef τ sig)) (V (main_arg1 : DevRef τ sig)) (V (main_arg2 : DevRef τ sig))
            (V (main_arg3 : DevRef τ sig)) (V (main_arg4 : DevRef τ sig)) (V (main_arg5 : DevRef τ sig))
            (V (main_arg6 : DevRef τ sig)) (V (main_arg7 : DevRef τ sig)))
          (V (main_arg8 : DevRef τ sig)) (V (main_arg9 : DevRef τ sig)) (V (main_arg10 : DevRef τ sig))
          (V (main_arg11 : DevRef τ sig)) (V (main_arg12 : DevRef τ sig)) (V (main_arg13 : DevRef τ sig)) := by
  after_results_simp
  rfl

-- the comparison walks both terms operation by operation, thirty-seven deep, and checks at each of the call's typed
-- buffers that the transport along its type equation is the identity
set_option maxRecDepth 8192 in
set_option maxHeartbeats 1000000 in
/-- The second result likewise: the second decoder's three layers on the same latent pairs. -/
theorem out37_eq (V : Valuation τ sig (Elt F)) :
    after ops V (main_v37 : DevRef τ sig)
      = RefTerm.decoded
          (RefTerm.latent (V (main_arg0 : DevRef τ sig)) (V (main_arg1 : DevRef τ sig)) (V (main_arg2 : DevRef τ sig))
            (V (main_arg3 : DevRef τ sig)) (V (main_arg4 : DevRef τ sig)) (V (main_arg5 : DevRef τ sig))
            (V (main_arg6 : DevRef τ sig)) (V (main_arg7 : DevRef τ sig)))
          (V (main_arg14 : DevRef τ sig)) (V (main_arg15 : DevRef τ sig)) (V (main_arg16 : DevRef τ sig))
          (V (main_arg17 : DevRef τ sig)) (V (main_arg18 : DevRef τ sig)) (V (main_arg19 : DevRef τ sig)) := by
  after_results_simp
  rfl

/-- On every device, from any memory with zero counters: every weakly fair execution of @main terminates with the
    two results at the decoders' terms of the one latent term, and the twenty arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = RefTerm.decoded (RefTerm.latent (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v37) = RefTerm.decoded (RefTerm.latent (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v25).trans (out25_eq _), (h c main_v37).trans (out37_eq _),
      (h c main_arg0).trans (kept _ (by decide)), (h c main_arg1).trans (kept _ (by decide)),
      (h c main_arg2).trans (kept _ (by decide)), (h c main_arg3).trans (kept _ (by decide)),
      (h c main_arg4).trans (kept _ (by decide)), (h c main_arg5).trans (kept _ (by decide)),
      (h c main_arg6).trans (kept _ (by decide)), (h c main_arg7).trans (kept _ (by decide)),
      (h c main_arg8).trans (kept _ (by decide)), (h c main_arg9).trans (kept _ (by decide)),
      (h c main_arg10).trans (kept _ (by decide)), (h c main_arg11).trans (kept _ (by decide)),
      (h c main_arg12).trans (kept _ (by decide)), (h c main_arg13).trans (kept _ (by decide)),
      (h c main_arg14).trans (kept _ (by decide)), (h c main_arg15).trans (kept _ (by decide)),
      (h c main_arg16).trans (kept _ (by decide)), (h c main_arg17).trans (kept _ (by decide)),
      (h c main_arg18).trans (kept _ (by decide)), (h c main_arg19).trans (kept _ (by decide))⟩)
    (run_seq scopedRefs_eq scopedSems_eq defs main (fun _ => ops) main_eq (fun _ => ops_sub) m ρ)

end Cert.RefRun

end
-- ==== Proof.RefValue.lean ====
/-
  The reference's result terms read at an entry: the gather picks the named columns (every index word being a column
  number, none is moved or masked), each batched product is a sum over the contracted axis, each bias is added along
  the rows.

  Three general facts come first, each stated over arbitrary extents: a product batched over the leading axis read at
  an entry (the contraction index re-indexed to its one coordinate, each operand index identified coordinate by
  coordinate), a gather of whole columns of a table at a rectangle of index words read at an entry, and a reduction
  by "and" of one-bit words that are all one. Then the words of the index table are compared as the column numbers
  they hold, the reference's terms are read one definition at a time, and the six layers are composed.
-/
import proofs.«417956_j37340445671918_3_alg».proof.Proof.RefTerm
import proofs.«417956_j37340445671918_3_alg».proof.Proof.Views
import Idealize.ShloMosaic.PureOps.Ideal.Laws
import Idealize.ShloMosaic.PureOps.Reduce
import Idealize.ShloMosaic.Lib.ValueIdx
import Idealize.ShloMosaic.Lib.Pipeline.Value
import Idealize.ShloMosaic.Lib.IdealHost
import Idealize.ShloMosaic.Lib.Affine
import Idealize.ShloMosaic.Lib.WordArith

noncomputable section

namespace Cert.RefValue

open Cert.ReferenceIdeal Cert.ReferenceIdeal.Gen Idealize.ShloMosaic Idealize.ShloMosaic.ValueIdx Cert.RefTerm
open scoped BigOperators

/-! ## A product batched over the leading axis, read at an entry

For operands `[B, M, K]` and `[B, K, N]` and a result `[B, M, N]`, batching axis 0 of each, contracting the left
operand's axis 2 with the right operand's axis 1: entry `(e, i, j)` is the sum over `q` of `l[e, i, q] · r[e, q, j]`. -/

section Batched
variable {B M K N : ℕ}

/-- The dimension numbers of such a product, whatever the proof of their conditions. -/
abbrev batDims (B M K N : ℕ)
    (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ where
  lhsContracting := [2]
  rhsContracting := [1]
  lhsNonContracting := [1]
  rhsNonContracting := [2]
  lhsBatch := [0]
  rhsBatch := [0]
  wf := wf

variable (wf : DotDims.WF ⟨3, ![B, M, K]⟩ ⟨3, ![B, K, N]⟩ ⟨3, ![B, M, N]⟩ [2] [1] [1] [2] [0] [0])

/-- The left operand's batch coordinate is the result's. -/
theorem lhs_bat_0 (i : (⟨3, ![B, M, N]⟩ : Shape).Idx) (q : (batDims B M K N wf).contr.Idx) :
    ((batDims B M K N wf).lhsIdx i q 0).val = (i 0).val := by
  unfold DotDims.lhsIdx
  rw [dif_pos (show (0 : Fin (⟨3, ![B, M, K]⟩ : Shape).rank) ∈ (batDims B M K N wf).lhsBatch from List.mem_singleton_self _)]
  rfl

/-- The left operand's row coordinate is the result's row coordinate. -/
theorem lhs_bat_1 (i : (⟨3, ![B, M, N]⟩ : Shape).Idx) (q : (batDims B M K N wf).contr.Idx) :
    ((batDims B M K N wf).lhsIdx i q 1).val = (i 1).val := by
  unfold DotDims.lhsIdx
  rw [dif_neg (show ¬(1 : Fin (⟨3, ![B, M, K]⟩ : Shape).rank) ∈ (batDims B M K N wf).lhsBatch from
      (by decide : ¬(1 : Fin 3) ∈ ([0] : List (Fin 3)))),
    dif_pos (show (1 : Fin (⟨3, ![B, M, K]⟩ : Shape).rank) ∈ (batDims B M K N wf).lhsNonContracting from List.mem_singleton_self _)]
  rfl

/-- The left operand's last coordinate is the contraction index. -/
theorem lhs_bat_2 (i : (⟨3, ![B, M, N]⟩ : Shape).Idx) (q : (batDims B M K N wf).contr.Idx) :
    ((batDims B M K N wf).lhsIdx i q 2).val = (q ⟨0, Nat.one_pos⟩).val :=
  (batDims B M K N wf).lhsIdx_val_of_single rfl i q

/-- The right operand's batch coordinate is the result's. -/
theorem rhs_bat_0 (i : (⟨3, ![B, M, N]⟩ : Shape).Idx) (q : (batDims B M K N wf).contr.Idx) :
    ((batDims B M K N wf).rhsIdx i q 0).val = (i 0).val := by
  unfold DotDims.rhsIdx
  rw [dif_pos (show (0 : Fin (⟨3, ![B, K, N]⟩ : Shape).rank) ∈ (batDims B M K N wf).rhsBatch from List.mem_singleton_self _)]
  rfl

/-- The right operand's middle coordinate is the contraction index. -/
theorem rhs_bat_1 (i : (⟨3, ![B, M, N]⟩ : Shape).Idx) (q : (batDims B M K N wf).contr.Idx) :
    ((batDims B M K N wf).rhsIdx i q 1).val = (q ⟨0, Nat.one_pos⟩).val :=
  (batDims B M K N wf).rhsIdx_val_of_single rfl i q

/-- The right operand's last coordinate is the result's column coordinate. -/
theorem rhs_bat_2 (i : (⟨3, ![B, M, N]⟩ : Shape).Idx) (q : (batDims B M K N wf).contr.Idx) :
    ((batDims B M K N wf).rhsIdx i q 2).val = (i 2).val := by
  unfold DotDims.rhsIdx
  rw [dif_neg (show ¬(2 : Fin (⟨3, ![B, K, N]⟩ : Shape).rank) ∈ (batDims B M K N wf).rhsBatch from
      (by decide : ¬(2 : Fin 3) ∈ ([0] : List (Fin 3)))),
    dif_pos (show (2 : Fin (⟨3, ![B, K, N]⟩ : Shape).rank) ∈ (batDims B M K N wf).rhsNonContracting from List.mem_singleton_self _)]
  rfl

/-- Entry `(e, i, j)` of the batched product: the sum over `q` of `l[e, i, q] · r[e, q, j]`. -/
theorem dot_bat_apply {φ₁ φ₂ : FTy} (l : FVec Ideal ⟨3, ![B, M, K]⟩ φ₁) (r : FVec Ideal ⟨3, ![B, K, N]⟩ φ₂)
    (e : Fin B) (i : Fin M) (j : Fin N) :
    Host.dotGeneral (batDims B M K N wf) none l r (ix3 e i j) = ∑ q : Fin K, l (ix3 e i q) * r (ix3 e q j) := by
  show FloatOps.dotGeneral (batDims B M K N wf) none .single l r (ix3 e i j) = _
  rw [Ideal.dotGeneral_apply, ← Equiv.sum_comp (contrEquiv1 (batDims B M K N wf) K rfl rfl).symm]
  refine Finset.sum_congr rfl fun q _ => ?_
  have hq := contrEquiv1_symm_val (batDims B M K N wf) K rfl rfl q
  have el : (batDims B M K N wf).lhsIdx (ix3 e i j) ((contrEquiv1 (batDims B M K N wf) K rfl rfl).symm q) = ix3 e i q :=
    funext fun a => Fin.ext (by
      match a with
      | ⟨0, _⟩ => exact lhs_bat_0 wf _ _
      | ⟨1, _⟩ => exact lhs_bat_1 wf _ _
      | ⟨2, _⟩ => exact (lhs_bat_2 wf _ _).trans hq)
  have er : (batDims B M K N wf).rhsIdx (ix3 e i j) ((contrEquiv1 (batDims B M K N wf) K rfl rfl).symm q) = ix3 e q j :=
    funext fun a => Fin.ext (by
      match a with
      | ⟨0, _⟩ => exact rhs_bat_0 wf _ _
      | ⟨1, _⟩ => exact (rhs_bat_1 wf _ _).trans hq
      | ⟨2, _⟩ => exact rhs_bat_2 wf _ _)
  rw [el, er]

/-- A bias `[B, N]` spread along the rows, through `[B, 1, N]`, reads at `(e, i, k)` the bias at `(e, k)`. -/
theorem bias_apply {α : Type} (h1 : (⟨2, ![B, N]⟩ : Shape).BroadcastsInDim ⟨3, ![B, 1, N]⟩ ![0, 2])
    (h2 : (⟨3, ![B, 1, N]⟩ : Shape).BroadcastsInDim ⟨3, ![B, M, N]⟩ ![0, 1, 2])
    (b : (⟨2, ![B, N]⟩ : Shape).Idx → α) (e : Fin B) (i : Fin M) (k : Fin N) :
    broadcastInDim ⟨3, ![B, M, N]⟩ ![0, 1, 2] h2 (broadcastInDim ⟨3, ![B, 1, N]⟩ ![0, 2] h1 b) (ix3 e i k) = b (ix2 e k) := by
  have he := e.isLt
  have hk := k.isLt
  refine (broadcastInDim_apply _ h2 _ (ix3 e i k) (ix3 e (0 : Fin 1) k) fun a => ?_).trans
    (broadcastInDim_apply _ h1 b (ix3 e (0 : Fin 1) k) (ix2 e k) fun a => ?_)
  · match a with
    | ⟨0, _⟩ => show e.val = if B = 1 then 0 else e.val; split <;> omega
    | ⟨1, _⟩ => rfl
    | ⟨2, _⟩ => show k.val = if N = 1 then 0 else k.val; split <;> omega
  · match a with
    | ⟨0, _⟩ => show e.val = if B = 1 then 0 else e.val; split <;> omega
    | ⟨1, _⟩ => show k.val = if N = 1 then 0 else k.val; split <;> omega

/-- One layer, a batched product plus the bias along the rows, read along a row `(e, i, ·)` whose input row is `z`:
    the affine map of the specification. -/
theorem layer_row (h1 : (⟨2, ![B, N]⟩ : Shape).BroadcastsInDim ⟨3, ![B, 1, N]⟩ ![0, 2])
    (h2 : (⟨3, ![B, 1, N]⟩ : Shape).BroadcastsInDim ⟨3, ![B, M, N]⟩ ![0, 1, 2])
    (a : FVec Ideal ⟨3, ![B, M, K]⟩ .f32) (w : FVec Ideal ⟨3, ![B, K, N]⟩ .f32) (b : FVec Ideal ⟨2, ![B, N]⟩ .f32)
    (e : Fin B) (i : Fin M) (z : Fin K → EReal) (hz : (fun f => a (ix3 e i f)) = z) :
    (fun k => addf (Host.dotGeneral (batDims B M K N wf) none a w)
        (broadcastInDim ⟨3, ![B, M, N]⟩ ![0, 1, 2] h2 (broadcastInDim ⟨3, ![B, 1, N]⟩ ![0, 2] h1 b)) (ix3 e i k))
      = Spec.lin z (fun f k => w (ix3 e f k)) (fun k => b (ix2 e k)) := by
  subst hz
  funext k
  rw [addf_apply, dot_bat_apply, bias_apply]
  rfl

end Batched

/-! ## Whole columns of a table gathered at a rectangle of index words, read at an entry

A table `[Cn, N]` gathered at index words `[R, C, 1]` into `[Cn, R, C]`: the table's axis 0 is kept whole as the result's
axis 0, its axis 1 is collapsed and addressed by the one component of each start index, there are no batching axes.
The operand index is, on each table axis, a clamped start plus a batching coordinate plus an offset coordinate; the
three are computed one by one. Entry `(k, r, c)` is the table at `(k, col)`, `col` the word at `(r, c, 0)` read signed
and clamped into `[0, N − 1]`. -/

section Cols3
variable {α : Type}

/-- The dimension numbers of such a gather, whatever the proof of their conditions. -/
abbrev colsDims3 (Cn N R C : Nat)
    (wf : GatherDims.WF ⟨2, ![Cn, N]⟩ ⟨3, ![R, C, 1]⟩ ⟨3, ![Cn, R, C]⟩ [0] [1] [] [1] [] 2 ![Cn, 1]) :
    GatherDims ⟨2, ![Cn, N]⟩ ⟨3, ![R, C, 1]⟩ ⟨3, ![Cn, R, C]⟩ where
  offsetDims := [0]
  collapsedSliceDims := [1]
  operandBatchingDims := []
  startIndicesBatchingDims := []
  startIndexMap := [1]
  indexVectorDim := 2
  sliceSizes := ![Cn, 1]
  wf := wf

variable {Cn N R C w : Nat}
  (wf : GatherDims.WF ⟨2, ![Cn, N]⟩ ⟨3, ![R, C, 1]⟩ ⟨3, ![Cn, R, C]⟩ [0] [1] [] [1] [] 2 ![Cn, 1])

/-- No batching axes: the batching coordinate is zero on both table axes. -/
theorem cols3_batch (j : (⟨3, ![Cn, R, C]⟩ : Shape).Idx) (a : Fin 2) : (colsDims3 Cn N R C wf).batchCoord j a = 0 :=
  GatherDims.batchCoord_eq_zero _ _ _ List.not_mem_nil

/-- Axis 1 of the table is collapsed, so its offset coordinate is zero. -/
theorem cols3_off1 (j : (⟨3, ![Cn, R, C]⟩ : Shape).Idx) : (colsDims3 Cn N R C wf).offCoord j 1 = 0 :=
  GatherDims.offCoord_eq_zero _ _ _ fun h => ((GatherDims.mem_sKept _ _).1 h).1 (List.mem_singleton.2 rfl)

/-- Axis 0 of the table is not addressed by the start index: the slice starts at row zero. -/
theorem cols3_start0 (j : (⟨3, ![Cn, R, C]⟩ : Shape).Idx) (idx : IVec ⟨3, ![R, C, 1]⟩ w) :
    (colsDims3 Cn N R C wf).start j idx 0 = 0 := by
  unfold GatherDims.start
  exact dif_neg (show (0 : Fin 2) ∉ [1] by decide)

/-- Axis 0 is the table's only kept axis and the result's offset axis: the offset coordinate is the result's row. -/
theorem cols3_off0 (j : (⟨3, ![Cn, R, C]⟩ : Shape).Idx) : (colsDims3 Cn N R C wf).offCoord j 0 = (j 0).val := by
  unfold GatherDims.offCoord
  rw [dif_pos ((GatherDims.mem_sKept _ _).2 ⟨show (0 : Fin 2) ∉ [1] by decide, List.not_mem_nil⟩)]
  rfl

/-- Axis 1 is component 0 of the start index, read at the index words' position `(j 1, j 2, 0)`, signed, and clamped to
    `N − 1`. -/
theorem cols3_start1 (j : (⟨3, ![Cn, R, C]⟩ : Shape).Idx) (idx : IVec ⟨3, ![R, C, 1]⟩ w) :
    (colsDims3 Cn N R C wf).start j idx 1 = min (idx (ix3 (j 1) (j 2) (0 : Fin 1))).toInt.toNat (N - 1) := by
  unfold GatherDims.start
  rw [dif_pos (List.mem_singleton.2 rfl)]
  have hsi : (colsDims3 Cn N R C wf).siIdx j ⟨List.idxOf (1 : Fin 2) (colsDims3 Cn N R C wf).startIndexMap,
      List.idxOf_lt_length_iff.2 (List.mem_singleton.2 rfl)⟩ = ix3 (j 1) (j 2) (0 : Fin 1) := by
    funext b
    refine Fin.ext ?_
    match b with
    | ⟨0, _⟩ => rfl
    | ⟨1, _⟩ => rfl
    | ⟨2, _⟩ => rfl
  rw [hsi]
  rfl

/-- The gather read at `(k, r, c)`. -/
theorem cols3_apply (hN : 0 < N) (x : (⟨2, ![Cn, N]⟩ : Shape).Idx → α) (idx : IVec ⟨3, ![R, C, 1]⟩ w)
    (k : Fin Cn) (r : Fin R) (c : Fin C) :
    Host.gather (colsDims3 Cn N R C wf) x idx (ix3 k r c)
      = x (ix2 k (⟨min (idx (ix3 r c (0 : Fin 1))).toInt.toNat (N - 1), by omega⟩ : Fin N)) := by
  unfold Host.gather
  refine congrArg x (funext fun a => Fin.ext ?_)
  match a with
  | ⟨0, _⟩ =>
    show (colsDims3 Cn N R C wf).start (ix3 k r c) idx 0 + (colsDims3 Cn N R C wf).batchCoord (ix3 k r c) 0
      + (colsDims3 Cn N R C wf).offCoord (ix3 k r c) 0 = _
    rw [cols3_start0, cols3_batch, cols3_off0]
    show 0 + 0 + k.val = k.val
    omega
  | ⟨1, _⟩ =>
    show (colsDims3 Cn N R C wf).start (ix3 k r c) idx 1 + (colsDims3 Cn N R C wf).batchCoord (ix3 k r c) 1
      + (colsDims3 Cn N R C wf).offCoord (ix3 k r c) 1 = _
    rw [cols3_start1, cols3_batch, cols3_off1]
    rfl

/-- When the word at `(r, c, 0)` is a column number `col < N`, the entry is the table at `(k, col)`. -/
theorem cols3_apply_of_col (x : (⟨2, ![Cn, N]⟩ : Shape).Idx → α) (idx : IVec ⟨3, ![R, C, 1]⟩ w)
    (k : Fin Cn) (r : Fin R) (c : Fin C) (col : Fin N) (hcol : (idx (ix3 r c (0 : Fin 1))).toInt = (col.val : ℤ)) :
    Host.gather (colsDims3 Cn N R C wf) x idx (ix3 k r c) = x (ix2 k col) := by
  have hN : 0 < N := Nat.lt_of_le_of_lt (Nat.zero_le _) col.isLt
  rw [cols3_apply wf hN x idx k r c]
  refine congrArg (fun a => x (ix2 k a)) (Fin.ext ?_)
  show min (idx (ix3 r c (0 : Fin 1))).toInt.toNat (N - 1) = col.val
  rw [hcol, Int.toNat_natCast]
  have := col.isLt
  omega

end Cols3

/-! ## A reduction by "and" of one-bit words that are all one, and the index words compared as column numbers -/

/-- A reduction by "and", from the word one, of an array whose words are all one, is one at every result index. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  obtain rfl : x = fun _ => 1#1 := funext hx
  generalize (((List.finRange s.numel).map s.rowMajor.symm).filter fun i => h.drop i = j) = l
  have e : IntOp.andi (1#1 : BitVec 1) 1#1 = 1#1 := by decide
  induction l with
  | nil => rfl
  | cons a l ih => simp only [List.foldl_cons, e]; exact ih

/-- A column number below 100, as a 32-bit word, reads signed as itself. -/
theorem toInt_col (k : ℕ) (hk : k < 100) : (BitVec.ofNat 32 k).toInt = (k : ℤ) :=
  WordArith.toInt_ofNat_small k (by omega)

/-- Such a word is not negative … -/
theorem col_not_neg (k : ℕ) (hk : k < 100) : IntOp.cmpi .slt (BitVec.ofNat 32 k) 0#32 = 0#1 :=
  eq_zero_of_ne_one fun h => by
    have h' := IntOp.cmpi_slt.1 h
    have h0 : (0#32 : BitVec 32).toInt = 0 := by decide
    rw [toInt_col k hk, h0] at h'
    omega

/-- … and lies in `[0, 99]`. -/
theorem col_in_range (k : ℕ) (hk : k < 100) :
    IntOp.andi (IntOp.cmpi .sge (BitVec.ofNat 32 k) 0#32) (IntOp.cmpi .sle (BitVec.ofNat 32 k) 99#32) = 1#1 := by
  have h0 : (0#32 : BitVec 32).toInt = 0 := by decide
  have h99 : (99#32 : BitVec 32).toInt = 99 := by decide
  refine IntOp.andi_eq_one.2 ⟨IntOp.cmpi_sge.2 ?_, IntOp.cmpi_sle.2 ?_⟩
  · rw [toInt_col k hk, h0]; omega
  · rw [toInt_col k hk, h99]; omega

/-! ## The six layers, by their sizes

Each is the general layer at its own extents: along the row `(e, n, ·)` whose input row is `z`, the affine map with
estimator `e`'s weight and bias. -/

theorem lay10_5_row (a : T (F := Ideal) S100x8192x10 .f32) (w : T (F := Ideal) S100x10x5 .f32) (b : T (F := Ideal) S100x5 .f32)
    (e : Fin 100) (n : Fin 8192) (z : Fin 10 → EReal) (hz : (fun f => a (ix3 e n f)) = z) :
    (fun k => lay10_5 (F := Ideal) a w b (ix3 e n k)) = Spec.lin z (fun f k => w (ix3 e f k)) (fun k => b (ix2 e k)) :=
  layer_row dot_S100x8192x10_S100x10x5_S100x8192x5_2_1_1_2_0_0_wf
    bcast_S100x5_S100x1x5_0_2 bcast_S100x1x5_S100x8192x5_0_1_2 a w b e n z hz

theorem lay5_2_row (a : T (F := Ideal) S100x8192x5 .f32) (w : T (F := Ideal) S100x5x2 .f32) (b : T (F := Ideal) S100x2 .f32)
    (e : Fin 100) (n : Fin 8192) (z : Fin 5 → EReal) (hz : (fun f => a (ix3 e n f)) = z) :
    (fun k => lay5_2 (F := Ideal) a w b (ix3 e n k)) = Spec.lin z (fun f k => w (ix3 e f k)) (fun k => b (ix2 e k)) :=
  layer_row dot_S100x8192x5_S100x5x2_S100x8192x2_2_1_1_2_0_0_wf
    bcast_S100x2_S100x1x2_0_2 bcast_S100x1x2_S100x8192x2_0_1_2 a w b e n z hz

theorem lay2_2_row (a : T (F := Ideal) S100x8192x2 .f32) (w : T (F := Ideal) S100x2x2 .f32) (b : T (F := Ideal) S100x2 .f32)
    (e : Fin 100) (n : Fin 8192) (z : Fin 2 → EReal) (hz : (fun f => a (ix3 e n f)) = z) :
    (fun k => lay2_2 (F := Ideal) a w b (ix3 e n k)) = Spec.lin z (fun f k => w (ix3 e f k)) (fun k => b (ix2 e k)) :=
  layer_row dot_S100x8192x2_S100x2x2_S100x8192x2_2_1_1_2_0_0_wf
    bcast_S100x2_S100x1x2_0_2 bcast_S100x1x2_S100x8192x2_0_1_2 a w b e n z hz

theorem lay2_25_row (a : T (F := Ideal) S100x8192x2 .f32) (w : T (F := Ideal) S100x2x25 .f32) (b : T (F := Ideal) S100x25 .f32)
    (e : Fin 100) (n : Fin 8192) (z : Fin 2 → EReal) (hz : (fun f => a (ix3 e n f)) = z) :
    (fun k => lay2_25 (F := Ideal) a w b (ix3 e n k)) = Spec.lin z (fun f k => w (ix3 e f k)) (fun k => b (ix2 e k)) :=
  layer_row dot_S100x8192x2_S100x2x25_S100x8192x25_2_1_1_2_0_0_wf
    bcast_S100x25_S100x1x25_0_2 bcast_S100x1x25_S100x8192x25_0_1_2 a w b e n z hz

theorem lay25_50_row (a : T (F := Ideal) S100x8192x25 .f32) (w : T (F := Ideal) S100x25x50 .f32) (b : T (F := Ideal) S100x50 .f32)
    (e : Fin 100) (n : Fin 8192) (z : Fin 25 → EReal) (hz : (fun f => a (ix3 e n f)) = z) :
    (fun k => lay25_50 (F := Ideal) a w b (ix3 e n k)) = Spec.lin z (fun f k => w (ix3 e f k)) (fun k => b (ix2 e k)) :=
  layer_row dot_S100x8192x25_S100x25x50_S100x8192x50_2_1_1_2_0_0_wf
    bcast_S100x50_S100x1x50_0_2 bcast_S100x1x50_S100x8192x50_0_1_2 a w b e n z hz

theorem lay50_100_row (a : T (F := Ideal) S100x8192x50 .f32) (w : T (F := Ideal) S100x50x100 .f32) (b : T (F := Ideal) S100x100 .f32)
    (e : Fin 100) (n : Fin 8192) (z : Fin 50 → EReal) (hz : (fun f => a (ix3 e n f)) = z) :
    (fun k => lay50_100 (F := Ideal) a w b (ix3 e n k)) = Spec.lin z (fun f k => w (ix3 e f k)) (fun k => b (ix2 e k)) :=
  layer_row dot_S100x8192x50_S100x50x100_S100x8192x100_2_1_1_2_0_0_wf
    bcast_S100x100_S100x1x100_0_2 bcast_S100x1x100_S100x8192x100_0_1_2 a w b e n z hz

/-! ## The column choice, one definition at a time

Every index word holds a column number below 100. So no word is negative and none is moved up by the row length; every
word lies in `[0, 99]`, so the range mask is one everywhere and the fill word is never taken; and the gather's clamp
does nothing: entry `(n, e, f)` of the chosen columns is the input at row `n`, column `idx e f`. -/

section Terms
variable (x : T (F := Ideal) S8192x100 .f32) (rs : T (F := Ideal) S100x10 .i32)
  (idx : Fin 100 → Fin 10 → Fin 100) (hidx : Views.Decodes rs idx)
include hidx

/-- No index word is moved. -/
theorem wrapped_apply (e : Fin 100) (f : Fin 10) : wrapped (F := Ideal) rs (ix2 e f) = rs (ix2 e f) := by
  show Scalar.select (IntOp.cmpi .slt (rs (ix2 e f)) 0#32) (IntOp.addi (rs (ix2 e f)) 100#32) (rs (ix2 e f)) = rs (ix2 e f)
  rw [hidx e f, col_not_neg _ (idx e f).isLt, select_zero]

/-- The start indices are the index words, whatever the coordinate on the unit axis. -/
theorem starts_apply (e : Fin 100) (f : Fin 10) (u : Fin 1) : starts (F := Ideal) rs (ix3 e f u) = rs (ix2 e f) := by
  show broadcastInDim S100x10x1 ![0, 1] bcast_S100x10_S100x10x1_0_1 (wrapped (F := Ideal) rs) (ix3 e f u) = _
  exact (broadcastInDim_apply _ bcast_S100x10_S100x10x1_0_1 (wrapped (F := Ideal) rs) (ix3 e f u) (ix2 e f)
    fun a => match a with | ⟨0, _⟩ => rfl | ⟨1, _⟩ => rfl).trans (wrapped_apply rs idx hidx e f)

/-- Every index word is in range. -/
theorem inRange_apply (e : Fin 100) (f : Fin 10) : inRange (F := Ideal) rs (ix2 e f) = 1#1 := by
  unfold inRange
  refine reduce_andi_of_all _ _ _ _ _ (fun i => ?_) rfl
  obtain ⟨a, b, c, rfl⟩ : ∃ (a : Fin 100) (b : Fin 10) (c : Fin 1), i = ix3 a b c := ⟨i 0, i 1, i 2, eq_ix3 i⟩
  show IntOp.andi (IntOp.cmpi .sge (starts (F := Ideal) rs (ix3 a b c)) 0#32)
    (IntOp.cmpi .sle (starts (F := Ideal) rs (ix3 a b c)) 99#32) = 1#1
  rw [starts_apply rs idx hidx a b c, hidx a b]
  exact col_in_range _ (idx a b).isLt

/-- The chosen columns at `(n, e, f)`: the input at row `n`, column `idx e f`. -/
theorem taken_apply (n : Fin 8192) (e : Fin 100) (f : Fin 10) :
    taken (F := Ideal) x rs (ix3 n e f) = x (ix2 n (idx e f)) := by
  have hc : broadcastInDim S8192x100x10 ![1, 2] bcast_S100x10_S8192x100x10_1_2 (inRange (F := Ideal) rs) (ix3 n e f) = 1#1 :=
    (broadcastInDim_apply _ bcast_S100x10_S8192x100x10_1_2 (inRange (F := Ideal) rs) (ix3 n e f) (ix2 e f)
      fun a => match a with | ⟨0, _⟩ => rfl | ⟨1, _⟩ => rfl).trans (inRange_apply rs idx hidx e f)
  have hg : Host.gather gather_S8192x100_S100x10x1_S8192x100x10_0_1_n_n_1_2_81921 x (starts (F := Ideal) rs) (ix3 n e f)
      = x (ix2 n (idx e f)) :=
    cols3_apply_of_col gather_S8192x100_S100x10x1_S8192x100x10_0_1_n_n_1_2_81921_wf x (starts (F := Ideal) rs) n e f (idx e f)
      (by rw [starts_apply rs idx hidx e f 0, hidx e f]; exact toInt_col _ (idx e f).isLt)
  show Scalar.select (broadcastInDim S8192x100x10 ![1, 2] bcast_S100x10_S8192x100x10_1_2 (inRange (F := Ideal) rs) (ix3 n e f))
      (Host.gather gather_S8192x100_S100x10x1_S8192x100x10_0_1_n_n_1_2_81921 x (starts (F := Ideal) rs) (ix3 n e f))
      (broadcastInDim S8192x100x10 ![] bcast_S_S8192x100x10 (constant (F := Ideal) S_ .f32 0x7FC00000#32) (ix3 n e f)) = _
  rw [hc, select_one, hg]

/-- With the estimator axis in front: entry `(e, n, f)` is the input at row `n`, column `idx e f`. -/
theorem gathered_apply (e : Fin 100) (n : Fin 8192) (f : Fin 10) :
    gathered (F := Ideal) x rs (ix3 e n f) = x (ix2 n (idx e f)) := by
  show transpose S100x8192x10 [1, 0, 2] (taken (F := Ideal) x rs) transposes_S8192x100x10_S100x8192x10_1_0_2 (ix3 e n f) = _
  exact (transpose_apply _ (taken (F := Ideal) x rs) transposes_S8192x100x10_S100x8192x10_1_0_2 (ix3 e n f) (ix3 n e f)
    fun c => match c with | ⟨0, _⟩ => rfl | ⟨1, _⟩ => rfl | ⟨2, _⟩ => rfl).trans (taken_apply x rs idx hidx n e f)

end Terms

/-! ## The composition -/

/-- Entry `(e, n, j)` of a decoder's term over the latent term is the specification's entry. -/
theorem decoded_latent_apply
    (x : T (F := Ideal) S8192x100 .f32) (rs : T (F := Ideal) S100x10 .i32)
    (w0 : T (F := Ideal) S100x10x5 .f32) (b0 : T (F := Ideal) S100x5 .f32) (w1 : T (F := Ideal) S100x5x2 .f32) (b1 : T (F := Ideal) S100x2 .f32)
    (w2 : T (F := Ideal) S100x2x2 .f32) (b2 : T (F := Ideal) S100x2 .f32)
    (dw0 : T (F := Ideal) S100x2x25 .f32) (db0 : T (F := Ideal) S100x25 .f32) (dw1 : T (F := Ideal) S100x25x50 .f32) (db1 : T (F := Ideal) S100x50 .f32)
    (dw2 : T (F := Ideal) S100x50x100 .f32) (db2 : T (F := Ideal) S100x100 .f32)
    (idx : Fin 100 → Fin 10 → Fin 100) (hidx : Views.Decodes rs idx) (e : Fin 100) (n : Fin 8192) (j : Fin 100) :
    decoded (F := Ideal) (latent x rs w0 b0 w1 b1 w2 b2) dw0 db0 dw1 db1 dw2 db2 (ix3 e n j)
      = Spec.out (Views.encOf x w0 b0 w1 b1 w2 b2) (Views.decOf dw0 db0 dw1 db1 dw2 db2) idx e n j := by
  have g : (fun f => gathered (F := Ideal) x rs (ix3 e n f)) = fun f => x (ix2 n (idx e f)) :=
    funext fun f => gathered_apply x rs idx hidx e n f
  have l1 := lay10_5_row (gathered (F := Ideal) x rs) w0 b0 e n _ g
  have l2 := lay5_2_row (lay10_5 (F := Ideal) (gathered (F := Ideal) x rs) w0 b0) w1 b1 e n _ l1
  have l3 := lay2_2_row (lay5_2 (F := Ideal) (lay10_5 (F := Ideal) (gathered (F := Ideal) x rs) w0 b0) w1 b1) w2 b2 e n _ l2
  have d1 := lay2_25_row (latent (F := Ideal) x rs w0 b0 w1 b1 w2 b2) dw0 db0 e n _ l3
  have d2 := lay25_50_row (lay2_25 (F := Ideal) (latent (F := Ideal) x rs w0 b0 w1 b1 w2 b2) dw0 db0) dw1 db1 e n _ d1
  have d3 := lay50_100_row (lay25_50 (F := Ideal) (lay2_25 (F := Ideal) (latent (F := Ideal) x rs w0 b0 w1 b1 w2 b2) dw0 db0) dw1 db1)
    dw2 db2 e n _ d2
  exact congrFun d3 j

end Cert.RefValue

end
-- ==== Proof.PreFacts.lean ====
/-
  What the precondition says of the arrays the proof needs it for: the input rows and the first weight hold real
  numbers, and every index word is a column number below 100.
-/
import proofs.«417956_j37340445671918_3_alg».proof.Pre_finite_inputs
import proofs.«417956_j37340445671918_3_alg».proof.Proof.Gen.Pre_finite_inputs
import proofs.«417956_j37340445671918_3_alg».proof.Proof.Views
import Idealize.ShloMosaic.Lib.ReduceAll

noncomputable section

namespace Cert.PreFacts

open Cert.Pre_finite_inputs Cert.Pre_finite_inputs.Gen Idealize.ShloMosaic Idealize.ShloMosaic.ValueIdx

/-- The scalar shape has one index. -/
private instance : Subsingleton S_.Idx := ⟨fun a b => funext fun d => d.elim0⟩

/-- An extended real whose absolute value is below the pattern of +∞ is a real number. -/
private theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have htop : Ideal.ofBits .f32 0x7F800000#32 = (⊤ : EReal) := by simp [Ideal.ofBits, Ideal.ieee]
  change BitVec.ofBool (decide (max x (-x) < Ideal.ofBits .f32 0x7F800000#32)) = 1#1 at h
  rw [htop] at h
  induction x using EReal.rec with
  | bot => simp at h
  | coe r => exact ⟨r, rfl⟩
  | top => simp at h

/-- The conjunction over all entries of `|a| < +∞`, read back: every entry of the array is a real number. -/
private theorem all_real {s : Shape} {axes : List (Fin s.rank)} (a : FVec Ideal s .f32)
    (hb : S_.BroadcastsInDim s (![] : Fin 0 → Fin s.rank)) (hr : s.ReducesTo axes S_)
    (e : Host.reduce IntOp.andi (cmpf .olt (Host.absf a) (broadcastInDim s ![] hb (constant (F := Ideal) S_ .f32 0x7F800000#32)))
      (constantI S_ 1 1#1) hr h_S_ ix0 = 1#1) :
    ∀ i, ∃ r : ℝ, a i = (r : EReal) := fun i =>
  real_of_abs_lt_inf (a i) (Host.reduce_andi_all _ _ hr h_S_ ix0 e i)

/-- A word in [0, n) signed is the word of its value, which is below n. -/
private theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  rw [IntOp.cmpi_sge] at h0
  rw [IntOp.cmpi_slt] at h1
  have h32 := w.isLt
  have hz : (0#32 : BitVec 32).toInt = 0 := by decide
  have hnn : (BitVec.ofNat 32 n).toInt = n := by
    rw [BitVec.toInt_eq_msb_cond, BitVec.msb_eq_false_iff_two_mul_lt.mpr (by simp [BitVec.toNat_ofNat]; omega)]
    simp [BitVec.toNat_ofNat]; omega
  rw [hz] at h0
  rw [hnn] at h1
  rw [BitVec.toInt_eq_toNat_cond] at h0 h1
  split at h0 <;> omega

theorem of_pre (a0 : FVec Ideal S8192x100 .f32) (a1 : IVec S100x10 32) (a2 : FVec Ideal S100x10x5 .f32) (a3 : FVec Ideal S100x5 .f32) (a4 : FVec Ideal S100x5x2 .f32) (a5 : FVec Ideal S100x2 .f32) (a6 : FVec Ideal S100x2x2 .f32) (a7 : FVec Ideal S100x2 .f32) (a8 : FVec Ideal S100x2x25 .f32) (a9 : FVec Ideal S100x25 .f32) (a10 : FVec Ideal S100x25x50 .f32) (a11 : FVec Ideal S100x50 .f32) (a12 : FVec Ideal S100x50x100 .f32) (a13 : FVec Ideal S100x100 .f32) (a14 : FVec Ideal S100x2x25 .f32) (a15 : FVec Ideal S100x25 .f32) (a16 : FVec Ideal S100x25x50 .f32) (a17 : FVec Ideal S100x50 .f32) (a18 : FVec Ideal S100x50x100 .f32) (a19 : FVec Ideal S100x100 .f32)
    (h : Cert.Pre_finite_inputs.fn (F := Ideal) a0 a1 a2 a3 a4 a5 a6 a7 a8 a9 a10 a11 a12 a13 a14 a15 a16 a17 a18 a19 = (fun _ => 1#1)) :
    (∀ i, ∃ r : ℝ, a0 i = (r : EReal)) ∧ (∀ i, ∃ r : ℝ, a2 i = (r : EReal))
      ∧ ∃ idx : Fin 100 → Fin 10 → Fin 100, Views.Decodes a1 idx := by
  -- the claim at the one index of the scalar result, the chain of operations unfolded: a conjunction of reductions
  have e := congrFun h ix0
  dsimp only [fn, fn_part1, fn_part2, fn_part3, fn_part4, fn_part5, andi] at e
  simp only [IntOp.andi_eq_one] at e
  obtain ⟨⟨⟨⟨⟨⟨⟨⟨⟨⟨⟨⟨⟨⟨⟨⟨⟨⟨⟨⟨h0, h2⟩, -⟩, -⟩, -⟩, -⟩, -⟩, -⟩, -⟩, -⟩, -⟩, -⟩, -⟩, -⟩, -⟩, -⟩, -⟩, -⟩, -⟩, hge⟩, hlt⟩ := e
  -- every index word is at least 0 and below 100, signed
  have hge' : ∀ i, IntOp.cmpi .sge (a1 i) (0#32) = 1#1 := fun i => Host.reduce_andi_all _ _ _ h_S_ ix0 hge i
  have hlt' : ∀ i, IntOp.cmpi .slt (a1 i) (BitVec.ofNat 32 100) = 1#1 := fun i => Host.reduce_andi_all _ _ _ h_S_ ix0 hlt i
  have hb : ∀ i, (a1 i).toNat < 100 := fun i => toNat_lt_of_signed _ 100 (by decide) (hge' i) (hlt' i)
  refine ⟨all_real a0 _ _ h0, all_real a2 _ _ h2, fun e f => ⟨(a1 (ix2 e f)).toNat, hb _⟩, fun e f => ?_⟩
  -- a word is the word of its own value
  show a1 (ix2 e f) = BitVec.ofNat 32 (a1 (ix2 e f)).toNat
  exact (BitVec.eq_of_toNat_eq (by rw [BitVec.toNat_ofNat]; exact (Nat.mod_eq_of_lt (a1 (ix2 e f)).isLt).symm))

end Cert.PreFacts

end
-- ==== Proof.lean ====
/-
  The claim: a 100-estimator ensemble of small linear encoder/decoder chains, computed by the kernel four
  estimators at a time over packed block-diagonal weights (the column choice folded into the first weight as a
  product with a 0/1 matrix), against the reference's column gather and per-estimator batched products.

  Both programs end with the two result arrays at `Views.G`, entry `(e, n, j)` being estimator `e`'s decoder
  output `j` for row `n` (Spec.lean). The kernel side: what a grid point writes back is a block of `G`
  (KerPay.lean reads the body, KerHost*.lean the packed arrays the host builds, Math*.lean shows the packed
  computation is the per-estimator one, KerBlock.lean tiles the blocks). The reference side: its run by hand
  (RefRun.lean) ends at the terms of RefTerm.lean, read entry by entry in RefValue.lean. The precondition is used
  twice: the input rows and the first weight are real numbers (folding the column choice into the weight needs
  distributivity), and every index word is a column number (PreFacts.lean).
-/
import proofs.«417956_j37340445671918_3_alg».proof.Defs
import proofs.«417956_j37340445671918_3_alg».proof.Proof.Gen.Kernel
import proofs.«417956_j37340445671918_3_alg».proof.Proof.Gen.Kernel.Skeleton
import proofs.«417956_j37340445671918_3_alg».proof.Proof.Gen.Kernel.Launch
import proofs.«417956_j37340445671918_3_alg».proof.Proof.Gen.Kernel.Points
import proofs.«417956_j37340445671918_3_alg».proof.Proof.Gen.Kernel.Frame
import proofs.«417956_j37340445671918_3_alg».proof.Proof.Gen.KernelIdeal
import proofs.«417956_j37340445671918_3_alg».proof.Proof.Gen.KernelIdeal.Skeleton
import proofs.«417956_j37340445671918_3_alg».proof.Proof.Gen.KernelIdeal.Launch
import proofs.«417956_j37340445671918_3_alg».proof.Proof.Gen.KernelIdeal.Points
import proofs.«417956_j37340445671918_3_alg».proof.Proof.Gen.KernelIdeal.Frame
import proofs.«417956_j37340445671918_3_alg».proof.Proof.Gen.ReferenceIdeal
import proofs.«417956_j37340445671918_3_alg».proof.Proof.Gen.Pre_finite_inputs
import proofs.«417956_j37340445671918_3_alg».proof.Proof.KerBlock
import proofs.«417956_j37340445671918_3_alg».proof.Proof.RefRun
import proofs.«417956_j37340445671918_3_alg».proof.Proof.RefValue
import proofs.«417956_j37340445671918_3_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.RefRun.run (F := Ideal) m ρ)

theorem preserves : Cert.preserves_Kernel_KernelIdeal := trivial

/-- Both runs end with the result arrays at `Views.G` of the arguments, which agree. -/
theorem algebraic : Cert.algebraic_KernelIdeal_ReferenceIdeal := by
  intro m ρ m' ρ' hpre hagree
  have hP := fun c : Dev Cert.KernelIdeal.nD => Cert.PreFacts.of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (hpre c)
  choose hx hw0 idx hidx using hP
  have hx' : ∀ c n d, ∃ r : ℝ, (Cert.KerBlock.encP m c).x n d = (r : EReal) := fun c n d => hx c (ix2 n d)
  have hw0' : ∀ c e f k, ∃ r : ℝ, (Cert.KerBlock.encP m c).w0 e f k = (r : EReal) := fun c e f k => hw0 c (ix3 e f k)
  refine ⟨fun c => Cert.Views.G (Cert.KerBlock.encP m c) (Cert.KerBlock.decHi m c) (idx c),
    fun c => Cert.Views.G (Cert.KerBlock.encP m c) (Cert.KerBlock.decLo m c) (idx c), ?_, ?_⟩
  · exact (θ_run Cert.KernelIdeal.defs _ _).mono (fun r h c =>
      ⟨(h c).1.trans (Cert.KerBlock.final19 m c (idx c) (hidx c) (hx' c) (hw0' c)),
        (h c).2.1.trans (Cert.KerBlock.final20 m c (idx c) (hidx c) (hx' c) (hw0' c)), (h c).2.2⟩)
      (Cert.KernelIdeal.Value.run_blocks (F := Ideal) m ρ)
  · refine (θ_run Cert.ReferenceIdeal.defs _ _).mono (fun r h c => ⟨(h c).1.trans ?_, (h c).2.1.trans ?_, (h c).2.2⟩)
      (Cert.RefRun.run (F := Ideal) m' ρ')
    · obtain ⟨a0, a1, a2, a3, a4, a5, a6, a7, a8, a9, a10, a11, a12, a13, a14, a15, a16, a17, a18, a19⟩ := hagree c
      rw [a0, a1, a2, a3, a4, a5, a6, a7, a8, a9, a10, a11, a12, a13]
      funext i
      obtain ⟨e, n, j, rfl⟩ : ∃ (e : Fin 100) (n : Fin 8192) (j : Fin 100), i = ix3 e n j := ⟨i 0, i 1, i 2, eq_ix3 i⟩
      exact Cert.RefValue.decoded_latent_apply _ _ _ _ _ _ _ _ _ _ _ _ _ _ (idx c) (hidx c) e n j
    · obtain ⟨a0, a1, a2, a3, a4, a5, a6, a7, a8, a9, a10, a11, a12, a13, a14, a15, a16, a17, a18, a19⟩ := hagree c
      rw [a0, a1, a2, a3, a4, a5, a6, a7, a14, a15, a16, a17, a18, a19]
      funext i
      obtain ⟨e, n, j, rfl⟩ : ∃ (e : Fin 100) (n : Fin 8192) (j : Fin 100), i = ix3 e n j := ⟨i 0, i 1, i 2, eq_ix3 i⟩
      exact Cert.RefValue.decoded_latent_apply _ _ _ _ _ _ _ _ _ _ _ _ _ _ (idx c) (hidx c) e n j

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
